-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32 : Shape := ⟨1, ![32]⟩
abbrev S32x2048 : Shape := ⟨2, ![32, 2048]⟩
abbrev S3x1024x1024 : Shape := ⟨3, ![3, 1024, 1024]⟩
abbrev S3x1024 : Shape := ⟨2, ![3, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S3x1024x1024 : S_.BroadcastsInDim S3x1024x1024 (![] : Fin 0 → Fin S3x1024x1024.rank)
  reducesTo_S3x1024x1024_S_d0_1_2 : S3x1024x1024.ReducesTo [0, 1, 2] S_
  bcast_S_S3x1024 : S_.BroadcastsInDim S3x1024 (![] : Fin 0 → Fin S3x1024.rank)
  reducesTo_S3x1024_S_d0_1 : S3x1024.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg1 : IVec S32 32) (main_arg6 : FVec F S3x1024 .f32) (main_v13 : IVec S_ 1) (main_v16 : IVec S3x1024 1) : IVec S_ 1 :=
  let main_c_5 : IVec S_ 1 := constantI S_ 1 1#1
  let main_v17 : IVec S_ 1 := (fun x v => Host.reduce IntOp.andi x v reducesTo_S3x1024_S_d0_1 h_S_) main_v16 main_c_5
  let main_v18 : IVec S_ 1 := andi main_v13 main_v17
  let main_v19 : FVec F S3x1024 .f32 := Host.absf main_arg6
  let main_cst_6 : FVec F S_ .f32 := constant S_ .f32 0x7F800000#32
  let main_v20 : FVec F S3x1024 .f32 := broadcastInDim S3x1024 ![] bcast_S_S3x1024 main_cst_6
  let main_v21 : IVec S3x1024 1 := cmpf .olt main_v19 main_v20
  let main_c_7 : IVec S_ 1 := constantI S_ 1 1#1
  let main_v22 : IVec S_ 1 := (fun x v => Host.reduce IntOp.andi x v reducesTo_S3x1024_S_d0_1 h_S_) main_v21 main_c_7
  let main_v23 : IVec S_ 1 := andi main_v18 main_v22
  let main_c_8 : IVec S_ 32 := constantI S_ 32 0#32
  let main_v24 : IVec S32 32 := broadcastInDim S32 ![] bcast_S_S32 main_c_8
  let main_v25 : IVec S32 1 := cmpi .sge main_arg1 main_v24
  let main_c_9 : IVec S_ 32 := constantI S_ 32 3#32
  let main_v26 : IVec S32 32 := broadcastInDim S32 ![] bcast_S_S32 main_c_9
  let main_v27 : IVec S32 1 := cmpi .slt main_arg1 main_v26
  let main_v28 : IVec S32 1 := andi main_v25 main_v27
  let main_c_10 : IVec S_ 1 := constantI S_ 1 1#1
  let main_v29 : IVec S_ 1 := (fun x v => Host.reduce IntOp.andi x v reducesTo_S32_S_d0 h_S_) main_v28 main_c_10
  let main_v30 : IVec S_ 1 := andi main_v23 main_v29
  main_v30

def fn {F : FTy → Type} [FloatOps F] (main_arg0 : FVec F S32x2048x1024 .f32) (main_arg1 : IVec S32 32) (main_arg2 : IVec S32x2048 32) (main_arg3 : FVec F S3x1024x1024 .f32) (main_arg4 : FVec F S3x1024 .f32) (main_arg5 : FVec F S3x1024 .f32) (main_arg6 : FVec F S3x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S3x1024x1024 .f32 := Host.absf main_arg3
  let main_cst_0 : FVec F S_ .f32 := constant S_ .f32 0x7F800000#32
  let main_v5 : FVec F S3x1024x1024 .f32 := broadcastInDim S3x1024x1024 ![] bcast_S_S3x1024x1024 main_cst_0
  let main_v6 : IVec S3x1024x1024 1 := cmpf .olt main_v4 main_v5
  let main_c_1 : IVec S_ 1 := constantI S_ 1 1#1
  let main_v7 : IVec S_ 1 := (fun x v => Host.reduce IntOp.andi x v reducesTo_S3x1024x1024_S_d0_1_2 h_S_) main_v6 main_c_1
  let main_v8 : IVec S_ 1 := andi main_v3 main_v7
  let main_v9 : FVec F S3x1024 .f32 := Host.absf main_arg4
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_c_3 : IVec S_ 1 := constantI S_ 1 1#1
  let main_v12 : IVec S_ 1 := (fun x v => Host.reduce IntOp.andi x v reducesTo_S3x1024_S_d0_1 h_S_) main_v11 main_c_3
  let main_v13 : IVec S_ 1 := andi main_v8 main_v12
  let main_v14 : FVec F S3x1024 .f32 := Host.absf main_arg5
  let main_cst_4 : FVec F S_ .f32 := constant S_ .f32 0x7F800000#32
  let main_v15 : FVec F S3x1024 .f32 := broadcastInDim S3x1024 ![] bcast_S_S3x1024 main_cst_4
  let main_v16 : IVec S3x1024 1 := cmpf .olt main_v14 main_v15
  fn_part1 (F := F) main_arg1 main_arg6 main_v13 main_v16
-- ==== Kernel.lean ====
abbrev S32x2048x1024 : Shape := ⟨3, ![32, 2048, 1024]⟩
abbrev S32 : Shape := ⟨1, ![32]⟩
abbrev S32x2048 : Shape := ⟨2, ![32, 2048]⟩
abbrev S3x1024x1024 : Shape := ⟨3, ![3, 1024, 1024]⟩
abbrev S3x1024 : Shape := ⟨2, ![3, 1024]⟩
abbrev S_ : Shape := ⟨0, ![]⟩
abbrev S32x2048x1 : Shape := ⟨3, ![32, 2048, 1]⟩
abbrev S32x1x1024 : Shape := ⟨3, ![32, 1, 1024]⟩
abbrev S1x512x1024 : Shape := ⟨3, ![1, 512, 1024]⟩
abbrev S1x512x1 : Shape := ⟨3, ![1, 512, 1]⟩
abbrev S1x1x1024 : Shape := ⟨3, ![1, 1, 1024]⟩
abbrev S1x1024 : Shape := ⟨2, ![1, 1024]⟩
abbrev S1x1 : Shape := ⟨2, ![1, 1]⟩
abbrev S1 : Shape := ⟨1, ![1]⟩
abbrev S512x1024 : Shape := ⟨2, ![512, 1024]⟩
abbrev S1x1024x1024 : Shape := ⟨3, ![1, 1024, 1024]⟩
abbrev S1024x1024 : Shape := ⟨2, ![1024, 1024]⟩
abbrev S1024 : Shape := ⟨1, ![1024]⟩
abbrev S512x1 : Shape := ⟨2, ![512, 1]⟩

abbrev nBuf : Space → Nat
  | .hbm => 20
  | .vmem => 16
  | .smem => 1
  | _ => 0

abbrev bufTy : (tb : Table) → Fin (tcTables nBuf tb) → BufTy
  | .hbm, ⟨0, _⟩ => ⟨S32x2048x1024, .f32⟩
  | .hbm, ⟨1, _⟩ => ⟨S32, .i32⟩
  | .hbm, ⟨2, _⟩ => ⟨S32x2048, .i32⟩
  | .hbm, ⟨3, _⟩ => ⟨S3x1024x1024, .f32⟩
  | .hbm, ⟨4, _⟩ => ⟨S3x1024, .f32⟩
  | .hbm, ⟨5, _⟩ => ⟨S3x1024, .f32⟩
  | .hbm, ⟨6, _⟩ => ⟨S3x1024, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32x2048x1, .i32⟩
  | .hbm, ⟨15, _⟩ => ⟨S3x1024x1024, .f32⟩
  | .hbm, ⟨16, _⟩ => ⟨S3x1024x1024, .bf16⟩
  | .hbm, ⟨17, _⟩ => ⟨S32x2048x1024, .f32⟩
  | .hbm, ⟨18, _⟩ => ⟨S32x2048x1024, .f32⟩
  | .hbm, ⟨19, _⟩ => ⟨S32x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S3x1024x1024, .bf16⟩
  | .local _ .vmem, ⟨5, _⟩ => ⟨S3x1024, .f32⟩
  | .local _ .vmem, ⟨6, _⟩ => ⟨S3x1024, .f32⟩
  | .local _ .vmem, ⟨7, _⟩ => ⟨S3x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1, .f32⟩
  | .local _ .smem, ⟨0, _⟩ => ⟨S32, .i32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let v8 : Index := Scalar.indexCast v1
  let c0_3 : Index := 0#32
  let c0_4 : Index := 0#32
  ![v8.toNat, 0, 0]

def k0_off3 (v1 : BitVec 32) : Fin 2 → Nat :=
  let v12 : Index := Scalar.indexCast v1
  let c0_5 : Index := 0#32
  ![v12.toNat, 0]

def k0_chk1 (v1 : BitVec 32) : Prop :=
  (∀ a, (k0_off2 v1) a + S1x1024x1024.size a ≤ S3x1024x1024.size a) ∧
  (∀ a, (k0_off3 v1) a + S1x1024.size a ≤ S3x1024.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x1024x1024.size a ≤ S3x1024x1024.size a := fun v1 k0_hw1 => k0_hw1.1
theorem k0_off3_inb : ∀ (v1 : BitVec 32) (k0_hw1 : k0_chk1 v1), ∀ a, (k0_off3 v1) a + S1x1024.size a ≤ S3x1024.size a := fun v1 k0_hw1 => k0_hw1.2

def k0_cond2 (i : grid0.Coords) : BitVec 1 :=
  let arg1 : BitVec 32 := BitVec.ofNat 32 (i 1).val
  let c3_i32 : BitVec 32 := 3#32
  let v64 : BitVec 1 := Scalar.cmpi .eq arg1 c3_i32
  let v65 : BitVec 32 := Scalar.extui v64
  let c0_i32_30 : BitVec 32 := 0#32
  let v66 : BitVec 1 := Scalar.cmpi .ne v65 c0_i32_30
  v66

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S_S32 : S_.BroadcastsInDim S32 (![] : Fin 0 → Fin S32.rank)
  bcast_S32x2048_S32x2048x1_0_1 : S32x2048.BroadcastsInDim S32x2048x1 (![0, 1] : Fin 2 → Fin S32x2048x1.rank)
  transposes_S3x1024x1024_S3x1024x1024_0_2_1 : S3x1024x1024.Transposes [0, 2, 1] S3x1024x1024
  bitsLt_bf16_f32 : FTy.bits .bf16 < FTy.bits .f32
  numel1_S1 : S1.numel = 1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  h_S1x1024x1024 : 0 < S1x1024x1024.numel
  shapeCasts_S1x1024x1024_S1024x1024 : S1x1024x1024.ShapeCasts S1024x1024
  shapeCasts_S1x1024_S1024 : S1x1024.ShapeCasts S1024
  shapeCasts_S1024_S1x1024 : S1024.ShapeCasts S1x1024
  broadcasts_S1x1024_S512x1024 : S1x1024.Broadcasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  natLt_1_32 : 1 < 32
  broadcasts_S512x1_S512x1024 : S512x1.Broadcasts S512x1024
  reduces_S512x1024_S1024 : S512x1024.Reduces [0] S1024
  reduces_S512x1_S1 : S512x1.Reduces [0] S1
  shapeCasts_S1_S1x1 : S1.ShapeCasts S1x1
  inb_S3x1024_S1x1024_0_0 : ∀ a, (![0, 0] : Fin 2 → Nat) a + S1x1024.size a ≤ S3x1024.size a
  shapeCasts_S512x1024_S1x512x1024 : S512x1024.ShapeCasts S1x512x1024
  inb_S3x1024_S1x1024_1_0 : ∀ a, (![1, 0] : Fin 2 → Nat) a + S1x1024.size a ≤ S3x1024.size a
  broadcasts_S1x1_S1x1024 : S1x1.Broadcasts S1x1024
  inb_S3x1024_S1x1024_2_0 : ∀ a, (![2, 0] : Fin 2 → Nat) a + S1x1024.size a ≤ S3x1024.size a
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  dot_S512x1024_S1024x1024_S512x1024_1_0_0_1_n_n_wf : DotDims.WF S512x1024 S1024x1024 S512x1024 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x2048x1024.size a
  hwx0_0 : ∀ i : grid0.Coords, EltTy.bits .f32 = 32 ∨ (Rect.block (s := S32x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S32x2048x1.size a
  hwx0_1 : ∀ i : grid0.Coords, EltTy.bits .i32 = 32 ∨ (Rect.block (s := S32x2048x1) S1x512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024x1024.size a ≤ S3x1024x1024.size a
  hwx0_2 : ∀ i : grid0.Coords, EltTy.bits .bf16 = 32 ∨ (Rect.block (s := S3x1024x1024) S3x1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1024.size a ≤ S3x1024.size a
  hwx0_3 : ∀ i : grid0.Coords, EltTy.bits .f32 = 32 ∨ (Rect.block (s := S3x1024) S3x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1024.size a ≤ S3x1024.size a
  hwx0_4 : ∀ i : grid0.Coords, EltTy.bits .f32 = 32 ∨ (Rect.block (s := S3x1024) S3x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1024.size a ≤ S3x1024.size a
  hwx0_5 : ∀ i : grid0.Coords, EltTy.bits .f32 = 32 ∨ (Rect.block (s := S3x1024) S3x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S32x2048x1024.size a
  hwx0_6 : ∀ i : grid0.Coords, EltTy.bits .f32 = 32 ∨ (Rect.block (s := S32x2048x1024) S1x512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S32x2048x1024.size a
  hwx0_7 : ∀ i : grid0.Coords, EltTy.bits .f32 = 32 ∨ (Rect.block (s := S32x2048x1024) S1x512x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S32x1x1024.size a
  hwx0_8 : ∀ i : grid0.Coords, EltTy.bits .f32 = 32 ∨ (Rect.block (s := S32x1x1024) S1x1x1024.size (cc0_transform_8 i) (hinb0_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_v1) S1x512x1.size reads0_1 false false 2 stage0_1 sem0_1 nbuf0_1 hstage0_1

abbrev spec0_2 : Pipeline.WinSpec sig grid0.rank :=
  Pipeline.WinSpec.ofSpec (Memref.whole main_v3) S3x1024x1024.size reads0_2 false true 1 stage0_2 sem0_2 nbuf0_2 hstage0_2

abbrev spec0_3 : Pipeline.WinSpec sig grid0.rank :=
  Pipeline.WinSpec.ofSpec (Memref.whole main_arg4) S3x1024.size reads0_3 false true 1 stage0_3 sem0_3 nbuf0_3 hstage0_3

abbrev spec0_4 : Pipeline.WinSpec sig grid0.rank :=
  Pipeline.WinSpec.ofSpec (Memref.whole main_arg5) S3x1024.size reads0_4 false true 1 stage0_4 sem0_4 nbuf0_4 hstage0_4

abbrev spec0_5 : Pipeline.WinSpec sig grid0.rank :=
  Pipeline.WinSpec.ofSpec (Memref.whole main_arg6) S3x1024.size reads0_5 false true 1 stage0_5 sem0_5 nbuf0_5 hstage0_5

abbrev spec0_6 : Pipeline.WinSpec sig grid0.rank :=
  Pipeline.WinSpec.ofSpec (Memref.whole main_v4_0) S1x512x1024.size reads0_6 true false 2 stage0_6 sem0_6 nbuf0_6 hstage0_6

abbrev spec0_7 : Pipeline.WinSpec sig grid0.rank :=
  Pipeline.WinSpec.ofSpec (Memref.whole main_v4_1) S1x512x1024.size reads0_7 true false 2 stage0_7 sem0_7 nbuf0_7 hstage0_7

abbrev spec0_8 : Pipeline.WinSpec sig grid0.rank :=
  Pipeline.WinSpec.ofSpec (Memref.whole main_v4_2) S1x1x1024.size reads0_8 true false 2 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | ⟨_ + 9, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | ⟨_ + 9, h⟩ => absurd h (Nat.not_lt.2 (Nat.le_add_left _ _))
abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where
  harr0 : ∀ w, (spec0 w).arr.IsWhole

variable [Facts]
-- ==== ReferenceIdeal.lean ====
abbrev S32x2048x1024 : Shape := ⟨3, ![32, 2048, 1024]⟩
abbrev S32 : Shape := ⟨1, ![32]⟩
abbrev S32x2048 : Shape := ⟨2, ![32, 2048]⟩
abbrev S3x1024x1024 : Shape := ⟨3, ![3, 1024, 1024]⟩
abbrev S3x1024 : Shape := ⟨2, ![3, 1024]⟩
abbrev S_ : Shape := ⟨0, ![]⟩
abbrev S32x1 : Shape := ⟨2, ![32, 1]⟩
abbrev S32x1024x1024 : Shape := ⟨3, ![32, 1024, 1024]⟩
abbrev S32x1024 : Shape := ⟨2, ![32, 1024]⟩
abbrev S32x1x1024 : Shape := ⟨3, ![32, 1, 1024]⟩
abbrev S32x2048x1 : Shape := ⟨3, ![32, 2048, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32, .i32⟩
  | .hbm, ⟨2, _⟩ => ⟨S32x2048, .i32⟩
  | .hbm, ⟨3, _⟩ => ⟨S3x1024x1024, .f32⟩
  | .hbm, ⟨4, _⟩ => ⟨S3x1024, .f32⟩
  | .hbm, ⟨5, _⟩ => ⟨S3x1024, .f32⟩
  | .hbm, ⟨6, _⟩ => ⟨S3x1024, .f32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S32x1024x1024, .f32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S32x1024, .f32⟩
  | .hbm, ⟨25, _⟩ => ⟨S32x2048x1024, .f32⟩
  | .hbm, ⟨26, _⟩ => ⟨S32x1x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S32x2048x1024, .f32⟩
  | .hbm, ⟨31, _⟩ => ⟨S_, .f32⟩
  | .hbm, ⟨32, _⟩ => ⟨S32x2048x1024, .f32⟩
  | .hbm, ⟨33, _⟩ => ⟨S32x2048x1024, .f32⟩
  | .hbm, ⟨34, _⟩ => ⟨S_, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S_, .i32⟩
  | .hbm, ⟨39, _⟩ => ⟨S32, .i32⟩
  | .hbm, ⟨40, _⟩ => ⟨S32, .i1⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32, .i32⟩
  | .hbm, ⟨45, _⟩ => ⟨S32x1, .i32⟩
  | .hbm, ⟨46, _⟩ => ⟨S32x1024, .f32⟩
  | .hbm, ⟨47, _⟩ => ⟨S32x1x1024, .f32⟩
  | .hbm, ⟨48, _⟩ => ⟨S32x2048x1024, .f32⟩
  | .hbm, ⟨49, _⟩ => ⟨S32x2048x1024, .f32⟩
  | .hbm, ⟨50, _⟩ => ⟨S_, .i32⟩
  | .hbm, ⟨51, _⟩ => ⟨S32x2048, .i32⟩
  | .hbm, ⟨52, _⟩ => ⟨S32x2048, .i1⟩
  | .hbm, ⟨53, _⟩ => ⟨S32x2048, .f32⟩
  | .hbm, ⟨54, _⟩ => ⟨S32x2048x1, .f32⟩
  | .hbm, ⟨55, _⟩ => ⟨S_, .f32⟩
  | .hbm, ⟨56, _⟩ => ⟨S32x1, .f32⟩
  | .hbm, ⟨57, _⟩ => ⟨S_, .f32⟩
  | .hbm, ⟨58, _⟩ => ⟨S32x1, .f32⟩
  | .hbm, ⟨59, _⟩ => ⟨S32x1, .f32⟩
  | .hbm, ⟨60, _⟩ => ⟨S32x2048x1024, .f32⟩
  | .hbm, ⟨61, _⟩ => ⟨S32x2048x1024, .f32⟩
  | .hbm, ⟨62, _⟩ => ⟨S_, .f32⟩
  | .hbm, ⟨63, _⟩ => ⟨S32x1024, .f32⟩
  | .hbm, ⟨64, _⟩ => ⟨S32x1024, .f32⟩
  | .hbm, ⟨65, _⟩ => ⟨S32x1024, .f32⟩
  | .hbm, ⟨66, _⟩ => ⟨S1x1024, .f32⟩
  | .hbm, ⟨67, _⟩ => ⟨S1024, .f32⟩
  | .hbm, ⟨68, _⟩ => ⟨S1x1x1024, .f32⟩
  | .hbm, ⟨69, _⟩ => ⟨S32x2048x1024, .f32⟩
  | .hbm, ⟨70, _⟩ => ⟨S32x2048x1024, .f32⟩
  | .hbm, ⟨71, _⟩ => ⟨S1x1024, .f32⟩
  | .hbm, ⟨72, _⟩ => ⟨S1024, .f32⟩
  | .hbm, ⟨73, _⟩ => ⟨S1x1x1024, .f32⟩
  | .hbm, ⟨74, _⟩ => ⟨S32x2048x1024, .f32⟩
  | .hbm, ⟨75, _⟩ => ⟨S32x2048x1024, .f32⟩
  | .hbm, ⟨76, _⟩ => ⟨S32x1x1024, .f32⟩
  | .hbm, ⟨77, _⟩ => ⟨S1x1024, .f32⟩
  | .hbm, ⟨78, _⟩ => ⟨S1024, .f32⟩
  | .hbm, ⟨79, _⟩ => ⟨S1x1x1024, .f32⟩
  | .hbm, ⟨80, _⟩ => ⟨S32x1x1024, .f32⟩
  | .hbm, ⟨81, _⟩ => ⟨S32x1x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x1024_S32x1x1024_0_2 : S32x1024.BroadcastsInDim S32x1x1024 (![0, 2] : Fin 2 → Fin S32x1x1024.rank)
  bcast_S32x1x1024_S32x2048x1024_0_1_2 : S32x1x1024.BroadcastsInDim S32x2048x1024 (![0, 1, 2] : Fin 3 → Fin S32x2048x1024.rank)
  bcast_S_S32x2048x1024 : S_.BroadcastsInDim S32x2048x1024 (![] : Fin 0 → Fin S32x2048x1024.rank)
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x2048x1_S32x2048x1024_0_1_2 : S32x2048x1.BroadcastsInDim S32x2048x1024 (![0, 1, 2] : Fin 3 → Fin S32x2048x1024.rank)
  reducesTo_S32x2048x1024_S32x1024_d1 : S32x2048x1024.ReducesTo [1] S32x1024
  bcast_S32x1_S32x1024_0_1 : S32x1.BroadcastsInDim S32x1024 (![0, 1] : Fin 2 → Fin S32x1024.rank)
  slices_S3x1024_S1x1024_0_0 : S3x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  slices_S3x1024_S1x1024_1_0 : S3x1024.Slices ![1, 0] S1x1024
  slices_S3x1024_S1x1024_2_0 : S3x1024.Slices ![2, 0] S1x1024
  bcast_S1x1x1024_S32x1x1024_0_1_2 : S1x1x1024.BroadcastsInDim S32x1x1024 (![0, 1, 2] : Fin 3 → Fin S32x1x1024.rank)
  gather_S3x1024x1024_S32x1_S32x1024x1024_12_0_n_n_0_1_110241024_wf : GatherDims.WF S3x1024x1024 S32x1 S32x1024x1024 [1, 2] [0] [] [0] [] 1 ![1, 1024, 1024]
  gather_S3x1024_S32x1_S32x1024_1_0_n_n_0_1_11024_wf : GatherDims.WF S3x1024 S32x1 S32x1024 [1] [0] [] [0] [] 1 ![1, 1024]
  dot_S32x2048x1024_S32x1024x1024_S32x2048x1024_2_2_1_1_0_0_wf : DotDims.WF S32x2048x1024 S32x1024x1024 S32x2048x1024 [2] [2] [1] [1] [0] [0]

variable [Facts₀]

def gather_S3x1024x1024_S32x1_S32x1024x1024_12_0_n_n_0_1_110241024 : GatherDims S3x1024x1024 S32x1 S32x1024x1024 where
  offsetDims := [1, 2]
  collapsedSliceDims := [0]
  operandBatchingDims := []
  startIndicesBatchingDims := []
  startIndexMap := [0]
  indexVectorDim := 1
  sliceSizes := ![1, 1024, 1024]
  wf := gather_S3x1024x1024_S32x1_S32x1024x1024_12_0_n_n_0_1_110241024_wf
def gather_S3x1024_S32x1_S32x1024_1_0_n_n_0_1_11024 : GatherDims S3x1024 S32x1 S32x1024 where
  offsetDims := [1]
  collapsedSliceDims := [0]
  operandBatchingDims := []
  startIndicesBatchingDims := []
  startIndexMap := [0]
  indexVectorDim := 1
  sliceSizes := ![1, 1024]
  wf := gather_S3x1024_S32x1_S32x1024_1_0_n_n_0_1_11024_wf
def dot_S32x2048x1024_S32x1024x1024_S32x2048x1024_2_2_1_1_0_0 : DotDims S32x2048x1024 S32x1024x1024 S32x2048x1024 where
  lhsContracting := [2]
  rhsContracting := [2]
  lhsNonContracting := [1]
  rhsNonContracting := [1]
  lhsBatch := [0]
  rhsBatch := [0]
  wf := dot_S32x2048x1024_S32x1024x1024_S32x2048x1024_2_2_1_1_0_0_wf

class Facts : Prop extends Facts₀ where

variable [Facts]
-- ==== Proof.Spec.lean ====
/-
  The mathematics both programs compute, stated once, index by index, on the extended reals.

  For sample `b` the expert is `e b ∈ {0, 1, 2}` (the scale id of the sample). With
    y[b,s,j]   = Σ_k x[b,s,k] · W[e b, j, k] + bias[e b, j]
    act[b,s,j] = y · logistic y + semb[e b, j]
    μ[b,s]     = 1 if mask[b,s] > 0 (signed) else 0
  the three results are
    high[b,s,j] = act[b,s,j] + bemb[0,j]
    mid[b,s,j]  = act[b,s,j] + bemb[1,j]
    low[b,0,j]  = (Σ_s act[b,s,j] · μ[b,s]) / max (Σ_s μ[b,s]) ε + bemb[2,j]
  where ε is the f32 word 0x358637BD (the literal both programs carry), and every sum is a finite sum in the
  additive commutative monoid of the extended reals, so it may be regrouped freely (four tiles of 512 rows on
  one side, one sum over 2048 rows on the other).
-/
import Idealize.ShloMosaic.PureOps.Ideal
import Idealize.ShloMosaic.Lib.ValueIdx

noncomputable section

namespace Cert.Spec

open Idealize.ShloMosaic Idealize.ShloMosaic.ValueIdx

/-- The literal shapes of the arguments and results. -/
abbrev SX : Shape := ⟨3, ![32, 2048, 1024]⟩
abbrev SId : Shape := ⟨1, ![32]⟩
abbrev SMask : Shape := ⟨2, ![32, 2048]⟩
abbrev SW : Shape := ⟨3, ![3, 1024, 1024]⟩
abbrev SRow : Shape := ⟨2, ![3, 1024]⟩
abbrev SLow : Shape := ⟨3, ![32, 1, 1024]⟩

/-- The scale id of sample `b` lies in the label range `{0, 1, 2}`. -/
def IdsInRange (sid : SId.Idx → BitVec 32) : Prop :=
  ∀ b : Fin 32, sid (ix1 b) = 0#32 ∨ sid (ix1 b) = 1#32 ∨ sid (ix1 b) = 2#32

/-- The expert of sample `b`: its scale id read as a signed integer, clamped into `{0, 1, 2}`. On the label
    range this is the id itself. -/
def expert (sid : SId.Idx → BitVec 32) (b : Fin 32) : Fin 3 :=
  ⟨min (sid (ix1 b)).toInt.toNat 2, by omega⟩

/-- The mask weight of row `s` of sample `b`: one where the mask word is positive as a signed integer, else zero. -/
def weight (mask : SMask.Idx → BitVec 32) (b : Fin 32) (s : Fin 2048) : EReal :=
  if 0 < (mask (ix2 b s)).toInt then 1 else 0

/-- The routed linear layer: `Σ_k x[b,s,k] · W[e b, j, k] + bias[e b, j]`. -/
def lin (x : SX.Idx → EReal) (sid : SId.Idx → BitVec 32) (W : SW.Idx → EReal) (bias : SRow.Idx → EReal)
    (b : Fin 32) (s : Fin 2048) (j : Fin 1024) : EReal :=
  (∑ k : Fin 1024, x (ix3 b s k) * W (ix3 (expert sid b) j k)) + bias (ix2 (expert sid b) j)

/-- The activation: `y · logistic y` of the routed linear layer, plus the expert's scale embedding. -/
def act (x : SX.Idx → EReal) (sid : SId.Idx → BitVec 32) (W : SW.Idx → EReal) (bias semb : SRow.Idx → EReal)
    (b : Fin 32) (s : Fin 2048) (j : Fin 1024) : EReal :=
  lin x sid W bias b s j * Ideal.logistic (lin x sid W bias b s j) + semb (ix2 (expert sid b) j)

/-- The floor of the masked mean's denominator: the f32 word both programs carry. -/
def eps : EReal := Ideal.ofBits .f32 0x358637BD#32

/-- The first result: the activation plus branch embedding 0. -/
def high (x : SX.Idx → EReal) (sid : SId.Idx → BitVec 32) (W : SW.Idx → EReal) (bias semb bemb : SRow.Idx → EReal) :
    SX.Idx → EReal :=
  fun i => act x sid W bias semb (i 0) (i 1) (i 2) + bemb (ix2 0 (i 2))

/-- The second result: the activation plus branch embedding 1. -/
def mid (x : SX.Idx → EReal) (sid : SId.Idx → BitVec 32) (W : SW.Idx → EReal) (bias semb bemb : SRow.Idx → EReal) :
    SX.Idx → EReal :=
  fun i => act x sid W bias semb (i 0) (i 1) (i 2) + bemb (ix2 1 (i 2))

/-- The masked row sum of the activation over the whole sequence. -/
def wsum (x : SX.Idx → EReal) (sid : SId.Idx → BitVec 32) (mask : SMask.Idx → BitVec 32) (W : SW.Idx → EReal)
    (bias semb : SRow.Idx → EReal) (b : Fin 32) (j : Fin 1024) : EReal :=
  ∑ s : Fin 2048, act x sid W bias semb b s j * weight mask b s

/-- The number of rows the mask keeps, as an extended real. -/
def cnt (mask : SMask.Idx → BitVec 32) (b : Fin 32) : EReal :=
  ∑ s : Fin 2048, weight mask b s

/-- The third result: the masked mean over the sequence, its denominator floored at `eps`, plus branch embedding 2. -/
def low (x : SX.Idx → EReal) (sid : SId.Idx → BitVec 32) (mask : SMask.Idx → BitVec 32) (W : SW.Idx → EReal)
    (bias semb bemb : SRow.Idx → EReal) : SLow.Idx → EReal :=
  fun i => Ideal.div (wsum x sid mask W bias semb (i 0) (i 2)) (max (cnt mask (i 0)) eps) + bemb (ix2 2 (i 2))

/-- On the label range the expert is the id's value. -/
theorem expert_val {sid : SId.Idx → BitVec 32} (h : IdsInRange sid) (b : Fin 32) :
    ((expert sid b : Fin 3) : Nat) = (sid (ix1 b)).toNat := by
  show min (sid (ix1 b)).toInt.toNat 2 = (sid (ix1 b)).toNat
  rcases h b with h0 | h1 | h2
  · rw [h0]; decide
  · rw [h1]; decide
  · rw [h2]; decide

end Cert.Spec

end
-- ==== Proof.PreRead.lean ====
/-
  The label range, read back from the printed precondition.

  The precondition is a conjunction of bits; its last conjunct is the "for all" over the 32 samples of
  (0 ≤ id) ∧ (id < 3), both comparisons signed. If the whole conjunction is the bit 1 then so is that conjunct, so
  each of the 32 bits under the "for all" is 1, so each id, read as a signed integer, lies in [0, 3): it is the word
  0, 1 or 2.
-/
import proofs.«419683_j38096359915876_3_alg».proof.Pre_finite_inputs
import proofs.«419683_j38096359915876_3_alg».proof.Proof.Spec
import Idealize.ShloMosaic.Lib.ReduceAll
import Idealize.ShloMosaic.Lib.StableHlo.Predicate

namespace Cert.PreRead

open Idealize.ShloMosaic Idealize.ShloMosaic.ValueIdx Cert.Pre_finite_inputs

/-- The rank-0 shape has one index. -/
instance : Subsingleton S_.Idx := ⟨fun a b => funext fun d => d.elim0⟩

/-- A 32-bit word that tests, signed, at least 0 and below 3 is one of the words 0, 1, 2. -/
theorem word_range {w : BitVec 32} (h0 : IntOp.cmpi .sge w 0#32 = 1#1) (h3 : IntOp.cmpi .slt w 3#32 = 1#1) :
    w = 0#32 ∨ w = 1#32 ∨ w = 2#32 := by
  rw [IntOp.cmpi_sge, show (0#32 : BitVec 32).toInt = 0 from by decide] at h0
  rw [IntOp.cmpi_slt, show (3#32 : BitVec 32).toInt = 3 from by decide] at h3
  have hc : w.toInt = 0 ∨ w.toInt = 1 ∨ w.toInt = 2 := by omega
  rcases hc with hc | hc | hc
  · exact Or.inl (BitVec.eq_of_toInt_eq (by rw [hc]; decide))
  · exact Or.inr (Or.inl (BitVec.eq_of_toInt_eq (by rw [hc]; decide)))
  · exact Or.inr (Or.inr (BitVec.eq_of_toInt_eq (by rw [hc]; decide)))

/-- If the printed precondition is all ones then every scale id is 0, 1 or 2. -/
theorem ids_of_pre [Facts] {F : FTy → Type} [FloatOps F] (a0 : FVec F S32x2048x1024 .f32) (a1 : IVec S32 32)
    (a2 : IVec S32x2048 32) (a3 : FVec F S3x1024x1024 .f32) (a4 a5 a6 : FVec F S3x1024 .f32)
    (h : fn (F := F) a0 a1 a2 a3 a4 a5 a6 = (fun _ => 1#1)) : Cert.Spec.IdsInRange a1 := by
  intro b
  have h0 := congrFun h ix0
  dsimp only [fn, fn_part1] at h0
  -- the outer conjunction is the bit 1, so its last factor, the "for all", is
  have h1 := (IntOp.andi_eq_one.1 (show IntOp.andi _ _ = 1#1 from h0)).2
  -- so the bit under the "for all" at sample b is 1
  have h2 := Host.reduce_andi_all _ _ _ _ _ h1 (ix1 b)
  -- that bit is the conjunction of the two comparisons at b
  obtain ⟨hge, hlt⟩ := IntOp.andi_eq_one.1 (show IntOp.andi _ _ = 1#1 from h2)
  exact word_range hge hlt

end Cert.PreRead
-- ==== Proof.KHyps.lean ====
/-
  The prefetched table of experts, and the side condition the body assumes of each word it reads from it.

  Before the region the host clips the scale ids into [0, 2]: table[b] = min 2 (max 0 id[b]), both signed. At grid
  point t = 4 b + q the body reads the table at index b (its first grid coordinate). Whatever the id, the clipped
  word is 0, 1 or 2, so the two blocks the body then loads (expert rows of the weights and of the row tables) lie
  inside their arrays: the side condition holds at every point with no assumption on the ids. On the label range the
  clip is the identity.
-/
import proofs.«419683_j38096359915876_3_alg».proof.Proof.Gen.KernelIdeal.Frame
import proofs.«419683_j38096359915876_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hyp

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The scale-id argument as the launch memory holds it on device 0. -/
abbrev sidArr : IVec S32 32 := m (((0 : Dev nD) : Thread nD τ).loc main_arg1)

/-- There is one device: every device's scale-id argument is device 0's. -/
theorem sidArr_eq (c : Dev nD) : (m ((c : Thread nD τ).loc main_arg1) : IVec S32 32) = sidArr m := by
  obtain rfl : c = 0 := Subsingleton.elim _ _; rfl

/-- The table when the region is entered: the ids clipped, elementwise, into [0, 2]. -/
theorem tbl_eq : (tbl m 0 : IVec S32 32)
    = minsi (broadcastInDim S32 ![] bcast_S_S32 (constantI S_ 32 2#32))
        (maxsi (broadcastInDim S32 ![] bcast_S_S32 (constantI S_ 32 0#32)) (sidArr m)) := by
  unfold tbl
  show V m 0 main_v0 = _
  dsimp only [Gen.V]
  simp only [Gen.hostOps0, Gen.hostOps0_1, Gen.hostOps0_2, List.flatten_cons, List.flatten_nil, List.append_nil, List.cons_append, List.nil_append]
  after_results
  rfl

/-- At sample b the table holds min 2 (max 0 id[b]). -/
theorem tbl_apply (b : Fin 32) :
    (tbl m 0 : IVec S32 32) (ix1 b) = IntOp.minsi 2#32 (IntOp.maxsi 0#32 (sidArr m (ix1 b))) := by
  rw [tbl_eq]; rfl

/-- The clip fixes each of the three labels. -/
theorem clip_id (w : BitVec 32) (h : w = 0#32 ∨ w = 1#32 ∨ w = 2#32) : IntOp.minsi 2#32 (IntOp.maxsi 0#32 w) = w := by
  rcases h with h | h | h <;> subst h <;> decide

/-- On the label range the table is the ids themselves. -/
theorem tbl_of_ids (h : Cert.Spec.IdsInRange (sidArr m)) (b : Fin 32) :
    (tbl m 0 : IVec S32 32) (ix1 b) = sidArr m (ix1 b) := by
  rw [tbl_apply]; exact clip_id _ (h b)

/-- No index map reads the table: the pipeline's side condition on it is empty. -/
theorem ok : Ok m := trivial

/-- Grid point t is (sample t / 4, row tile t % 4). -/
theorem coords_of (t : Fin grid0.N) : (grid0.coords t 0).val = t.val / 4 ∧ (grid0.coords t 1).val = t.val % 4 :=
  (by decide +kernel : ∀ t : Fin grid0.N, (grid0.coords t 0).val = t.val / 4 ∧ (grid0.coords t 1).val = t.val % 4) t

/-- The word the body reads from a table f at grid coordinates i is f at the first coordinate. -/
theorem read_word (f : IVec S32 32) (i : grid0.Coords) (b : Fin 32) (hb : (i 0).val = b.val) :
    tbM0_0.view.readAt (Elt F) (Rect.unit (s := S32) (k0_off1 i) S1.size (k0_off1_inb i)).toLoadRect f (Shape.Idx.first (numel1_S1.symm ▸ Nat.one_pos))
      = f (ix1 b) := by
  rw [View.readAt_apply]
  show f _ = f (ix1 b)
  refine congrArg f (funext fun a => Fin.ext ?_)
  match a with
  | ⟨0, _⟩ =>
    show (k0_off1 i) 0 + 1 * 0 = b.val
    rw [k0_off1_eq]
    show (i 0).val + 1 * 0 = b.val
    omega

/-- At grid point t = 4 b + q the body reads the table's word of sample b. -/
theorem word_at (hO : Ok m) (t : Fin (cfgM m hO).N) (b : Fin 32) (q : Fin 4) (ht : t.val = 4 * b.val + q.val) :
    tbM0_0.view.readAt (Elt F) (Rect.unit (s := S32) (k0_off1 (grid0.coords t)) S1.size (k0_off1_inb (grid0.coords t))).toLoadRect (tbl m 0) (Shape.Idx.first (numel1_S1.symm ▸ Nat.one_pos))
      = (tbl m 0 : IVec S32 32) (ix1 b) :=
  read_word (tbl m 0) (grid0.coords t) b (by have h := (coords_of t).1; have hq := q.isLt; omega)

/-- Whatever the word, its clip into [0, 2] is one of 0, 1, 2. -/
theorem clip_range (w : BitVec 32) :
    IntOp.minsi 2#32 (IntOp.maxsi 0#32 w) = 0#32 ∨ IntOp.minsi 2#32 (IntOp.maxsi 0#32 w) = 1#32
      ∨ IntOp.minsi 2#32 (IntOp.maxsi 0#32 w) = 2#32 := by
  unfold IntOp.minsi IntOp.maxsi
  by_cases h0 : w.slt 0#32
  · rw [if_pos h0]; exact Or.inl (by decide)
  · rw [if_neg h0]
    by_cases h2 : (2#32 : BitVec 32).slt w
    · rw [if_pos h2]; exact Or.inr (Or.inr rfl)
    · rw [if_neg h2]
      rw [BitVec.slt_iff_toInt_lt, show (0#32 : BitVec 32).toInt = 0 from by decide] at h0
      rw [BitVec.slt_iff_toInt_lt, show (2#32 : BitVec 32).toInt = 2 from by decide] at h2
      have hc : w.toInt = 0 ∨ w.toInt = 1 ∨ w.toInt = 2 := by omega
      rcases hc with hc | hc | hc
      · exact Or.inl (BitVec.eq_of_toInt_eq (by rw [hc]; decide))
      · exact Or.inr (Or.inl (BitVec.eq_of_toInt_eq (by rw [hc]; decide)))
      · exact Or.inr (Or.inr (BitVec.eq_of_toInt_eq (by rw [hc]; decide)))

/-- For each of the three expert words the blocks the body loads next lie inside their arrays. -/
theorem chk_of_range (w : BitVec 32) (h : w = 0#32 ∨ w = 1#32 ∨ w = 2#32) : k0_chk1 w := by
  rcases h with h | h | h <;> subst h <;> decide

/-- The side condition the body assumes holds at every grid point, for every launch memory. -/
theorem hyps (hO : Ok m) : Hyps m hO :=
  Hyps.of fun c t => by
    have h128 : t.val < 128 := lt_of_lt_of_eq t.isLt N_0
    have e := word_at m hO t ⟨t.val / 4, by omega⟩ ⟨t.val % 4, Nat.mod_lt _ (by decide)⟩
      (by show t.val = 4 * (t.val / 4) + t.val % 4; omega)
    exact (congrArg k0_chk1 (e.trans (tbl_apply m _))).mpr (chk_of_range _ (clip_range _))

/-- The same under the label range (the range is not needed). -/
theorem hyps_of_ids (hO : Ok m) (h : Cert.Spec.IdsInRange (sidArr m)) : Hyps m hO := hyps m hO

end Cert.KernelIdeal.Hyp

end
-- ==== Proof.KHypsBits.lean ====
/-
  The prefetched table of experts, and the side condition the body assumes of each word it reads from it.

  Before the region the host clips the scale ids into [0, 2]: table[b] = min 2 (max 0 id[b]), both signed. At grid
  point t = 4 b + q the body reads the table at index b (its first grid coordinate). Whatever the id, the clipped
  word is 0, 1 or 2, so the two blocks the body then loads (expert rows of the weights and of the row tables) lie
  inside their arrays: the side condition holds at every point with no assumption on the ids. On the label range the
  clip is the identity.
-/
import proofs.«419683_j38096359915876_3_alg».proof.Proof.Gen.Kernel.Frame
import proofs.«419683_j38096359915876_3_alg».proof.Proof.Spec
import Idealize.ShloMosaic.Lib.Pipeline.Value
import Idealize.ShloMosaic.Lib.ValueIdx
import Idealize.ShloMosaic.Lib.Tactic

set_option maxRecDepth 16384

noncomputable section

namespace Cert.Kernel.Hyp

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The scale-id argument as the launch memory holds it on device 0. -/
abbrev sidArr : IVec S32 32 := m (((0 : Dev nD) : Thread nD τ).loc main_arg1)

/-- There is one device: every device's scale-id argument is device 0's. -/
theorem sidArr_eq (c : Dev nD) : (m ((c : Thread nD τ).loc main_arg1) : IVec S32 32) = sidArr m := by
  obtain rfl : c = 0 := Subsingleton.elim _ _; rfl

/-- The table when the region is entered: the ids clipped, elementwise, into [0, 2]. -/
theorem tbl_eq : (tbl m 0 : IVec S32 32)
    = minsi (broadcastInDim S32 ![] bcast_S_S32 (constantI S_ 32 2#32))
        (maxsi (broadcastInDim S32 ![] bcast_S_S32 (constantI S_ 32 0#32)) (sidArr m)) := by
  unfold tbl
  show V m 0 main_v0 = _
  dsimp only [Gen.V]
  simp only [Gen.hostOps0, Gen.hostOps0_1, Gen.hostOps0_2, List.flatten_cons, List.flatten_nil, List.append_nil, List.cons_append, List.nil_append]
  after_results
  rfl

/-- At sample b the table holds min 2 (max 0 id[b]). -/
theorem tbl_apply (b : Fin 32) :
    (tbl m 0 : IVec S32 32) (ix1 b) = IntOp.minsi 2#32 (IntOp.maxsi 0#32 (sidArr m (ix1 b))) := by
  rw [tbl_eq]; rfl

/-- The clip fixes each of the three labels. -/
theorem clip_id (w : BitVec 32) (h : w = 0#32 ∨ w = 1#32 ∨ w = 2#32) : IntOp.minsi 2#32 (IntOp.maxsi 0#32 w) = w := by
  rcases h with h | h | h <;> subst h <;> decide

/-- On the label range the table is the ids themselves. -/
theorem tbl_of_ids (h : Cert.Spec.IdsInRange (sidArr m)) (b : Fin 32) :
    (tbl m 0 : IVec S32 32) (ix1 b) = sidArr m (ix1 b) := by
  rw [tbl_apply]; exact clip_id _ (h b)

/-- No index map reads the table: the pipeline's side condition on it is empty. -/
theorem ok : Ok m := trivial

/-- Grid point t is (sample t / 4, row tile t % 4). -/
theorem coords_of (t : Fin grid0.N) : (grid0.coords t 0).val = t.val / 4 ∧ (grid0.coords t 1).val = t.val % 4 :=
  (by decide +kernel : ∀ t : Fin grid0.N, (grid0.coords t 0).val = t.val / 4 ∧ (grid0.coords t 1).val = t.val % 4) t

/-- The word the body reads from a table f at grid coordinates i is f at the first coordinate. -/
theorem read_word (f : IVec S32 32) (i : grid0.Coords) (b : Fin 32) (hb : (i 0).val = b.val) :
    tbM0_0.view.readAt (Elt F) (Rect.unit (s := S32) (k0_off1 i) S1.size (k0_off1_inb i)).toLoadRect f (Shape.Idx.first (numel1_S1.symm ▸ Nat.one_pos))
      = f (ix1 b) := by
  rw [View.readAt_apply]
  show f _ = f (ix1 b)
  refine congrArg f (funext fun a => Fin.ext ?_)
  match a with
  | ⟨0, _⟩ =>
    show (k0_off1 i) 0 + 1 * 0 = b.val
    rw [k0_off1_eq]
    show (i 0).val + 1 * 0 = b.val
    omega

/-- At grid point t = 4 b + q the body reads the table's word of sample b. -/
theorem word_at (hO : Ok m) (t : Fin (cfgM m hO).N) (b : Fin 32) (q : Fin 4) (ht : t.val = 4 * b.val + q.val) :
    tbM0_0.view.readAt (Elt F) (Rect.unit (s := S32) (k0_off1 (grid0.coords t)) S1.size (k0_off1_inb (grid0.coords t))).toLoadRect (tbl m 0) (Shape.Idx.first (numel1_S1.symm ▸ Nat.one_pos))
      = (tbl m 0 : IVec S32 32) (ix1 b) :=
  read_word (tbl m 0) (grid0.coords t) b (by have h := (coords_of t).1; have hq := q.isLt; omega)

/-- Whatever the word, its clip into [0, 2] is one of 0, 1, 2. -/
theorem clip_range (w : BitVec 32) :
    IntOp.minsi 2#32 (IntOp.maxsi 0#32 w) = 0#32 ∨ IntOp.minsi 2#32 (IntOp.maxsi 0#32 w) = 1#32
      ∨ IntOp.minsi 2#32 (IntOp.maxsi 0#32 w) = 2#32 := by
  unfold IntOp.minsi IntOp.maxsi
  by_cases h0 : w.slt 0#32
  · rw [if_pos h0]; exact Or.inl (by decide)
  · rw [if_neg h0]
    by_cases h2 : (2#32 : BitVec 32).slt w
    · rw [if_pos h2]; exact Or.inr (Or.inr rfl)
    · rw [if_neg h2]
      rw [BitVec.slt_iff_toInt_lt, show (0#32 : BitVec 32).toInt = 0 from by decide] at h0
      rw [BitVec.slt_iff_toInt_lt, show (2#32 : BitVec 32).toInt = 2 from by decide] at h2
      have hc : w.toInt = 0 ∨ w.toInt = 1 ∨ w.toInt = 2 := by omega
      rcases hc with hc | hc | hc
      · exact Or.inl (BitVec.eq_of_toInt_eq (by rw [hc]; decide))
      · exact Or.inr (Or.inl (BitVec.eq_of_toInt_eq (by rw [hc]; decide)))
      · exact Or.inr (Or.inr (BitVec.eq_of_toInt_eq (by rw [hc]; decide)))

/-- For each of the three expert words the blocks the body loads next lie inside their arrays. -/
theorem chk_of_range (w : BitVec 32) (h : w = 0#32 ∨ w = 1#32 ∨ w = 2#32) : k0_chk1 w := by
  rcases h with h | h | h <;> subst h <;> decide

/-- The side condition the body assumes holds at every grid point, for every launch memory. -/
theorem hyps (hO : Ok m) : Hyps m hO :=
  Hyps.of fun c t => by
    have h128 : t.val < 128 := lt_of_lt_of_eq t.isLt N_0
    have e := word_at m hO t ⟨t.val / 4, by omega⟩ ⟨t.val % 4, Nat.mod_lt _ (by decide)⟩
      (by show t.val = 4 * (t.val / 4) + t.val % 4; omega)
    exact (congrArg k0_chk1 (e.trans (tbl_apply m _))).mpr (chk_of_range _ (clip_range _))

/-- The same under the label range (the range is not needed). -/
theorem hyps_of_ids (hO : Ok m) (h : Cert.Spec.IdsInRange (sidArr m)) : Hyps m hO := hyps m hO

end Cert.Kernel.Hyp

end
-- ==== Proof.KArgs.lean ====
/-
  The kernel program's seven argument arrays, named at their literal shapes: the features, the scale ids, the mask,
  the stacked weights, and the three stacked rows (bias, scale embedding, branch embedding).
-/
import proofs.«419683_j38096359915876_3_alg».proof.Proof.Spec
import proofs.«419683_j38096359915876_3_alg».proof.Proof.Gen.KernelIdeal.Frame

noncomputable section

namespace Cert.KernelIdeal.Inv

open Cert.KernelIdeal Cert.KernelIdeal.Gen Idealize.ShloMosaic Idealize.ShloMosaic.ValueIdx
open Idealize.ShloMosaic.TcCoe

variable (m : (ℓ : Loc nD τ sig) → Buf (Elt Ideal) ℓ)

abbrev xA (c : Dev nD) : Cert.Spec.SX.Idx → EReal := m ((c.tc : Thread nD τ).loc main_arg0)
abbrev sidA (c : Dev nD) : Cert.Spec.SId.Idx → BitVec 32 := m ((c.tc : Thread nD τ).loc main_arg1)
abbrev maskA (c : Dev nD) : Cert.Spec.SMask.Idx → BitVec 32 := m ((c.tc : Thread nD τ).loc main_arg2)
abbrev WA (c : Dev nD) : Cert.Spec.SW.Idx → EReal := m ((c.tc : Thread nD τ).loc main_arg3)
abbrev biasA (c : Dev nD) : Cert.Spec.SRow.Idx → EReal := m ((c.tc : Thread nD τ).loc main_arg4)
abbrev sembA (c : Dev nD) : Cert.Spec.SRow.Idx → EReal := m ((c.tc : Thread nD τ).loc main_arg5)
abbrev bembA (c : Dev nD) : Cert.Spec.SRow.Idx → EReal := m ((c.tc : Thread nD τ).loc main_arg6)

end Cert.KernelIdeal.Inv

end
-- ==== Proof.TileSum.lean ====
/-
  Regrouping a sum over 2048 rows into four tiles of 512 rows, in any additive commutative monoid.

  A family over the rows is continued by zero beyond row 2047, so that a tile and the sum of the first
  `n` tiles are defined for every natural number; the sum of the first four tiles is the sum over all
  rows. Only `+` is regrouped: no finiteness, no order, no subtraction.
-/
import Mathlib.Algebra.BigOperators.Group.Finset.Basic
import Mathlib.Data.Fintype.BigOperators

namespace Cert.TileSum

open Finset

variable {M : Type*} [AddCommMonoid M]

/-- A family over the 2048 rows, continued by zero beyond them. -/
def ext (f : Fin 2048 → M) (s : ℕ) : M := if h : s < 2048 then f ⟨s, h⟩ else 0

theorem ext_of_lt (f : Fin 2048 → M) {s : ℕ} (h : s < 2048) : ext f s = f ⟨s, h⟩ := dif_pos h

/-- The sum over tile `q`: the rows `512 q`, …, `512 q + 511`. -/
def tile (f : Fin 2048 → M) (q : ℕ) : M := ∑ r : Fin 512, ext f (512 * q + r.val)

/-- The sum over the first `n` tiles. -/
def upto (f : Fin 2048 → M) (n : ℕ) : M := ∑ q ∈ range n, tile f q

theorem upto_zero (f : Fin 2048 → M) : upto f 0 = 0 := Finset.sum_range_zero _

theorem upto_succ (f : Fin 2048 → M) (n : ℕ) : upto f (n + 1) = upto f n + tile f n :=
  Finset.sum_range_succ _ _

theorem upto_one (f : Fin 2048 → M) : upto f 1 = tile f 0 := by
  rw [upto_succ, upto_zero, zero_add]

/-- A tile inside the rows is the sum of the family over its 512 rows. -/
theorem tile_eq (f : Fin 2048 → M) (q : ℕ) (hq : q < 4) :
    tile f q = ∑ r : Fin 512, f ⟨512 * q + r.val, by have := r.isLt; omega⟩ :=
  Finset.sum_congr rfl fun r _ => ext_of_lt f _

/-- `n` consecutive runs of length `k` make up the first `k n` naturals. -/
theorem sum_range_mul (g : ℕ → M) (k n : ℕ) :
    ∑ q ∈ range n, ∑ r ∈ range k, g (k * q + r) = ∑ s ∈ range (k * n), g s := by
  induction n with
  | zero => simp
  | succ n ih => rw [Finset.sum_range_succ, ih, Nat.mul_succ, Finset.sum_range_add]

/-- The four tiles make up all the rows. -/
theorem upto_four (f : Fin 2048 → M) : upto f 4 = ∑ s : Fin 2048, f s := by
  unfold upto tile
  have h1 : ∀ q : ℕ, ∑ r : Fin 512, ext f (512 * q + r.val) = ∑ r ∈ range 512, ext f (512 * q + r) :=
    fun q => Fin.sum_univ_eq_sum_range (fun r => ext f (512 * q + r)) 512
  simp only [h1]
  rw [sum_range_mul (ext f) 512 4, ← Fin.sum_univ_eq_sum_range (ext f) (512 * 4)]
  exact Finset.sum_congr rfl fun s _ => ext_of_lt f s.isLt

end Cert.TileSum
-- ==== Proof.KPayload.lean ====
/-
  The kernel body's pure values, read index by index on the extended reals.

  Each payload of the kernel body is a composition of pointwise operations, layout operations (unit axes added or
  dropped, one row or one column repeated), one matrix product into a zero accumulator and sums along the row axis.
  Read at an index, each is the closed expression below:
    activation[r,j] = y · logistic y + semb[j],   y = Σ_k x[r,k] · Wt[k,j] + bias[j]
    μ[r]            = 1 if mask[r] > 0 (signed) else 0
    rowsum'[j]      = rowsum[j] + Σ_r activation[r,j] · μ[r]
    count'          = count + Σ_r μ[r]
    high/mid[r,j]   = activation[r,j] + bemb[j]
    low[j]          = rowsum[j] / max count ε + bemb[j]
-/
import proofs.«419683_j38096359915876_3_alg».proof.Proof.Gen.KernelIdeal.Skeleton
import proofs.«419683_j38096359915876_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## Layout operations at an index -/

/-- One row [1, 1024], flattened to [1024], given its unit axis back and repeated over the 512 rows of a tile,
    reads at (r, j) the row's entry j. -/
theorem rowRepeat_apply (v : FVec Ideal S1x1024 .f32) (h1 : S1x1024.ShapeCasts S1024) (h2 : S1024.ShapeCasts S1x1024)
    (h3 : S1x1024.Broadcasts S512x1024) (r : Fin 512) (j : Fin 1024) :
    broadcastTo S512x1024 (shapeCast S1x1024 (shapeCast S1024 v h1) h2) h3 (ix2 r j) = v (ix2 0 j) := by
  rw [broadcastTo_1b_ab_apply, shapeCast_a_1a_apply, shapeCast_1a_a_apply]

/-- The same row flattened and given its unit axis back, with no repetition. -/
theorem rowRecast_apply (v : FVec Ideal S1x1024 .f32) (h1 : S1x1024.ShapeCasts S1024) (h2 : S1024.ShapeCasts S1x1024)
    (j : Fin 1024) : shapeCast S1x1024 (shapeCast S1024 v h1) h2 (ix2 0 j) = v (ix2 0 j) := by
  rw [shapeCast_a_1a_apply, shapeCast_1a_a_apply]

/-- One column [512, 1] repeated over the 1024 lanes reads at (r, j) the column's entry r. -/
theorem colRepeat_apply (v : FVec Ideal S512x1 .f32) (h : S512x1.Broadcasts S512x1024) (r : Fin 512) (j : Fin 1024) :
    broadcastTo S512x1024 v h (ix2 r j) = v (ix2 r 0) :=
  broadcastTo_apply v h (ix2 r j) (ix2 r 0) fun ax => by
    match ax with
    | ⟨0, _⟩ => rfl
    | ⟨1, _⟩ => rfl

/-- One number [1, 1] repeated over the 1024 lanes of a row reads the number everywhere. -/
theorem oneRepeat_apply (v : FVec Ideal S1x1 .f32) (h : S1x1.Broadcasts S1x1024) (j : Fin 1024) :
    broadcastTo S1x1024 v h (ix2 0 j) = v (ix2 0 0) :=
  broadcastTo_apply v h (ix2 0 j) (ix2 0 0) fun ax => by
    match ax with
    | ⟨0, _⟩ => rfl
    | ⟨1, _⟩ => rfl

/-- The logistic function of a vector, read at an index. -/
theorem logistic_apply {s : Shape} {φ : FTy} (a : FVec Ideal s φ) (i : s.Idx) : logistic a i = Ideal.logistic (a i) := rfl

/-! ## The sums along the row axis -/

/-- The sum of a [512, 1024] tile along its rows, from the zero word: at lane j, the sum over the rows. -/
theorem rowSum_apply (src : FVec Ideal S512x1024 .f32) (h : S512x1024.Reduces [0] S1024) (hφ : FKind.Formats .f32)
    (hacc : (0x00000000#32 : BitVec 32) = 0x00000000#32) (j : Fin 1024) :
    multiReduction (F := Ideal) .add [0] S1024 src 0x00000000#32 h hφ hacc (ix1 j) = ∑ r : Fin 512, src (ix2 r j) := by
  refine (Ideal.multiReduction_add_single src 0x00000000#32 h hφ hacc (ix1 j)).trans ?_
  exact Finset.sum_congr rfl fun k _ => congrArg src (funext fun c => Fin.ext (by
    match c with
    | ⟨0, _⟩ => rfl
    | ⟨1, _⟩ => rfl))

/-- The sum of a [512, 1] column along its rows, from the zero word. -/
theorem colSum_apply (src : FVec Ideal S512x1 .f32) (h : S512x1.Reduces [0] S1) (hφ : FKind.Formats .f32)
    (hacc : (0x00000000#32 : BitVec 32) = 0x00000000#32) :
    multiReduction (F := Ideal) .add [0] S1 src 0x00000000#32 h hφ hacc (ix1 0) = ∑ r : Fin 512, src (ix2 r 0) := by
  refine (Ideal.multiReduction_add_single src 0x00000000#32 h hφ hacc (ix1 0)).trans ?_
  exact Finset.sum_congr rfl fun k _ => congrArg src (funext fun c => Fin.ext (by
    match c with
    | ⟨0, _⟩ => rfl
    | ⟨1, _⟩ => rfl))

/-! ## The matrix product -/

/-- An output element's row is the left operand's row. -/
theorem lhs_mm_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's column is the contraction coordinate. -/
theorem lhs_mm_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's row is the contraction coordinate. -/
theorem rhs_mm_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- An output element's column is the right operand's column. -/
theorem rhs_mm_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a [512, 1024] tile with a [1024, 1024] matrix into a zero accumulator: at (r, j), the sum over
    the shared axis of the products. -/
theorem mm_apply (a : FVec Ideal S512x1024 .bf16) (b : FVec Ideal S1024x1024 .bf16) (r : Fin 512) (j : Fin 1024) :
    matmul (F := Ideal) dot_S512x1024_S1024x1024_S512x1024_1_0_0_1_n_n none a b (constant (F := Ideal) S512x1024 .f32 0x00000000#32) (ix2 r j)
      = ∑ k : Fin 1024, a (ix2 r k) * b (ix2 k j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r j) ((contrEquiv1 dot_S512x1024_S1024x1024_S512x1024_1_0_0_1_n_n 1024 rfl rfl).symm k) = ix2 r k := funext fun c => Fin.ext (by
    match c with
    | ⟨0, _⟩ => exact lhs_mm_0 _ _
    | ⟨1, _⟩ => exact (lhs_mm_1 _ _).trans hk)
  have er : dot_S512x1024_S1024x1024_S512x1024_1_0_0_1_n_n.rhsIdx (ix2 r j) ((contrEquiv1 dot_S512x1024_S1024x1024_S512x1024_1_0_0_1_n_n 1024 rfl rfl).symm k) = ix2 k j := funext fun c => Fin.ext (by
    match c with
    | ⟨0, _⟩ => exact (rhs_mm_0 _ _).trans hk
    | ⟨1, _⟩ => exact rhs_mm_1 _ _)
  rw [el, er]

/-! ## The payloads -/

/-- The activation of a tile at (r, j): y · logistic y plus the scale-embedding row, where y is the product's sum
    over the shared axis plus the bias row. -/
theorem pay8_apply (v5 : Vec Ideal S1x512x1024 .f32) (v9 : Vec Ideal S1x1024x1024 .bf16) (v13 v21 : Vec Ideal S1x1024 .f32)
    (r : Fin 512) (j : Fin 1024) :
    k0_pay8 (F := Ideal) v5 v9 v13 v21 (ix2 r j)
      = ((∑ k : Fin 1024, v5 (ix3 0 r k) * v9 (ix3 0 k j)) + v13 (ix2 0 j))
          * Ideal.logistic ((∑ k : Fin 1024, v5 (ix3 0 r k) * v9 (ix3 0 k j)) + v13 (ix2 0 j)) + v21 (ix2 0 j) := by
  unfold k0_pay8
  rw [addf_apply, mulf_apply, logistic_apply, addf_apply, mm_apply, rowRepeat_apply, rowRepeat_apply]
  have hs : (∑ k : Fin 1024, truncf (F := Ideal) .bf16 (shapeCast S512x1024 v5 Facts₀.shapeCasts_S1x512x1024_S512x1024) Facts₀.bitsLt_bf16_f32 (ix2 r k)
        * shapeCast S1024x1024 v9 Facts₀.shapeCasts_S1x1024x1024_S1024x1024 (ix2 k j))
      = ∑ k : Fin 1024, v5 (ix3 0 r k) * v9 (ix3 0 k j) :=
    Finset.sum_congr rfl fun k _ => by
      rw [truncf_apply, shapeCast_1ab_ab_apply, shapeCast_1ab_ab_apply]
  rw [hs]

/-- The mask weight of a row: one where the mask word is positive as a signed integer, else zero. -/
theorem pay9_apply (v26 : Vec Ideal S1x512x1 .i32) (r : Fin 512) :
    k0_pay9 (F := Ideal) v26 (ix2 r 0) = if 0 < (v26 (ix3 0 r 0)).toInt then (1 : EReal) else 0 := by
  unfold k0_pay9
  rw [sitofp_apply, extui_apply]
  show ((((IntOp.cmpi .sgt (shapeCast S512x1 v26 Facts₀.shapeCasts_S1x512x1_S512x1 (ix2 r 0)) 0#32).setWidth 32).toInt : ℝ) : EReal) = _
  rw [shapeCast_1ab_ab_apply]
  generalize v26 (ix3 0 r 0) = x
  unfold IntOp.cmpi
  by_cases h : 0 < x.toInt
  · rw [if_pos h]
    have hb : (0#32).slt x = true := by simp [BitVec.slt, h]
    simp [hb]
  · rw [if_neg h]
    have hb : (0#32).slt x = false := by simp [BitVec.slt, h]
    simp [hb]

/-- The masked row sums, accumulated: the running row plus, at lane j, the sum over the tile's rows of the activation
    times the row's mask weight. -/
theorem pay10_apply (v5 : Vec Ideal S1x512x1024 .f32) (v9 : Vec Ideal S1x1024x1024 .bf16) (v13 v21 : Vec Ideal S1x1024 .f32)
    (v26 : Vec Ideal S1x512x1 .i32) (v32 : Vec Ideal S1x1024 .f32) (j : Fin 1024) :
    k0_pay10 (F := Ideal) v5 v9 v13 v21 v26 v32 (ix2 0 j)
      = v32 (ix2 0 j) + ∑ r : Fin 512, k0_pay8 (F := Ideal) v5 v9 v13 v21 (ix2 r j) * k0_pay9 (F := Ideal) v26 (ix2 r 0) := by
  unfold k0_pay10
  rw [addf_apply, shapeCast_a_1a_apply, rowSum_apply]
  refine congrArg (v32 (ix2 0 j) + ·) (Finset.sum_congr rfl fun r _ => ?_)
  rw [mulf_apply, colRepeat_apply]

/-- The mask count, accumulated: the running count plus the sum of the tile's mask weights. -/
theorem pay2_apply (v31 : FVec Ideal S512x1 .f32) (v41 : Vec Ideal S1x1 .f32) :
    k0_pay2 (F := Ideal) v31 v41 (ix2 0 0) = v41 (ix2 0 0) + ∑ r : Fin 512, v31 (ix2 r 0) := by
  unfold k0_pay2
  rw [shapeCast_self, addf_apply, shapeCast_a_1a_apply, colSum_apply]

/-- The accumulated row is stored as it is. -/
theorem pay1_eq (v37 : FVec Ideal S1x1024 .f32) : k0_pay1 (F := Ideal) v37 = v37 := by
  unfold k0_pay1
  rw [shapeCast_self]

/-- The first result's tile: the activation plus a branch-embedding row. -/
theorem pay3_apply (v25 : FVec Ideal S512x1024 .f32) (v48 : Vec Ideal S1x1024 .f32) (r : Fin 512) (j : Fin 1024) :
    k0_pay3 (F := Ideal) v25 v48 (ix3 0 r j) = v25 (ix2 r j) + v48 (ix2 0 j) := by
  unfold k0_pay3
  rw [shapeCast_ab_1ab_apply, addf_apply, rowRepeat_apply]

/-- The second result's tile: the activation plus a branch-embedding row. -/
theorem pay4_apply (v25 : FVec Ideal S512x1024 .f32) (v56 : Vec Ideal S1x1024 .f32) (r : Fin 512) (j : Fin 1024) :
    k0_pay4 (F := Ideal) v25 v56 (ix3 0 r j) = v25 (ix2 r j) + v56 (ix2 0 j) := by
  unfold k0_pay4
  rw [shapeCast_ab_1ab_apply, addf_apply, rowRepeat_apply]

/-- The third result's row: the masked row sum over the count floored at the literal, plus a branch-embedding row. -/
theorem pay5_apply (v67 : Vec Ideal S1x1 .f32) (v70 v73 : Vec Ideal S1x1024 .f32) (j : Fin 1024) :
    k0_pay5 (F := Ideal) v67 v70 v73 (ix3 0 0 j)
      = Ideal.div (v70 (ix2 0 j)) (max (v67 (ix2 0 0)) Cert.Spec.eps) + v73 (ix2 0 j) := by
  unfold k0_pay5
  rw [shapeCast_ab_1ab_apply, addf_apply, divf_apply, oneRepeat_apply, maximumf_apply, broadcast_apply, rowRecast_apply]
  rfl

/-- The row accumulator's reset value is zero. -/
theorem pay6_apply (j : Fin 1024) : k0_pay6 (F := Ideal) (ix2 0 j) = 0 := by
  unfold k0_pay6
  rw [shapeCast_self, broadcast_apply]
  exact Ideal.ofBits_zero_f32

/-- The count's reset value is zero. -/
theorem pay7_apply : k0_pay7 (F := Ideal) (ix2 0 0) = 0 := by
  unfold k0_pay7
  rw [shapeCast_self, broadcast_apply]
  exact Ideal.ofBits_zero_f32

end Cert.KernelIdeal.Pay

end
-- ==== Proof.KLoads.lean ====
/-
  The values the kernel's body loads, named once.

  At grid point `i = (b, q)` the body reads one word `v` of the prefetched expert table (entry `b`) and then
  loads, through rectangles whose first offset is that word,
    * the expert's slice of the transposed weights: rows `[v, v+1) × [0,1024) × [0,1024)` of the `[3,1024,1024]` array,
    * the expert's row of the bias and of the scale embedding: rows `[v, v+1) × [0,1024)` of a `[3,1024]` array,
  and, at fixed offsets, rows 0, 1 and 2 of the branch embedding. Each is a restriction of the whole staged array
  to a unit-stride rectangle, so at an index it is the array at the shifted index: the slice at `(0, k, j)` is the
  array at `(v, k, j)`, the row at `(0, j)` is the array at `(v, j)`. The index facts are stated at a VARIABLE word
  with the range fact `v < 3` as a hypothesis; the side condition the body assumes of the word implies it.
-/
import proofs.«419683_j38096359915876_3_alg».proof.Proof.Gen.KernelIdeal.Frame
import Idealize.ShloMosaic.Lib.ValueIdx

noncomputable section

namespace Cert.KernelIdeal.Pieces

open Idealize.ShloMosaic Idealize.ShloMosaic.ValueIdx
open Cert.KernelIdeal Cert.KernelIdeal.Gen

variable {F : FTy → Type} [FloatOps F]

/-- The word of the prefetched expert table the body reads at grid point `i`: the table's entry `i 0`. -/
abbrev tword (c : Dev nD) (i : grid0.Coords) (xt0 : TbBuf0 (F := F) c tbM0_0) : BitVec 32 :=
  tbM0_0.view.readAt (Elt F) (Rect.unit (s := S32) (k0_off1 i) S1.size (k0_off1_inb i)).toLoadRect xt0
    (Shape.Idx.first (numel1_S1.symm ▸ Nat.one_pos))

/-- The side condition the body assumes of the table word says the word is an expert: below 3. -/
theorem toNat_lt_of_chk {v : BitVec 32} (h : k0_chk1 v) : v.toNat < 3 := by
  have h0 := h.1 (0 : Fin 3)
  have e : (k0_off2 v) (0 : Fin 3) = v.toNat := rfl
  have e1 : S1x1024x1024.size (0 : Fin 3) = 1 := rfl
  have e3 : S3x1024x1024.size (0 : Fin 3) = 3 := rfl
  rw [e, e1, e3] at h0
  omega

/-- Conversely a word below 3 satisfies the side condition: both rectangles lie inside their arrays. -/
theorem chk_of_toNat_lt {v : BitVec 32} (h : v.toNat < 3) : k0_chk1 v := by
  refine ⟨fun a => ?_, fun a => ?_⟩
  · match a with
    | ⟨0, _⟩ => show v.toNat + 1 ≤ 3; omega
    | ⟨1, _⟩ => show 0 + 1024 ≤ 1024; omega
    | ⟨2, _⟩ => show 0 + 1024 ≤ 1024; omega
  · match a with
    | ⟨0, _⟩ => show v.toNat + 1 ≤ 3; omega
    | ⟨1, _⟩ => show 0 + 1024 ≤ 1024; omega

/-- The slice of the transposed weights `x2 : [3,1024,1024]` the body loads at word `v`: expert `v`'s `[1,1024,1024]`. -/
def Wsl (x2 : Vec F S3x1024x1024 .bf16) (v : BitVec 32) (h : k0_chk1 v) : Vec F S1x1024x1024 .bf16 :=
  View.ld x2 (Rect.unit (s := S3x1024x1024) (k0_off2 v) S1x1024x1024.size (k0_off2_inb v h))

/-- The row of a `[3,1024]` array (the bias `x3`, the scale embedding `x4`) the body loads at word `v`: row `v`. -/
def rowsl (x : Vec F S3x1024 .f32) (v : BitVec 32) (h : k0_chk1 v) : Vec F S1x1024 .f32 :=
  View.ld x (Rect.unit (s := S3x1024) (k0_off3 v) S1x1024.size (k0_off3_inb v h))

/-- Row 0 of the branch embedding `x5 : [3,1024]`, as the body loads it. -/
def brow0 (x5 : Vec F S3x1024 .f32) : Vec F S1x1024 .f32 :=
  View.ld x5 (Rect.unit (s := S3x1024) ![0, 0] S1x1024.size inb_S3x1024_S1x1024_0_0)

/-- Row 1 of the branch embedding. -/
def brow1 (x5 : Vec F S3x1024 .f32) : Vec F S1x1024 .f32 :=
  View.ld x5 (Rect.unit (s := S3x1024) ![1, 0] S1x1024.size inb_S3x1024_S1x1024_1_0)

/-- Row 2 of the branch embedding. -/
def brow2 (x5 : Vec F S3x1024 .f32) : Vec F S1x1024 .f32 :=
  View.ld x5 (Rect.unit (s := S3x1024) ![2, 0] S1x1024.size inb_S3x1024_S1x1024_2_0)

/-- The weight slice at `(0, k, j)` is the array at `(v, k, j)`. -/
theorem Wsl_apply (x2 : Vec F S3x1024x1024 .bf16) (v : BitVec 32) (h : k0_chk1 v) (hv : v.toNat < 3)
    (k j : Fin 1024) :
    Wsl x2 v h (ix3 (0 : Fin 1) k j) = x2 (ix3 (⟨v.toNat, hv⟩ : Fin 3) k j) := by
  show x2 _ = x2 _
  congr 1
  funext a
  match a with
  | ⟨0, _⟩ => exact Fin.ext (by show v.toNat + 1 * 0 = v.toNat; omega)
  | ⟨1, _⟩ => exact Fin.ext (by show 0 + 1 * k.val = k.val; omega)
  | ⟨2, _⟩ => exact Fin.ext (by show 0 + 1 * j.val = j.val; omega)

/-- The loaded row at `(0, j)` is the array at `(v, j)`. -/
theorem rowsl_apply (x : Vec F S3x1024 .f32) (v : BitVec 32) (h : k0_chk1 v) (hv : v.toNat < 3) (j : Fin 1024) :
    rowsl x v h (ix2 (0 : Fin 1) j) = x (ix2 (⟨v.toNat, hv⟩ : Fin 3) j) := by
  show x _ = x _
  congr 1
  funext a
  match a with
  | ⟨0, _⟩ => exact Fin.ext (by show v.toNat + 1 * 0 = v.toNat; omega)
  | ⟨1, _⟩ => exact Fin.ext (by show 0 + 1 * j.val = j.val; omega)

/-- Row 0 of the branch embedding at `(0, j)`. -/
theorem brow0_apply (x5 : Vec F S3x1024 .f32) (j : Fin 1024) :
    brow0 x5 (ix2 (0 : Fin 1) j) = x5 (ix2 (0 : Fin 3) j) := by
  show x5 _ = x5 _
  congr 1
  funext a
  match a with
  | ⟨0, _⟩ => exact Fin.ext (by show 0 + 1 * 0 = 0; omega)
  | ⟨1, _⟩ => exact Fin.ext (by show 0 + 1 * j.val = j.val; omega)

/-- Row 1 of the branch embedding at `(0, j)`. -/
theorem brow1_apply (x5 : Vec F S3x1024 .f32) (j : Fin 1024) :
    brow1 x5 (ix2 (0 : Fin 1) j) = x5 (ix2 (1 : Fin 3) j) := by
  show x5 _ = x5 _
  congr 1
  funext a
  match a with
  | ⟨0, _⟩ => exact Fin.ext (by show 1 + 1 * 0 = 1; omega)
  | ⟨1, _⟩ => exact Fin.ext (by show 0 + 1 * j.val = j.val; omega)

/-- Row 2 of the branch embedding at `(0, j)`. -/
theorem brow2_apply (x5 : Vec F S3x1024 .f32) (j : Fin 1024) :
    brow2 x5 (ix2 (0 : Fin 1) j) = x5 (ix2 (2 : Fin 3) j) := by
  show x5 _ = x5 _
  congr 1
  funext a
  match a with
  | ⟨0, _⟩ => exact Fin.ext (by show 2 + 1 * 0 = 2; omega)
  | ⟨1, _⟩ => exact Fin.ext (by show 0 + 1 * j.val = j.val; omega)

end Cert.KernelIdeal.Pieces

end
-- ==== Proof.KPiecesA.lean ====
/-
  What case A of the kernel's body leaves behind, piece by piece.

  Case A is the first tile of a sample (second grid coordinate 0): the two accumulators are zeroed, then the tile's
  masked row sum and mask count are added; the first two outputs get the activation plus a branch row; the third output is idle.
  Each lemma reads the run's found pieces back: every store of the body covers its whole staging buffer, through
  the unit rectangle at zero offsets, so the buffer after the run is the LAST store's payload (one store: that
  payload; a reset followed by an update: the update, whose own read of the accumulator sees the reset value), and
  every load of a whole input buffer reads that buffer's contents. What remains is the payload over the named
  loads: the expert's weight slice and rows at the table word, and the branch embedding's rows.
-/
import proofs.«419683_j38096359915876_3_alg».proof.Proof.KLoads
import Idealize.ShloMosaic.Lib.Pipeline.Value

set_option maxRecDepth 16384

noncomputable section

namespace Cert.KernelIdeal.Pieces

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The zero offsets of a rank-3 access, however spelt. -/
private theorem hz3 : (![0, 0, 0] : Fin 3 → Nat) = fun _ => 0 := funext fun a => by fin_cases a <;> rfl
/-- The zero offsets of a rank-2 access. -/
private theorem hz2 : (![0, 0] : Fin 2 → Nat) = fun _ => 0 := funext fun a => by fin_cases a <;> rfl

/-- Case A: the first output's block is the activation plus row 0 of the branch embedding. -/
theorem out0_A_6_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : cond0_0 i) (hc1 : ¬cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (k0_hw1 : k0_chk1 (tbM0_0.view.readAt (Elt F) (Rect.unit (s := S32) (k0_off1 i) S1.size (k0_off1_inb i)).toLoadRect xt0 (Shape.Idx.first (numel1_S1.symm ▸ Nat.one_pos)))) :
    out0_A_6 c i arg3 harg3 arg4 harg4 arg5 harg5 arg6 harg6 arg7 harg7 arg8 harg8 arg9 harg9 arg10 harg10 arg11 harg11 arg12 harg12 arg13 harg13 hc0 hc1 x0 x1 x2 x3 x4 x5 xt0 k0_hw1 = k0_pay3 (k0_pay8 x0 (Wsl x2 (tword c i xt0) k0_hw1) (rowsl x3 (tword c i xt0) k0_hw1) (rowsl x4 (tword c i xt0) k0_hw1)) (brow0 x5) := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 arg13 harg13 hc0 hc1 x0 x1 x2 x3 x4 x5 xt0 k0_hw1)]
  unfold kernelRun0_A
  dsimp only
  sl_unfold_words
  rw [View.canon_unit_zero hz3]
  simp only [View.readAt_eq_ld, harg3.read_unread, harg4.read_unread, harg5.read_unread, harg6.read_unread, harg7.read_unread, harg8.read_unread, View.ld_unit_zero (S := S1x512x1024) hz3, View.ld_unit_zero (S := S1x512x1) hz3]
  rfl

/-- Case A: the second output's block is the activation plus row 1 of the branch embedding. -/
theorem out0_A_7_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : cond0_0 i) (hc1 : ¬cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (k0_hw1 : k0_chk1 (tbM0_0.view.readAt (Elt F) (Rect.unit (s := S32) (k0_off1 i) S1.size (k0_off1_inb i)).toLoadRect xt0 (Shape.Idx.first (numel1_S1.symm ▸ Nat.one_pos)))) :
    out0_A_7 c i arg3 harg3 arg4 harg4 arg5 harg5 arg6 harg6 arg7 harg7 arg8 harg8 arg9 harg9 arg10 harg10 arg11 harg11 arg12 harg12 arg13 harg13 hc0 hc1 x0 x1 x2 x3 x4 x5 xt0 k0_hw1 = k0_pay4 (k0_pay8 x0 (Wsl x2 (tword c i xt0) k0_hw1) (rowsl x3 (tword c i xt0) k0_hw1) (rowsl x4 (tword c i xt0) k0_hw1)) (brow1 x5) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 arg13 harg13 hc0 hc1 x0 x1 x2 x3 x4 x5 xt0 k0_hw1)]
  unfold kernelRun0_A
  dsimp only
  sl_unfold_words
  rw [View.canon_unit_zero hz3]
  simp only [View.readAt_eq_ld, harg3.read_unread, harg4.read_unread, harg5.read_unread, harg6.read_unread, harg7.read_unread, harg8.read_unread, View.ld_unit_zero (S := S1x512x1024) hz3, View.ld_unit_zero (S := S1x512x1) hz3]
  rfl

/-- Case A (first tile of a sample): the sum accumulator is reset to zero and then receives this tile's masked row sum. -/
theorem sout0_A_0_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : cond0_0 i) (hc1 : ¬cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (k0_hw1 : k0_chk1 (tbM0_0.view.readAt (Elt F) (Rect.unit (s := S32) (k0_off1 i) S1.size (k0_off1_inb i)).toLoadRect xt0 (Shape.Idx.first (numel1_S1.symm ▸ Nat.one_pos)))) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 xt0 k0_hw1 = k0_pay1 (k0_pay10 x0 (Wsl x2 (tword c i xt0) k0_hw1) (rowsl x3 (tword c i xt0) k0_hw1) (rowsl x4 (tword c i xt0) k0_hw1) x1 (k0_pay6 (F := F))) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5 xt0 k0_hw1)]
  unfold kernelRun0_A
  dsimp only
  sl_unfold_words
  rw [View.canon_cons_unit_zero (S := S1x1024) hz2, View.readCov_unit_zero (S := S1x1024) _ hz2]
  simp only [View.readAt_eq_ld, harg3.read_unread, harg4.read_unread, harg5.read_unread, harg6.read_unread, harg7.read_unread, harg8.read_unread, View.ld_unit_zero (S := S1x512x1024) hz3, View.ld_unit_zero (S := S1x512x1) hz3]
  rfl

/-- Case A: the count accumulator is reset to zero and then receives this tile's mask count. -/
theorem sout0_A_1_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : cond0_0 i) (hc1 : ¬cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (k0_hw1 : k0_chk1 (tbM0_0.view.readAt (Elt F) (Rect.unit (s := S32) (k0_off1 i) S1.size (k0_off1_inb i)).toLoadRect xt0 (Shape.Idx.first (numel1_S1.symm ▸ Nat.one_pos)))) :
    sout0_A_1 c i arg3 harg3 arg4 harg4 arg5 harg5 arg6 harg6 arg7 harg7 arg8 harg8 arg9 harg9 arg10 harg10 arg11 harg11 arg12 harg12 arg13 harg13 hc0 hc1 x0 x1 x2 x3 x4 x5 xt0 k0_hw1 = k0_pay2 (k0_pay9 x1) (k0_pay7 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 x0 x1 x2 x3 x4 x5 xt0 k0_hw1)]
  unfold kernelRun0_A
  dsimp only
  sl_unfold_words
  rw [View.canon_cons_unit_zero (S := S1x1) hz2, View.readCov_unit_zero (S := S1x1) _ hz2]
  simp only [View.readAt_eq_ld, harg3.read_unread, harg4.read_unread, harg5.read_unread, harg6.read_unread, harg7.read_unread, harg8.read_unread, View.ld_unit_zero (S := S1x512x1024) hz3, View.ld_unit_zero (S := S1x512x1) hz3]

end Cert.KernelIdeal.Pieces

end
-- ==== Proof.KPiecesB.lean ====
/-
  What case B of the kernel's body leaves behind, piece by piece.

  Case B is a middle tile of a sample (second grid coordinate 1 or 2): the two accumulators, holding what the point
  before left, receive the tile's masked row sum and mask count; the first two outputs get the activation plus a branch row;
  the third output is idle.
  Each lemma reads the run's found pieces back: every store of the body covers its whole staging buffer, through
  the unit rectangle at zero offsets, so the buffer after the run is the LAST store's payload (one store: that
  payload; a reset followed by an update: the update, whose own read of the accumulator sees the reset value), and
  every load of a whole input buffer reads that buffer's contents. What remains is the payload over the named
  loads: the expert's weight slice and rows at the table word, and the branch embedding's rows.
-/
import proofs.«419683_j38096359915876_3_alg».proof.Proof.KLoads
import Idealize.ShloMosaic.Lib.Pipeline.Value

set_option maxRecDepth 16384

noncomputable section

namespace Cert.KernelIdeal.Pieces

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The zero offsets of a rank-3 access, however spelt. -/
private theorem hz3 : (![0, 0, 0] : Fin 3 → Nat) = fun _ => 0 := funext fun a => by fin_cases a <;> rfl
/-- The zero offsets of a rank-2 access. -/
private theorem hz2 : (![0, 0] : Fin 2 → Nat) = fun _ => 0 := funext fun a => by fin_cases a <;> rfl

/-- Case B: the first output's block is the activation plus row 0 of the branch embedding. -/
theorem out0_B_6_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : ¬cond0_0 i) (hc1 : ¬cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (xs0 : Vec F S1x1024 .f32) (xs1 : Vec F S1x1 .f32) (k0_hw1 : k0_chk1 (tbM0_0.view.readAt (Elt F) (Rect.unit (s := S32) (k0_off1 i) S1.size (k0_off1_inb i)).toLoadRect xt0 (Shape.Idx.first (numel1_S1.symm ▸ Nat.one_pos)))) :
    out0_B_6 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1 = k0_pay3 (k0_pay8 x0 (Wsl x2 (tword c i xt0) k0_hw1) (rowsl x3 (tword c i xt0) k0_hw1) (rowsl x4 (tword c i xt0) k0_hw1)) (brow0 x5) := by
  unfold out0_B_6
  rw [View.read_writes_eq_canon _ _ _ (cover0_B_6 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg12.read_unread, harg13.read_unread, View.ld_unit_zero (S := S1x512x1024) hz3, View.ld_unit_zero (S := S1x512x1) hz3, View.ld_unit_zero (S := S1x1024) hz2, View.ld_unit_zero (S := S1x1) hz2]
  rfl

/-- Case B: the second output's block is the activation plus row 1 of the branch embedding. -/
theorem out0_B_7_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : ¬cond0_0 i) (hc1 : ¬cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (xs0 : Vec F S1x1024 .f32) (xs1 : Vec F S1x1 .f32) (k0_hw1 : k0_chk1 (tbM0_0.view.readAt (Elt F) (Rect.unit (s := S32) (k0_off1 i) S1.size (k0_off1_inb i)).toLoadRect xt0 (Shape.Idx.first (numel1_S1.symm ▸ Nat.one_pos)))) :
    out0_B_7 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1 = k0_pay4 (k0_pay8 x0 (Wsl x2 (tword c i xt0) k0_hw1) (rowsl x3 (tword c i xt0) k0_hw1) (rowsl x4 (tword c i xt0) k0_hw1)) (brow1 x5) := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg12.read_unread, harg13.read_unread, View.ld_unit_zero (S := S1x512x1024) hz3, View.ld_unit_zero (S := S1x512x1) hz3, View.ld_unit_zero (S := S1x1024) hz2, View.ld_unit_zero (S := S1x1) hz2]
  rfl

/-- Case B: the sum accumulator is what the point before left plus this tile's masked row sum. -/
theorem sout0_B_0_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : ¬cond0_0 i) (hc1 : ¬cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (xs0 : Vec F S1x1024 .f32) (xs1 : Vec F S1x1 .f32) (k0_hw1 : k0_chk1 (tbM0_0.view.readAt (Elt F) (Rect.unit (s := S32) (k0_off1 i) S1.size (k0_off1_inb i)).toLoadRect xt0 (Shape.Idx.first (numel1_S1.symm ▸ Nat.one_pos)))) :
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1 = k0_pay1 (k0_pay10 x0 (Wsl x2 (tword c i xt0) k0_hw1) (rowsl x3 (tword c i xt0) k0_hw1) (rowsl x4 (tword c i xt0) k0_hw1) x1 xs0) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg12.read_unread, harg13.read_unread, View.ld_unit_zero (S := S1x512x1024) hz3, View.ld_unit_zero (S := S1x512x1) hz3, View.ld_unit_zero (S := S1x1024) hz2, View.ld_unit_zero (S := S1x1) hz2]
  rfl

/-- Case B: the count accumulator is what the point before left plus this tile's mask count. -/
theorem sout0_B_1_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : ¬cond0_0 i) (hc1 : ¬cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (xs0 : Vec F S1x1024 .f32) (xs1 : Vec F S1x1 .f32) (k0_hw1 : k0_chk1 (tbM0_0.view.readAt (Elt F) (Rect.unit (s := S32) (k0_off1 i) S1.size (k0_off1_inb i)).toLoadRect xt0 (Shape.Idx.first (numel1_S1.symm ▸ Nat.one_pos)))) :
    sout0_B_1 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1 = k0_pay2 (k0_pay9 x1) xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg12.read_unread, harg13.read_unread, View.ld_unit_zero (S := S1x512x1024) hz3, View.ld_unit_zero (S := S1x512x1) hz3, View.ld_unit_zero (S := S1x1024) hz2, View.ld_unit_zero (S := S1x1) hz2]

end Cert.KernelIdeal.Pieces

end
-- ==== Proof.KPiecesC.lean ====
/-
  What case C of the kernel's body leaves behind, piece by piece.

  Case C is the last tile of a sample (second grid coordinate 3): the accumulators are updated as in a middle tile, and
  the third output is stored: the updated sum divided by the updated count floored at the literal, plus branch row 2.
  Each lemma reads the run's found pieces back: every store of the body covers its whole staging buffer, through
  the unit rectangle at zero offsets, so the buffer after the run is the LAST store's payload (one store: that
  payload; a reset followed by an update: the update, whose own read of the accumulator sees the reset value), and
  every load of a whole input buffer reads that buffer's contents. What remains is the payload over the named
  loads: the expert's weight slice and rows at the table word, and the branch embedding's rows.
-/
import proofs.«419683_j38096359915876_3_alg».proof.Proof.KLoads
import Idealize.ShloMosaic.Lib.Pipeline.Value

set_option maxRecDepth 16384

noncomputable section

namespace Cert.KernelIdeal.Pieces

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The zero offsets of a rank-3 access, however spelt. -/
private theorem hz3 : (![0, 0, 0] : Fin 3 → Nat) = fun _ => 0 := funext fun a => by fin_cases a <;> rfl
/-- The zero offsets of a rank-2 access. -/
private theorem hz2 : (![0, 0] : Fin 2 → Nat) = fun _ => 0 := funext fun a => by fin_cases a <;> rfl

/-- Case C: the first output's block is the activation plus row 0 of the branch embedding. -/
theorem out0_C_6_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : ¬cond0_0 i) (hc1 : cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (xs0 : Vec F S1x1024 .f32) (xs1 : Vec F S1x1 .f32) (k0_hw1 : k0_chk1 (tbM0_0.view.readAt (Elt F) (Rect.unit (s := S32) (k0_off1 i) S1.size (k0_off1_inb i)).toLoadRect xt0 (Shape.Idx.first (numel1_S1.symm ▸ Nat.one_pos)))) :
    out0_C_6 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1 = k0_pay3 (k0_pay8 x0 (Wsl x2 (tword c i xt0) k0_hw1) (rowsl x3 (tword c i xt0) k0_hw1) (rowsl x4 (tword c i xt0) k0_hw1)) (brow0 x5) := by
  unfold out0_C_6
  rw [View.read_writes_eq_canon _ _ _ (cover0_C_6 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg12.read_unread, harg13.read_unread, View.ld_unit_zero (S := S1x512x1024) hz3, View.ld_unit_zero (S := S1x512x1) hz3, View.ld_unit_zero (S := S1x1024) hz2, View.ld_unit_zero (S := S1x1) hz2]
  rfl

/-- Case C: the second output's block is the activation plus row 1 of the branch embedding. -/
theorem out0_C_7_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : ¬cond0_0 i) (hc1 : cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (xs0 : Vec F S1x1024 .f32) (xs1 : Vec F S1x1 .f32) (k0_hw1 : k0_chk1 (tbM0_0.view.readAt (Elt F) (Rect.unit (s := S32) (k0_off1 i) S1.size (k0_off1_inb i)).toLoadRect xt0 (Shape.Idx.first (numel1_S1.symm ▸ Nat.one_pos)))) :
    out0_C_7 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1 = k0_pay4 (k0_pay8 x0 (Wsl x2 (tword c i xt0) k0_hw1) (rowsl x3 (tword c i xt0) k0_hw1) (rowsl x4 (tword c i xt0) k0_hw1)) (brow1 x5) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg12.read_unread, harg13.read_unread, View.ld_unit_zero (S := S1x512x1024) hz3, View.ld_unit_zero (S := S1x512x1) hz3, View.ld_unit_zero (S := S1x1024) hz2, View.ld_unit_zero (S := S1x1) hz2]
  rfl

/-- Case C: the sum accumulator is what the point before left plus this tile's masked row sum. -/
theorem sout0_C_0_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : ¬cond0_0 i) (hc1 : cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (xs0 : Vec F S1x1024 .f32) (xs1 : Vec F S1x1 .f32) (k0_hw1 : k0_chk1 (tbM0_0.view.readAt (Elt F) (Rect.unit (s := S32) (k0_off1 i) S1.size (k0_off1_inb i)).toLoadRect xt0 (Shape.Idx.first (numel1_S1.symm ▸ Nat.one_pos)))) :
    sout0_C_0 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1 = k0_pay1 (k0_pay10 x0 (Wsl x2 (tword c i xt0) k0_hw1) (rowsl x3 (tword c i xt0) k0_hw1) (rowsl x4 (tword c i xt0) k0_hw1) x1 xs0) := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg12.read_unread, harg13.read_unread, View.ld_unit_zero (S := S1x512x1024) hz3, View.ld_unit_zero (S := S1x512x1) hz3, View.ld_unit_zero (S := S1x1024) hz2, View.ld_unit_zero (S := S1x1) hz2]
  rfl

/-- Case C: the count accumulator is what the point before left plus this tile's mask count. -/
theorem sout0_C_1_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : ¬cond0_0 i) (hc1 : cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (xs0 : Vec F S1x1024 .f32) (xs1 : Vec F S1x1 .f32) (k0_hw1 : k0_chk1 (tbM0_0.view.readAt (Elt F) (Rect.unit (s := S32) (k0_off1 i) S1.size (k0_off1_inb i)).toLoadRect xt0 (Shape.Idx.first (numel1_S1.symm ▸ Nat.one_pos)))) :
    sout0_C_1 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1 = k0_pay2 (k0_pay9 x1) xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg12.read_unread, harg13.read_unread, View.ld_unit_zero (S := S1x512x1024) hz3, View.ld_unit_zero (S := S1x512x1) hz3, View.ld_unit_zero (S := S1x1024) hz2, View.ld_unit_zero (S := S1x1) hz2]

/-- Case C (last tile of a sample): the third output's block is the updated sum over the floored updated count, plus row 2 of the branch embedding. -/
theorem out0_C_8_eq (c : Dev nD) (i : grid0.Coords) (arg3 : Memref sig .tc .vmem S1x512x1024 .f32) (harg3 : arg3.IsWhole) (arg4 : Memref sig .tc .vmem S1x512x1 .i32) (harg4 : arg4.IsWhole) (arg5 : Memref sig .tc .vmem S3x1024x1024 .bf16) (harg5 : arg5.IsWhole) (arg6 : Memref sig .tc .vmem S3x1024 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1 .f32) (harg13 : arg13.IsWhole) (hc0 : ¬cond0_0 i) (hc1 : cond0_1 i)
    (x0 : Vec F S1x512x1024 .f32) (x1 : Vec F S1x512x1 .i32) (x2 : Vec F S3x1024x1024 .bf16) (x3 : Vec F S3x1024 .f32) (x4 : Vec F S3x1024 .f32) (x5 : Vec F S3x1024 .f32) (xt0 : TbBuf0 (F := F) c tbM0_0) (xs0 : Vec F S1x1024 .f32) (xs1 : Vec F S1x1 .f32) (k0_hw1 : k0_chk1 (tbM0_0.view.readAt (Elt F) (Rect.unit (s := S32) (k0_off1 i) S1.size (k0_off1_inb i)).toLoadRect xt0 (Shape.Idx.first (numel1_S1.symm ▸ Nat.one_pos)))) :
    out0_C_8 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1 = k0_pay5 (k0_pay2 (k0_pay9 x1) xs1) (k0_pay1 (k0_pay10 x0 (Wsl x2 (tword c i xt0) k0_hw1) (rowsl x3 (tword c i xt0) k0_hw1) (rowsl x4 (tword c i xt0) k0_hw1) x1 xs0)) (brow2 x5) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 hc0 hc1 x0 x1 x2 x3 x4 x5 xt0 xs0 xs1 k0_hw1)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg12.read_unread, harg13.read_unread, View.ld_unit_zero (S := S1x512x1024) hz3, View.ld_unit_zero (S := S1x512x1) hz3, View.ld_unit_zero (S := S1x1024) hz2, View.ld_unit_zero (S := S1x1) hz2, View.readCov_unit_zero (S := S1x1) _ hz2, View.readCov_unit_zero (S := S1x1024) _ hz2]
  rfl

end Cert.KernelIdeal.Pieces

end
-- ==== Proof.KPieces.lean ====
/-
  The thirteen pieces of the kernel's body, gathered: what each control case (first, middle, last tile of a sample)
  leaves in the two streamed outputs, in the two carried accumulators and, in the last case, in the third output,
  as the body's arithmetic over the named loads.
-/
import proofs.«419683_j38096359915876_3_alg».proof.Proof.KPiecesA
import proofs.«419683_j38096359915876_3_alg».proof.Proof.KPiecesB
import proofs.«419683_j38096359915876_3_alg».proof.Proof.KPiecesC
-- ==== Proof.KCases.lean ====
/-
  What each control case of the kernel leaves in the staged blocks and in the two carried scratches after a grid
  point, as the body's arithmetic applied to the values the body reads at that point: its feature block, its mask
  block, the expert's weight matrix, bias row and scale embedding row, and the branch embedding rows.
-/
import proofs.«419683_j38096359915876_3_alg».proof.Proof.KPieces
import proofs.«419683_j38096359915876_3_alg».proof.Proof.KLoads
import proofs.«419683_j38096359915876_3_alg».proof.Proof.Gen.KernelIdeal.Frame

noncomputable section

namespace Cert.KernelIdeal.Inv

open Cert.KernelIdeal Cert.KernelIdeal.Gen Idealize.ShloMosaic Idealize.ShloMosaic.ValueIdx
open Idealize.ShloMosaic.TcCoe

variable (m : (ℓ : Loc nD τ sig) → Buf (Elt Ideal) ℓ)

/-! ## The values the body reads at a grid point, at their literal types -/

/-- The block of features the body sees at point `t`. -/
abbrev X0 (hO : Ok m) (c : Dev nD) (t : Fin (cfgM m hO).N) : Vec Ideal S1x512x1024 .f32 := iblk m hO c 0 t
/-- The block of the mask the body sees at point `t`. -/
abbrev X1 (hO : Ok m) (c : Dev nD) (t : Fin (cfgM m hO).N) : Vec Ideal S1x512x1 .i32 := iblk m hO c 1 t
/-- The transposed weights, whole. -/
abbrev X2 (hO : Ok m) (c : Dev nD) (t : Fin (cfgM m hO).N) : Vec Ideal S3x1024x1024 .bf16 := iblk m hO c 2 t
/-- The biases, whole. -/
abbrev X3 (hO : Ok m) (c : Dev nD) (t : Fin (cfgM m hO).N) : Vec Ideal S3x1024 .f32 := iblk m hO c 3 t
/-- The scale embeddings, whole. -/
abbrev X4 (hO : Ok m) (c : Dev nD) (t : Fin (cfgM m hO).N) : Vec Ideal S3x1024 .f32 := iblk m hO c 4 t
/-- The branch embeddings, whole. -/
abbrev X5 (hO : Ok m) (c : Dev nD) (t : Fin (cfgM m hO).N) : Vec Ideal S3x1024 .f32 := iblk m hO c 5 t
/-- The expert word the body reads from the table at point `t`. -/
abbrev wd (hO : Ok m) (c : Dev nD) (t : Fin (cfgM m hO).N) : BitVec 32 := Pieces.tword (F := Ideal) c (grid0.coords t) (tbl m 0)
/-- The expert's weight matrix as loaded at point `t`. -/
abbrev Wp (hO : Ok m) (hH : Hyps m hO) (c : Dev nD) (t : Fin (cfgM m hO).N) : Vec Ideal S1x1024x1024 .bf16 :=
  Pieces.Wsl (X2 m hO c t) (wd m hO c t) (Hyps.c0 hH c t)
/-- The expert's bias row as loaded at point `t`. -/
abbrev bp (hO : Ok m) (hH : Hyps m hO) (c : Dev nD) (t : Fin (cfgM m hO).N) : Vec Ideal S1x1024 .f32 :=
  Pieces.rowsl (X3 m hO c t) (wd m hO c t) (Hyps.c0 hH c t)
/-- The expert's scale embedding row as loaded at point `t`. -/
abbrev sp (hO : Ok m) (hH : Hyps m hO) (c : Dev nD) (t : Fin (cfgM m hO).N) : Vec Ideal S1x1024 .f32 :=
  Pieces.rowsl (X4 m hO c t) (wd m hO c t) (Hyps.c0 hH c t)
/-- The activation tile the body computes at point `t`. -/
abbrev actv (hO : Ok m) (hH : Hyps m hO) (c : Dev nD) (t : Fin (cfgM m hO).N) : FVec Ideal S512x1024 .f32 :=
  k0_pay8 (F := Ideal) (X0 m hO c t) (Wp m hO hH c t) (bp m hO hH c t) (sp m hO hH c t)
/-- The mask weights of the tile's rows at point `t`. -/
abbrev mu (hO : Ok m) (c : Dev nD) (t : Fin (cfgM m hO).N) : FVec Ideal S512x1 .f32 := k0_pay9 (F := Ideal) (X1 m hO c t)

/-! ## What each control case leaves, as payloads of the point's values -/

theorem o6_A (hO : Ok m) (hH : Hyps m hO) (c : Dev nD) (t : Fin (cfgM m hO).N) (h0 : t.val % 4 = 0) (h1 : ¬t.val % 4 = 3) :
    (outsAt0 m hO hH c t.val t.isLt).1
      = k0_pay3 (actv m hO hH c t) (Pieces.brow0 (X5 m hO c t)) := by
  rw [outsAt0_A m hO hH c t h0 h1]
  dsimp only
  exact Pieces.out0_A_6_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0) (Hyps.c0 hH c t)

theorem o7_A (hO : Ok m) (hH : Hyps m hO) (c : Dev nD) (t : Fin (cfgM m hO).N) (h0 : t.val % 4 = 0) (h1 : ¬t.val % 4 = 3) :
    (outsAt0 m hO hH c t.val t.isLt).2.1
      = k0_pay4 (actv m hO hH c t) (Pieces.brow1 (X5 m hO c t)) := by
  rw [outsAt0_A m hO hH c t h0 h1]
  dsimp only
  exact Pieces.out0_A_7_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0) (Hyps.c0 hH c t)

theorem s0_A (hO : Ok m) (hH : Hyps m hO) (c : Dev nD) (t : Fin (cfgM m hO).N) (h0 : t.val % 4 = 0) (h1 : ¬t.val % 4 = 3) :
    (outsAt0 m hO hH c t.val t.isLt).2.2.2.1
      = k0_pay1 (k0_pay10 (X0 m hO c t) (Wp m hO hH c t) (bp m hO hH c t) (sp m hO hH c t) (X1 m hO c t) (k0_pay6 (F := Ideal))) := by
  rw [outsAt0_A m hO hH c t h0 h1]
  dsimp only
  exact Pieces.sout0_A_0_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0) (Hyps.c0 hH c t)

theorem s1_A (hO : Ok m) (hH : Hyps m hO) (c : Dev nD) (t : Fin (cfgM m hO).N) (h0 : t.val % 4 = 0) (h1 : ¬t.val % 4 = 3) :
    (outsAt0 m hO hH c t.val t.isLt).2.2.2.2
      = k0_pay2 (mu m hO c t) (k0_pay7 (F := Ideal)) := by
  rw [outsAt0_A m hO hH c t h0 h1]
  dsimp only
  exact Pieces.sout0_A_1_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0) (Hyps.c0 hH c t)

theorem o6_B (hO : Ok m) (hH : Hyps m hO) (c : Dev nD) (t : Fin (cfgM m hO).N) (h0 : ¬t.val % 4 = 0) (h1 : ¬t.val % 4 = 3) :
    (outsAt0 m hO hH c t.val t.isLt).1
      = k0_pay3 (actv m hO hH c t) (Pieces.brow0 (X5 m hO c t)) := by
  rw [outsAt0_B m hO hH c t h0 h1]
  dsimp only
  exact Pieces.out0_B_6_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t)

theorem o7_B (hO : Ok m) (hH : Hyps m hO) (c : Dev nD) (t : Fin (cfgM m hO).N) (h0 : ¬t.val % 4 = 0) (h1 : ¬t.val % 4 = 3) :
    (outsAt0 m hO hH c t.val t.isLt).2.1
      = k0_pay4 (actv m hO hH c t) (Pieces.brow1 (X5 m hO c t)) := by
  rw [outsAt0_B m hO hH c t h0 h1]
  dsimp only
  exact Pieces.out0_B_7_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t)

theorem s0_B (hO : Ok m) (hH : Hyps m hO) (c : Dev nD) (t : Fin (cfgM m hO).N) (h0 : ¬t.val % 4 = 0) (h1 : ¬t.val % 4 = 3) :
    (outsAt0 m hO hH c t.val t.isLt).2.2.2.1
      = k0_pay1 (k0_pay10 (X0 m hO c t) (Wp m hO hH c t) (bp m hO hH c t) (sp m hO hH c t) (X1 m hO c t) (outsAt0 m hO hH c (t.val - 1) (Nat.lt_of_le_of_lt (Nat.sub_le _ _) t.isLt)).2.2.2.1) := by
  rw [outsAt0_B m hO hH c t h0 h1]
  dsimp only
  exact Pieces.sout0_B_0_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t)

theorem s1_B (hO : Ok m) (hH : Hyps m hO) (c : Dev nD) (t : Fin (cfgM m hO).N) (h0 : ¬t.val % 4 = 0) (h1 : ¬t.val % 4 = 3) :
    (outsAt0 m hO hH c t.val t.isLt).2.2.2.2
      = k0_pay2 (mu m hO c t) (outsAt0 m hO hH c (t.val - 1) (Nat.lt_of_le_of_lt (Nat.sub_le _ _) t.isLt)).2.2.2.2 := by
  rw [outsAt0_B m hO hH c t h0 h1]
  dsimp only
  exact Pieces.sout0_B_1_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t)

theorem o6_C (hO : Ok m) (hH : Hyps m hO) (c : Dev nD) (t : Fin (cfgM m hO).N) (h0 : ¬t.val % 4 = 0) (h1 : t.val % 4 = 3) :
    (outsAt0 m hO hH c t.val t.isLt).1
      = k0_pay3 (actv m hO hH c t) (Pieces.brow0 (X5 m hO c t)) := by
  rw [outsAt0_C m hO hH c t h0 h1]
  dsimp only
  exact Pieces.out0_C_6_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t)

theorem o7_C (hO : Ok m) (hH : Hyps m hO) (c : Dev nD) (t : Fin (cfgM m hO).N) (h0 : ¬t.val % 4 = 0) (h1 : t.val % 4 = 3) :
    (outsAt0 m hO hH c t.val t.isLt).2.1
      = k0_pay4 (actv m hO hH c t) (Pieces.brow1 (X5 m hO c t)) := by
  rw [outsAt0_C m hO hH c t h0 h1]
  dsimp only
  exact Pieces.out0_C_7_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t)

theorem s0_C (hO : Ok m) (hH : Hyps m hO) (c : Dev nD) (t : Fin (cfgM m hO).N) (h0 : ¬t.val % 4 = 0) (h1 : t.val % 4 = 3) :
    (outsAt0 m hO hH c t.val t.isLt).2.2.2.1
      = k0_pay1 (k0_pay10 (X0 m hO c t) (Wp m hO hH c t) (bp m hO hH c t) (sp m hO hH c t) (X1 m hO c t) (outsAt0 m hO hH c (t.val - 1) (Nat.lt_of_le_of_lt (Nat.sub_le _ _) t.isLt)).2.2.2.1) := by
  rw [outsAt0_C m hO hH c t h0 h1]
  dsimp only
  exact Pieces.sout0_C_0_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t)

theorem s1_C (hO : Ok m) (hH : Hyps m hO) (c : Dev nD) (t : Fin (cfgM m hO).N) (h0 : ¬t.val % 4 = 0) (h1 : t.val % 4 = 3) :
    (outsAt0 m hO hH c t.val t.isLt).2.2.2.2
      = k0_pay2 (mu m hO c t) (outsAt0 m hO hH c (t.val - 1) (Nat.lt_of_le_of_lt (Nat.sub_le _ _) t.isLt)).2.2.2.2 := by
  rw [outsAt0_C m hO hH c t h0 h1]
  dsimp only
  exact Pieces.sout0_C_1_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t)

theorem o8_C' (hO : Ok m) (hH : Hyps m hO) (c : Dev nD) (t : Fin (cfgM m hO).N) (h0 : ¬t.val % 4 = 0) (h1 : t.val % 4 = 3) :
    (outsAt0 m hO hH c t.val t.isLt).2.2.1
      = k0_pay5 (k0_pay2 (mu m hO c t) (outsAt0 m hO hH c (t.val - 1) (Nat.lt_of_le_of_lt (Nat.sub_le _ _) t.isLt)).2.2.2.2) (k0_pay1 (k0_pay10 (X0 m hO c t) (Wp m hO hH c t) (bp m hO hH c t) (sp m hO hH c t) (X1 m hO c t) (outsAt0 m hO hH c (t.val - 1) (Nat.lt_of_le_of_lt (Nat.sub_le _ _) t.isLt)).2.2.2.1)) (Pieces.brow2 (X5 m hO c t)) := by
  rw [outsAt0_C m hO hH c t h0 h1]
  dsimp only
  exact Pieces.out0_C_8_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t)

end Cert.KernelIdeal.Inv

end
-- ==== Proof.KBlocks.lean ====
/-
  Where the kernel's inputs come from, index by index.

  Before the region the host program prepares three arrays: the scale ids clamped into [0, 2] (the one table the
  region keeps in scalar memory), the mask with a trailing unit axis, mask'[b, s, 0] = mask[b, s], and the weight
  with its last two axes exchanged and narrowed to bf16, W'[e, k, j] = W[e, j, k] (over the extended reals the
  narrowing is the identity). The other inputs reach the region as launched.

  At grid point t = 4 b + q the region reads, of the activations and of the mask, the tile of 512 rows
  512 q … 512 q + 511 of sample b; of the weight, the bias and the two embedding tables, the whole array. So an
  entry (0, r, k) of the activation block is x[b, 512 q + r, k], an entry (0, r, 0) of the mask block is
  mask[b, 512 q + r], and the four whole-array windows read their arrays themselves.
-/
import proofs.«419683_j38096359915876_3_alg».proof.Proof.Gen.KernelIdeal.Frame
import proofs.«419683_j38096359915876_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The arrays the host program writes before the region -/

/-- The table of clamped scale ids is the same on every device (there is one). -/
theorem V_v0_eq (c : Dev nD) : V m c main_v0 = tbl m 0 := V_pre m c 0

/-- The staged weight, in any float family: the weight argument with its last two axes exchanged, then narrowed to bf16. -/
theorem V_v3_eq (c : Dev nD) : (V m c main_v3 : Vec F S3x1024x1024 .bf16)
    = truncf .bf16 (transpose S3x1024x1024 [0, 2, 1] (m ((c : Thread nD τ).loc main_arg3) : Vec F S3x1024x1024 .f32) transposes_S3x1024x1024_S3x1024x1024_0_2_1) bitsLt_bf16_f32 := by
  dsimp only [Gen.V]
  simp only [Gen.hostOps0, Gen.hostOps0_1, Gen.hostOps0_2, List.flatten_cons, List.flatten_nil, List.append_nil, List.cons_append, List.nil_append]
  after_results

/-- The staged mask: the mask argument broadcast along a new trailing unit axis. -/
theorem V_v1_eq (c : Dev nD) : (V m c main_v1 : Vec F S32x2048x1 .i32)
    = broadcastInDim S32x2048x1 ![0, 1] bcast_S32x2048_S32x2048x1_0_1 (m ((c : Thread nD τ).loc main_arg2) : Vec F S32x2048 .i32) := by
  dsimp only [Gen.V]
  simp only [Gen.hostOps0, Gen.hostOps0_1, Gen.hostOps0_2, List.flatten_cons, List.flatten_nil, List.append_nil, List.cons_append, List.nil_append]
  after_results

/-- Entry (b, s, 0) of the staged mask is mask[b, s]. -/
theorem V_v1_apply (c : Dev nD) (b : Fin 32) (s : Fin 2048) :
    (V m c main_v1 : Vec F S32x2048x1 .i32) (ix3 b s 0) = (m ((c : Thread nD τ).loc main_arg2) : Vec F S32x2048 .i32) (ix2 b s) := by
  rw [V_v1_eq]
  refine broadcastInDim_apply (s := S32x2048) (t := S32x2048x1) ![0, 1] bcast_S32x2048_S32x2048x1_0_1 _ (ix3 b s 0) (ix2 b s) (fun a => ?_)
  match a with
  | ⟨0, _⟩ => rfl
  | ⟨1, _⟩ => rfl

/-! ## The input blocks at a grid point -/

/-- Where the blocks of the activations and of the mask sit at point `t`: sample `t / 4`, row tile `t % 4`, the one
    tile of the last axis. -/
theorem idx01 (t : Fin grid0.N) :
    cc0_transform_0 (grid0.coords t) 0 = t.val / 4 ∧ cc0_transform_0 (grid0.coords t) 1 = t.val % 4 ∧ cc0_transform_0 (grid0.coords t) 2 = 0
    ∧ cc0_transform_1 (grid0.coords t) 0 = t.val / 4 ∧ cc0_transform_1 (grid0.coords t) 1 = t.val % 4 ∧ cc0_transform_1 (grid0.coords t) 2 = 0 :=
  (by decide +kernel : ∀ t : Fin grid0.N,
    cc0_transform_0 (grid0.coords t) 0 = t.val / 4 ∧ cc0_transform_0 (grid0.coords t) 1 = t.val % 4 ∧ cc0_transform_0 (grid0.coords t) 2 = 0
    ∧ cc0_transform_1 (grid0.coords t) 0 = t.val / 4 ∧ cc0_transform_1 (grid0.coords t) 1 = t.val % 4 ∧ cc0_transform_1 (grid0.coords t) 2 = 0) t

/-- The activation block at point `t = 4 b + q`: entry (0, r, k) is x[b, 512 q + r, k] — on each axis the block index
    times the block's extent plus the coordinate inside the block. -/
theorem iblk0_apply (hO : Ok m) (c : Dev nD) (t : Fin (cfgM m hO).N) (b : Fin 32) (q : Fin 4) (ht : t.val = 4 * b.val + q.val)
    (r : Fin 512) (k : Fin 1024) :
    (iblk m hO c 0 t : Vec F S1x512x1024 .f32) (ix3 0 r k)
      = (m ((c : Thread nD τ).loc main_arg0) : Vec F S32x2048x1024 .f32) (ix3 b ⟨512 * q.val + r.val, by omega⟩ k) := by
  obtain ⟨h0, h1, h2, -⟩ := idx01 t
  unfold iblk
  show V m c main_arg0 _ = _
  rw [V_main_arg0]
  refine congrArg (m ((c : Thread nD τ).loc main_arg0)) (funext fun a => Fin.ext ?_)
  match a with
  | ⟨0, _⟩ => show cc0_transform_0 (grid0.coords t) 0 * 1 + 1 * 0 = b.val; rw [h0]; omega
  | ⟨1, _⟩ => show cc0_transform_0 (grid0.coords t) 1 * 512 + 1 * r.val = 512 * q.val + r.val; rw [h1]; omega
  | ⟨2, _⟩ => show cc0_transform_0 (grid0.coords t) 2 * 1024 + 1 * k.val = k.val; rw [h2]; omega

/-- The mask block at point `t = 4 b + q`: entry (0, r, 0) is mask[b, 512 q + r]. -/
theorem iblk1_apply (hO : Ok m) (c : Dev nD) (t : Fin (cfgM m hO).N) (b : Fin 32) (q : Fin 4) (ht : t.val = 4 * b.val + q.val)
    (r : Fin 512) :
    (iblk m hO c 1 t : Vec F S1x512x1 .i32) (ix3 0 r 0)
      = (m ((c : Thread nD τ).loc main_arg2) : Vec F S32x2048 .i32) (ix2 b ⟨512 * q.val + r.val, by omega⟩) := by
  obtain ⟨-, -, -, h0, h1, h2⟩ := idx01 t
  rw [← V_v1_apply m c b ⟨512 * q.val + r.val, by omega⟩]
  unfold iblk
  show V m c main_v1 _ = _
  refine congrArg (V m c main_v1) (funext fun a => Fin.ext ?_)
  match a with
  | ⟨0, _⟩ => show cc0_transform_1 (grid0.coords t) 0 * 1 + 1 * 0 = b.val; rw [h0]; omega
  | ⟨1, _⟩ => show cc0_transform_1 (grid0.coords t) 1 * 512 + 1 * r.val = 512 * q.val + r.val; rw [h1]; omega
  | ⟨2, _⟩ => show cc0_transform_1 (grid0.coords t) 2 * 1 + 1 * 0 = 0; rw [h2]

/-- The weight window's one block is the whole staged weight: block index zero on every axis. -/
theorem iblk2_apply (hO : Ok m) (c : Dev nD) (t : Fin (cfgM m hO).N) (j : S3x1024x1024.Idx) :
    (iblk m hO c 2 t : Vec F S3x1024x1024 .bf16) j = (V m c main_v3 : Vec F S3x1024x1024 .bf16) j := by
  unfold iblk
  show V m c main_v3 _ = V m c main_v3 j
  refine congrArg (V m c main_v3) (funext fun a => Fin.ext ?_)
  match a with
  | ⟨0, _⟩ => show 0 * 3 + 1 * (j 0).val = (j 0).val; omega
  | ⟨1, _⟩ => show 0 * 1024 + 1 * (j 1).val = (j 1).val; omega
  | ⟨2, _⟩ => show 0 * 1024 + 1 * (j 2).val = (j 2).val; omega

theorem iblk2_eq (hO : Ok m) (c : Dev nD) (t : Fin (cfgM m hO).N) :
    (iblk m hO c 2 t : Vec F S3x1024x1024 .bf16) = V m c main_v3 :=
  funext fun j => iblk2_apply m hO c t j

/-- The bias window's one block is the whole bias argument. -/
theorem iblk3_apply (hO : Ok m) (c : Dev nD) (t : Fin (cfgM m hO).N) (j : S3x1024.Idx) :
    (iblk m hO c 3 t : Vec F S3x1024 .f32) j = (m ((c : Thread nD τ).loc main_arg4) : Vec F S3x1024 .f32) j := by
  rw [← V_main_arg4 m c]
  unfold iblk
  show V m c main_arg4 _ = V m c main_arg4 j
  refine congrArg (V m c main_arg4) (funext fun a => Fin.ext ?_)
  match a with
  | ⟨0, _⟩ => show 0 * 3 + 1 * (j 0).val = (j 0).val; omega
  | ⟨1, _⟩ => show 0 * 1024 + 1 * (j 1).val = (j 1).val; omega

theorem iblk3_eq (hO : Ok m) (c : Dev nD) (t : Fin (cfgM m hO).N) :
    (iblk m hO c 3 t : Vec F S3x1024 .f32) = m ((c : Thread nD τ).loc main_arg4) :=
  funext fun j => iblk3_apply m hO c t j

/-- The scale-embedding window's one block is the whole scale-embedding argument. -/
theorem iblk4_apply (hO : Ok m) (c : Dev nD) (t : Fin (cfgM m hO).N) (j : S3x1024.Idx) :
    (iblk m hO c 4 t : Vec F S3x1024 .f32) j = (m ((c : Thread nD τ).loc main_arg5) : Vec F S3x1024 .f32) j := by
  rw [← V_main_arg5 m c]
  unfold iblk
  show V m c main_arg5 _ = V m c main_arg5 j
  refine congrArg (V m c main_arg5) (funext fun a => Fin.ext ?_)
  match a with
  | ⟨0, _⟩ => show 0 * 3 + 1 * (j 0).val = (j 0).val; omega
  | ⟨1, _⟩ => show 0 * 1024 + 1 * (j 1).val = (j 1).val; omega

theorem iblk4_eq (hO : Ok m) (c : Dev nD) (t : Fin (cfgM m hO).N) :
    (iblk m hO c 4 t : Vec F S3x1024 .f32) = m ((c : Thread nD τ).loc main_arg5) :=
  funext fun j => iblk4_apply m hO c t j

/-- The branch-embedding window's one block is the whole branch-embedding argument. -/
theorem iblk5_apply (hO : Ok m) (c : Dev nD) (t : Fin (cfgM m hO).N) (j : S3x1024.Idx) :
    (iblk m hO c 5 t : Vec F S3x1024 .f32) j = (m ((c : Thread nD τ).loc main_arg6) : Vec F S3x1024 .f32) j := by
  rw [← V_main_arg6 m c]
  unfold iblk
  show V m c main_arg6 _ = V m c main_arg6 j
  refine congrArg (V m c main_arg6) (funext fun a => Fin.ext ?_)
  match a with
  | ⟨0, _⟩ => show 0 * 3 + 1 * (j 0).val = (j 0).val; omega
  | ⟨1, _⟩ => show 0 * 1024 + 1 * (j 1).val = (j 1).val; omega

theorem iblk5_eq (hO : Ok m) (c : Dev nD) (t : Fin (cfgM m hO).N) :
    (iblk m hO c 5 t : Vec F S3x1024 .f32) = m ((c : Thread nD τ).loc main_arg6) :=
  funext fun j => iblk5_apply m hO c t j

end Cert.KernelIdeal.Blocks

/-! ## At the extended reals -/

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- Over the extended reals the narrowing to bf16 is the identity, so entry (e, k, j) of the staged weight is W[e, j, k]. -/
theorem V_v3_apply (c : Dev nD) (e : Fin 3) (k j : Fin 1024) :
    (V m c main_v3 : Vec Ideal S3x1024x1024 .bf16) (ix3 e k j) = (m ((c : Thread nD τ).loc main_arg3) : Vec Ideal S3x1024x1024 .f32) (ix3 e j k) := by
  rw [V_v3_eq]
  show transpose S3x1024x1024 [0, 2, 1] (m ((c : Thread nD τ).loc main_arg3) : Vec Ideal S3x1024x1024 .f32) transposes_S3x1024x1024_S3x1024x1024_0_2_1 (ix3 e k j) = _
  refine transpose_apply (s := S3x1024x1024) (t := S3x1024x1024) [0, 2, 1] _ transposes_S3x1024x1024_S3x1024x1024_0_2_1 (ix3 e k j) (ix3 e j k) (fun a => ?_)
  match a with
  | ⟨0, _⟩ => rfl
  | ⟨1, _⟩ => rfl
  | ⟨2, _⟩ => rfl

/-- The weight block at any point, entry (e, k, j): W[e, j, k]. -/
theorem iblk2_at (hO : Ok m) (c : Dev nD) (t : Fin (cfgM m hO).N) (e : Fin 3) (k j : Fin 1024) :
    (iblk m hO c 2 t : Vec Ideal S3x1024x1024 .bf16) (ix3 e k j)
      = (m ((c : Thread nD τ).loc main_arg3) : Vec Ideal S3x1024x1024 .f32) (ix3 e j k) :=
  (iblk2_apply m hO c t (ix3 e k j)).trans (V_v3_apply m c e k j)

end Cert.KernelIdeal.Blocks

end
-- ==== Proof.KPoint.lean ====
/-
  What one grid point computes, entry by entry, with no induction.

  Grid point `t = 4 b + q` works on sample `b` and on its row tile `q` (rows `512 q … 512 q + 511`). The word it
  reads from the prefetched table is the table's entry `b`; on the label range the table is the scale ids, so the
  word's value is the expert of sample `b`. Hence
    * the weight slice it loads, at `(0, k, j)`, is the transposed weight at `(e, k, j)`, that is `W[e, j, k]`;
    * the bias row and the scale-embedding row it loads, at `(0, j)`, are `bias[e, j]` and `semb[e, j]`;
    * row `r` of its activation block is row `512 q + r` of sample `b`, and likewise for the mask block;
    * the three branch rows it loads are rows 0, 1, 2 of the branch embedding.
  With these the tile's activation at `(r, j)` is the specification's `act` at `(b, 512 q + r, j)` term for term,
  and the tile's mask weight at row `r` is the specification's `weight` at `(b, 512 q + r)`.
-/
import proofs.«419683_j38096359915876_3_alg».proof.Proof.KArgs
import proofs.«419683_j38096359915876_3_alg».proof.Proof.KLoads
import proofs.«419683_j38096359915876_3_alg».proof.Proof.KPayload
import proofs.«419683_j38096359915876_3_alg».proof.Proof.KBlocks
import proofs.«419683_j38096359915876_3_alg».proof.Proof.KHyps
import proofs.«419683_j38096359915876_3_alg».proof.Proof.Spec

set_option maxRecDepth 16384

noncomputable section

namespace Cert.KernelIdeal.Point

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The input blocks of a point, at their literal types -/

/-- The activation block of point `t`: 512 rows of one sample. -/
abbrev xblk (hO : Ok m) (c : Dev nD) (t : Fin (cfgM m hO).N) : Vec Ideal S1x512x1024 .f32 := iblk m hO c 0 t
/-- The mask block of point `t`: the same 512 rows, one word each. -/
abbrev mblk (hO : Ok m) (c : Dev nD) (t : Fin (cfgM m hO).N) : Vec Ideal S1x512x1 .i32 := iblk m hO c 1 t
/-- The transposed weights, whole. -/
abbrev wblk (hO : Ok m) (c : Dev nD) (t : Fin (cfgM m hO).N) : Vec Ideal S3x1024x1024 .bf16 := iblk m hO c 2 t
/-- The bias rows, whole. -/
abbrev bblk (hO : Ok m) (c : Dev nD) (t : Fin (cfgM m hO).N) : Vec Ideal S3x1024 .f32 := iblk m hO c 3 t
/-- The scale-embedding rows, whole. -/
abbrev sblk (hO : Ok m) (c : Dev nD) (t : Fin (cfgM m hO).N) : Vec Ideal S3x1024 .f32 := iblk m hO c 4 t
/-- The branch-embedding rows, whole. -/
abbrev eblk (hO : Ok m) (c : Dev nD) (t : Fin (cfgM m hO).N) : Vec Ideal S3x1024 .f32 := iblk m hO c 5 t

/-! ## The table word is the sample's expert -/

/-- On the label range the word point `t = 4 b + q` reads from the table is the scale id of sample `b`. -/
theorem word_eq (hO : Ok m) (c : Dev nD) (hids : Cert.Spec.IdsInRange (Inv.sidA m c)) (t : Fin (cfgM m hO).N)
    (b : Fin 32) (q : Fin 4) (ht : t.val = 4 * b.val + q.val) :
    Pieces.tword c (grid0.coords t) (tbl m 0) = Inv.sidA m c (ix1 b) := by
  have h1 : Pieces.tword c (grid0.coords t) (tbl m 0) = (tbl m 0 : IVec S32 32) (ix1 b) :=
    Hyp.word_at (F := Ideal) m hO t b q ht
  have e : (Inv.sidA m c : IVec S32 32) = Hyp.sidArr m := Hyp.sidArr_eq (F := Ideal) m c
  have hids' : Cert.Spec.IdsInRange (Hyp.sidArr m) := e ▸ hids
  rw [h1, Hyp.tbl_of_ids (F := Ideal) m hids' b]
  exact (congrFun e (ix1 b)).symm

/-- Its value is the expert of sample `b`. -/
theorem word_toNat (hO : Ok m) (c : Dev nD) (hids : Cert.Spec.IdsInRange (Inv.sidA m c)) (t : Fin (cfgM m hO).N)
    (b : Fin 32) (q : Fin 4) (ht : t.val = 4 * b.val + q.val) :
    (Pieces.tword c (grid0.coords t) (tbl m 0)).toNat = ((Cert.Spec.expert (Inv.sidA m c) b : Fin 3) : Nat) := by
  rw [word_eq m hO c hids t b q ht, Cert.Spec.expert_val hids b]

/-! ## The loaded slices at an index -/

/-- The weight slice of point `t` at `(0, k, j)` is `W[e, j, k]`, `e` the expert of the point's sample. -/
theorem wsl_at (hO : Ok m) (c : Dev nD) (hids : Cert.Spec.IdsInRange (Inv.sidA m c)) (t : Fin (cfgM m hO).N)
    (b : Fin 32) (q : Fin 4) (ht : t.val = 4 * b.val + q.val)
    (hT : k0_chk1 (Pieces.tword c (grid0.coords t) (tbl m 0))) (k j : Fin 1024) :
    Pieces.Wsl (wblk m hO c t) (Pieces.tword c (grid0.coords t) (tbl m 0)) hT (ix3 (0 : Fin 1) k j)
      = Inv.WA m c (ix3 (Cert.Spec.expert (Inv.sidA m c) b) j k) := by
  have hv : (Pieces.tword c (grid0.coords t) (tbl m 0)).toNat < 3 := Pieces.toNat_lt_of_chk hT
  have he : (⟨(Pieces.tword c (grid0.coords t) (tbl m 0)).toNat, hv⟩ : Fin 3) = Cert.Spec.expert (Inv.sidA m c) b :=
    Fin.ext (word_toNat m hO c hids t b q ht)
  rw [Pieces.Wsl_apply (wblk m hO c t) _ hT hv k j, he]
  exact Blocks.iblk2_at m hO c t (Cert.Spec.expert (Inv.sidA m c) b) k j

/-- The bias row of point `t` at `(0, j)` is `bias[e, j]`. -/
theorem bsl_at (hO : Ok m) (c : Dev nD) (hids : Cert.Spec.IdsInRange (Inv.sidA m c)) (t : Fin (cfgM m hO).N)
    (b : Fin 32) (q : Fin 4) (ht : t.val = 4 * b.val + q.val)
    (hT : k0_chk1 (Pieces.tword c (grid0.coords t) (tbl m 0))) (j : Fin 1024) :
    Pieces.rowsl (bblk m hO c t) (Pieces.tword c (grid0.coords t) (tbl m 0)) hT (ix2 (0 : Fin 1) j)
      = Inv.biasA m c (ix2 (Cert.Spec.expert (Inv.sidA m c) b) j) := by
  have hv : (Pieces.tword c (grid0.coords t) (tbl m 0)).toNat < 3 := Pieces.toNat_lt_of_chk hT
  have he : (⟨(Pieces.tword c (grid0.coords t) (tbl m 0)).toNat, hv⟩ : Fin 3) = Cert.Spec.expert (Inv.sidA m c) b :=
    Fin.ext (word_toNat m hO c hids t b q ht)
  rw [Pieces.rowsl_apply (bblk m hO c t) _ hT hv j, he]
  exact Blocks.iblk3_apply (F := Ideal) m hO c t (ix2 (Cert.Spec.expert (Inv.sidA m c) b) j)

/-- The scale-embedding row of point `t` at `(0, j)` is `semb[e, j]`. -/
theorem ssl_at (hO : Ok m) (c : Dev nD) (hids : Cert.Spec.IdsInRange (Inv.sidA m c)) (t : Fin (cfgM m hO).N)
    (b : Fin 32) (q : Fin 4) (ht : t.val = 4 * b.val + q.val)
    (hT : k0_chk1 (Pieces.tword c (grid0.coords t) (tbl m 0))) (j : Fin 1024) :
    Pieces.rowsl (sblk m hO c t) (Pieces.tword c (grid0.coords t) (tbl m 0)) hT (ix2 (0 : Fin 1) j)
      = Inv.sembA m c (ix2 (Cert.Spec.expert (Inv.sidA m c) b) j) := by
  have hv : (Pieces.tword c (grid0.coords t) (tbl m 0)).toNat < 3 := Pieces.toNat_lt_of_chk hT
  have he : (⟨(Pieces.tword c (grid0.coords t) (tbl m 0)).toNat, hv⟩ : Fin 3) = Cert.Spec.expert (Inv.sidA m c) b :=
    Fin.ext (word_toNat m hO c hids t b q ht)
  rw [Pieces.rowsl_apply (sblk m hO c t) _ hT hv j, he]
  exact Blocks.iblk4_apply (F := Ideal) m hO c t (ix2 (Cert.Spec.expert (Inv.sidA m c) b) j)

/-- Row `r` of the activation block of point `t = 4 b + q` is row `s = 512 q + r` of sample `b`. -/
theorem x_at (hO : Ok m) (c : Dev nD) (t : Fin (cfgM m hO).N) (b : Fin 32) (q : Fin 4) (ht : t.val = 4 * b.val + q.val)
    (r : Fin 512) (k : Fin 1024) (s : Fin 2048) (hs : s.val = 512 * q.val + r.val) :
    xblk m hO c t (ix3 (0 : Fin 1) r k) = Inv.xA m c (ix3 b s k) := by
  have hq := q.isLt
  have es : (⟨512 * q.val + r.val, by omega⟩ : Fin 2048) = s := Fin.ext hs.symm
  rw [← es]
  exact Blocks.iblk0_apply (F := Ideal) m hO c t b q ht r k

/-- Row `r` of the mask block of point `t = 4 b + q` is the mask word of row `s = 512 q + r` of sample `b`. -/
theorem mask_at (hO : Ok m) (c : Dev nD) (t : Fin (cfgM m hO).N) (b : Fin 32) (q : Fin 4) (ht : t.val = 4 * b.val + q.val)
    (r : Fin 512) (s : Fin 2048) (hs : s.val = 512 * q.val + r.val) :
    mblk m hO c t (ix3 (0 : Fin 1) r (0 : Fin 1)) = Inv.maskA m c (ix2 b s) := by
  have hq := q.isLt
  have es : (⟨512 * q.val + r.val, by omega⟩ : Fin 2048) = s := Fin.ext hs.symm
  rw [← es]
  exact Blocks.iblk1_apply (F := Ideal) m hO c t b q ht r

/-! ## The point's arithmetic is the specification's -/

/-- The activation the body computes at point `t = 4 b + q`, entry `(r, j)`, is the specification's activation of
    sample `b` at row `512 q + r` and lane `j`. -/
theorem act_at (hO : Ok m) (c : Dev nD) (hids : Cert.Spec.IdsInRange (Inv.sidA m c)) (t : Fin (cfgM m hO).N)
    (b : Fin 32) (q : Fin 4) (ht : t.val = 4 * b.val + q.val)
    (hT : k0_chk1 (Pieces.tword c (grid0.coords t) (tbl m 0)))
    (r : Fin 512) (j : Fin 1024) (s : Fin 2048) (hs : s.val = 512 * q.val + r.val) :
    k0_pay8 (F := Ideal) (iblk m hO c 0 t) (Pieces.Wsl (iblk m hO c 2 t) (Pieces.tword c (grid0.coords t) (tbl m 0)) hT)
        (Pieces.rowsl (iblk m hO c 3 t) (Pieces.tword c (grid0.coords t) (tbl m 0)) hT)
        (Pieces.rowsl (iblk m hO c 4 t) (Pieces.tword c (grid0.coords t) (tbl m 0)) hT) (ix2 r j)
      = Cert.Spec.act (Inv.xA m c) (Inv.sidA m c) (Inv.WA m c) (Inv.biasA m c) (Inv.sembA m c) b s j := by
  refine (Pay.pay8_apply (xblk m hO c t) (Pieces.Wsl (wblk m hO c t) (Pieces.tword c (grid0.coords t) (tbl m 0)) hT)
    (Pieces.rowsl (bblk m hO c t) (Pieces.tword c (grid0.coords t) (tbl m 0)) hT)
    (Pieces.rowsl (sblk m hO c t) (Pieces.tword c (grid0.coords t) (tbl m 0)) hT) r j).trans ?_
  have hsum : (∑ k : Fin 1024, xblk m hO c t (ix3 (0 : Fin 1) r k)
        * Pieces.Wsl (wblk m hO c t) (Pieces.tword c (grid0.coords t) (tbl m 0)) hT (ix3 (0 : Fin 1) k j))
      = ∑ k : Fin 1024, Inv.xA m c (ix3 b s k) * Inv.WA m c (ix3 (Cert.Spec.expert (Inv.sidA m c) b) j k) :=
    Finset.sum_congr rfl fun k _ => by
      rw [x_at m hO c t b q ht r k s hs, wsl_at m hO c hids t b q ht hT k j]
  rw [hsum, bsl_at m hO c hids t b q ht hT j, ssl_at m hO c hids t b q ht hT j]
  rfl

/-- The mask weight the body computes at point `t = 4 b + q`, row `r`, is the specification's weight of row
    `512 q + r` of sample `b`. -/
theorem weight_at (hO : Ok m) (c : Dev nD) (t : Fin (cfgM m hO).N) (b : Fin 32) (q : Fin 4)
    (ht : t.val = 4 * b.val + q.val) (r : Fin 512) (s : Fin 2048) (hs : s.val = 512 * q.val + r.val) :
    k0_pay9 (F := Ideal) (iblk m hO c 1 t) (ix2 r (0 : Fin 1)) = Cert.Spec.weight (Inv.maskA m c) b s := by
  refine (Pay.pay9_apply (mblk m hO c t) r).trans ?_
  rw [mask_at m hO c t b q ht r s hs]
  rfl

/-! ## The branch rows -/

/-- The first branch row the body loads is row 0 of the branch embedding. -/
theorem bemb0_at (hO : Ok m) (c : Dev nD) (t : Fin (cfgM m hO).N) (j : Fin 1024) :
    Pieces.brow0 (iblk m hO c 5 t) (ix2 (0 : Fin 1) j) = Inv.bembA m c (ix2 (0 : Fin 3) j) := by
  rw [Pieces.brow0_apply (eblk m hO c t) j]
  exact Blocks.iblk5_apply (F := Ideal) m hO c t (ix2 (0 : Fin 3) j)

/-- The second is row 1. -/
theorem bemb1_at (hO : Ok m) (c : Dev nD) (t : Fin (cfgM m hO).N) (j : Fin 1024) :
    Pieces.brow1 (iblk m hO c 5 t) (ix2 (0 : Fin 1) j) = Inv.bembA m c (ix2 (1 : Fin 3) j) := by
  rw [Pieces.brow1_apply (eblk m hO c t) j]
  exact Blocks.iblk5_apply (F := Ideal) m hO c t (ix2 (1 : Fin 3) j)

/-- The third, loaded at the last tile of a sample, is row 2. -/
theorem bemb2_at (hO : Ok m) (c : Dev nD) (t : Fin (cfgM m hO).N) (j : Fin 1024) :
    Pieces.brow2 (iblk m hO c 5 t) (ix2 (0 : Fin 1) j) = Inv.bembA m c (ix2 (2 : Fin 3) j) := by
  rw [Pieces.brow2_apply (eblk m hO c t) j]
  exact Blocks.iblk5_apply (F := Ideal) m hO c t (ix2 (2 : Fin 3) j)

end Cert.KernelIdeal.Point

end
-- ==== Proof.KInvariant.lean ====
/-
  The two scratches the kernel carries across the grid, after every point, and the third result.

  Grid point `t = 4 b + q` works on tile `q` (rows `512 q … 512 q + 511`) of sample `b`. The sum scratch is reset at
  `q = 0` and then receives, at every point, the tile's masked sum of the activation; the count scratch likewise
  receives the tile's mask count. By induction on the point, after point `4 b + q` they hold the first `q + 1` tiles of
  the sample's masked sum and mask count; after the fourth tile these are the sums over all 2048 rows (only `+` is
  regrouped), and the block the last point stores is the specification's masked mean plus branch embedding 2.
-/
import proofs.«419683_j38096359915876_3_alg».proof.Proof.Spec
import proofs.«419683_j38096359915876_3_alg».proof.Proof.KArgs
import proofs.«419683_j38096359915876_3_alg».proof.Proof.TileSum
import proofs.«419683_j38096359915876_3_alg».proof.Proof.KPayload
import proofs.«419683_j38096359915876_3_alg».proof.Proof.KLoads
import proofs.«419683_j38096359915876_3_alg».proof.Proof.KCases
import proofs.«419683_j38096359915876_3_alg».proof.Proof.KPoint
import proofs.«419683_j38096359915876_3_alg».proof.Proof.Gen.KernelIdeal.Frame

noncomputable section

namespace Cert.KernelIdeal.Inv

open Cert.KernelIdeal Cert.KernelIdeal.Gen Idealize.ShloMosaic Idealize.ShloMosaic.ValueIdx
open Idealize.ShloMosaic.TcCoe

variable (m : (ℓ : Loc nD τ sig) → Buf (Elt Ideal) ℓ)

/-! ## The two carried sums, row by row -/

/-- Row `s` of sample `b` in the masked sum at lane `j`: the activation times the mask weight. -/
def fS (c : Dev nD) (b : Fin 32) (j : Fin 1024) : Fin 2048 → EReal :=
  fun s => Cert.Spec.act (xA m c) (sidA m c) (WA m c) (biasA m c) (sembA m c) b s j * Cert.Spec.weight (maskA m c) b s

/-- Row `s` of sample `b` in the mask count: the mask weight. -/
def fC (c : Dev nD) (b : Fin 32) : Fin 2048 → EReal := fun s => Cert.Spec.weight (maskA m c) b s

/-- The masked sum the body adds at a point of tile `q` of sample `b` is that tile of the sample's masked sum. -/
theorem tile_S (hO : Ok m) (hH : Hyps m hO) (c : Dev nD) (hids : Cert.Spec.IdsInRange (sidA m c))
    (t : Fin (cfgM m hO).N) (b : Fin 32) (q : ℕ) (hq : q < 4) (ht : t.val = 4 * b.val + q) (j : Fin 1024) :
    ∑ r : Fin 512, actv m hO hH c t (ix2 r j) * mu m hO c t (ix2 r 0) = TileSum.tile (fS m c b j) q := by
  rw [TileSum.tile_eq _ q hq]
  refine Finset.sum_congr rfl fun r _ => ?_
  have hr := r.isLt
  have ea : actv m hO hH c t (ix2 r j)
      = Cert.Spec.act (xA m c) (sidA m c) (WA m c) (biasA m c) (sembA m c) b ⟨512 * q + r.val, by omega⟩ j :=
    Point.act_at m hO c hids t b ⟨q, hq⟩ ht (Hyps.c0 hH c t) r j ⟨512 * q + r.val, by omega⟩ rfl
  have ew : mu m hO c t (ix2 r 0) = Cert.Spec.weight (maskA m c) b ⟨512 * q + r.val, by omega⟩ :=
    Point.weight_at m hO c t b ⟨q, hq⟩ ht r ⟨512 * q + r.val, by omega⟩ rfl
  rw [ea, ew]
  rfl

/-- The count the body adds at a point of tile `q` of sample `b` is that tile of the sample's mask count. -/
theorem tile_C (hO : Ok m) (c : Dev nD) (t : Fin (cfgM m hO).N) (b : Fin 32) (q : ℕ) (hq : q < 4)
    (ht : t.val = 4 * b.val + q) :
    ∑ r : Fin 512, mu m hO c t (ix2 r 0) = TileSum.tile (fC m c b) q := by
  rw [TileSum.tile_eq _ q hq]
  refine Finset.sum_congr rfl fun r _ => ?_
  have hr := r.isLt
  have ew : mu m hO c t (ix2 r 0) = Cert.Spec.weight (maskA m c) b ⟨512 * q + r.val, by omega⟩ :=
    Point.weight_at m hO c t b ⟨q, hq⟩ ht r ⟨512 * q + r.val, by omega⟩ rfl
  rw [ew]
  rfl

/-! ## The carried scratch after every point -/

/-- After the point of tile `q` of sample `b`, the sum scratch holds the first `q + 1` tiles of the sample's masked
    sum and the count scratch the first `q + 1` tiles of its mask count: the first tile starts from the reset (zero),
    every later tile adds to what the point before left. -/
theorem scratch_inv (hO : Ok m) (hH : Hyps m hO) (c : Dev nD) (hids : Cert.Spec.IdsInRange (sidA m c)) :
    ∀ (n : ℕ) (hn : n < (cfgM m hO).N) (b : Fin 32) (q : ℕ), q < 4 → n = 4 * b.val + q →
      (∀ j : Fin 1024, (outsAt0 m hO hH c n hn).2.2.2.1 (ix2 0 j) = TileSum.upto (fS m c b j) (q + 1))
        ∧ (outsAt0 m hO hH c n hn).2.2.2.2 (ix2 0 0) = TileSum.upto (fC m c b) (q + 1) := by
  intro n
  induction n using Nat.strong_induction_on with
  | _ n ih =>
    intro hn b q hq hnq
    by_cases h0 : n % 4 = 0
    · -- the first tile of the sample: the scratch was reset
      have hq0 : q = 0 := by omega
      subst hq0
      have h1 : ¬n % 4 = 3 := by omega
      have e0 := s0_A m hO hH c ⟨n, hn⟩ h0 h1
      have e1 := s1_A m hO hH c ⟨n, hn⟩ h0 h1
      refine ⟨fun j => ?_, ?_⟩
      · rw [show (outsAt0 m hO hH c n hn).2.2.2.1 = _ from e0, Pay.pay1_eq, Pay.pay10_apply, Pay.pay6_apply, zero_add,
          tile_S m hO hH c hids ⟨n, hn⟩ b 0 hq hnq j, TileSum.upto_succ, TileSum.upto_zero, zero_add]
      · rw [show (outsAt0 m hO hH c n hn).2.2.2.2 = _ from e1, Pay.pay2_apply, Pay.pay7_apply, zero_add,
          tile_C m hO c ⟨n, hn⟩ b 0 hq hnq, TileSum.upto_succ, TileSum.upto_zero, zero_add]
    · -- a later tile: the point before is the tile before, of the same sample
      have hq1 : 1 ≤ q := by omega
      have hlt : n - 1 < (cfgM m hO).N := Nat.lt_of_le_of_lt (Nat.sub_le _ _) hn
      have hp := ih (n - 1) (by omega) hlt b (q - 1) (by omega) (by omega)
      rw [Nat.sub_add_cancel hq1] at hp
      by_cases h1 : n % 4 = 3
      · have e0 := s0_C m hO hH c ⟨n, hn⟩ h0 h1
        have e1 := s1_C m hO hH c ⟨n, hn⟩ h0 h1
        refine ⟨fun j => ?_, ?_⟩
        · rw [show (outsAt0 m hO hH c n hn).2.2.2.1 = _ from e0, Pay.pay1_eq, Pay.pay10_apply,
            tile_S m hO hH c hids ⟨n, hn⟩ b q hq hnq j, TileSum.upto_succ]
          exact congrArg (· + TileSum.tile (fS m c b j) q) (hp.1 j)
        · rw [show (outsAt0 m hO hH c n hn).2.2.2.2 = _ from e1, Pay.pay2_apply,
            tile_C m hO c ⟨n, hn⟩ b q hq hnq, TileSum.upto_succ]
          exact congrArg (· + TileSum.tile (fC m c b) q) hp.2
      · have e0 := s0_B m hO hH c ⟨n, hn⟩ h0 h1
        have e1 := s1_B m hO hH c ⟨n, hn⟩ h0 h1
        refine ⟨fun j => ?_, ?_⟩
        · rw [show (outsAt0 m hO hH c n hn).2.2.2.1 = _ from e0, Pay.pay1_eq, Pay.pay10_apply,
            tile_S m hO hH c hids ⟨n, hn⟩ b q hq hnq j, TileSum.upto_succ]
          exact congrArg (· + TileSum.tile (fS m c b j) q) (hp.1 j)
        · rw [show (outsAt0 m hO hH c n hn).2.2.2.2 = _ from e1, Pay.pay2_apply,
            tile_C m hO c ⟨n, hn⟩ b q hq hnq, TileSum.upto_succ]
          exact congrArg (· + TileSum.tile (fC m c b) q) hp.2

/-! ## The third result -/

/-- What the last point of a sample leaves in the third output's block: the division payload of the two scratches as
    that point leaves them. -/
theorem o8_C (hO : Ok m) (hH : Hyps m hO) (c : Dev nD) (t : Fin (cfgM m hO).N) (h0 : ¬t.val % 4 = 0) (h1 : t.val % 4 = 3) :
    (outsAt0 m hO hH c t.val t.isLt).2.2.1
      = k0_pay5 (F := Ideal) (outsAt0 m hO hH c t.val t.isLt).2.2.2.2 (outsAt0 m hO hH c t.val t.isLt).2.2.2.1
          (Pieces.brow2 (X5 m hO c t)) := by
  rw [s0_C m hO hH c t h0 h1, s1_C m hO hH c t h0 h1]
  exact o8_C' m hO hH c t h0 h1

theorem out8_spec (hO : Ok m) (hH : Hyps m hO) (c : Dev nD) (hids : Cert.Spec.IdsInRange (sidA m c))
    (t : Fin (cfgM m hO).N) (b : Fin 32) (ht : t.val = 4 * b.val + 3) (j : Fin 1024) :
    (outsAt0 m hO hH c t.val t.isLt).2.2.1 (ix3 0 0 j)
      = Cert.Spec.low (xA m c) (sidA m c) (maskA m c) (WA m c) (biasA m c) (sembA m c) (bembA m c) (ix3 b 0 j) := by
  have h0 : ¬t.val % 4 = 0 := by omega
  have h1 : t.val % 4 = 3 := by omega
  have inv := scratch_inv m hO hH c hids t.val t.isLt b 3 (by omega) ht
  rw [o8_C m hO hH c t h0 h1]
  refine (Pay.pay5_apply _ _ _ j).trans ?_
  have eb : Pieces.brow2 (X5 m hO c t) (ix2 0 j) = bembA m c (ix2 2 j) := Point.bemb2_at m hO c t j
  rw [inv.1 j, inv.2, TileSum.upto_four, TileSum.upto_four, eb]
  rfl

end Cert.KernelIdeal.Inv

end
-- ==== Proof.KHighMid.lean ====
/-
  The two streamed results after every grid point. At point t = 4 b + q (sample b, row tile q) the kernel stores, in
  every control case, the same payload into the first two outputs' staging buffers: the activation tile of the
  point's own loads plus row 0 (first output) or row 1 (second output) of the branch embedding. Read at (0, r, j),
  the activation tile is the specification's activation of row s = 512 q + r of sample b at column j, and the branch
  row is the branch embedding at (0, j) or (1, j); their sum is the specification's `high` or `mid` at (b, s, j).
-/
import proofs.«419683_j38096359915876_3_alg».proof.Proof.KArgs
import proofs.«419683_j38096359915876_3_alg».proof.Proof.KCases
import proofs.«419683_j38096359915876_3_alg».proof.Proof.KPayload
import proofs.«419683_j38096359915876_3_alg».proof.Proof.KPoint
import proofs.«419683_j38096359915876_3_alg».proof.Proof.Spec

set_option maxRecDepth 16384

noncomputable section

namespace Cert.KernelIdeal.Inv

open Cert.KernelIdeal Cert.KernelIdeal.Gen Idealize.ShloMosaic Idealize.ShloMosaic.ValueIdx

variable (m : (ℓ : Loc nD τ sig) → Buf (Elt Ideal) ℓ)

/-- The first output's payload over the point's loads, at (0, r, j): the activation of row s = 512 q + r of sample b
    plus branch embedding 0, which is `high` at (b, s, j). -/
theorem high_of_loads (hO : Ok m) (c : Dev nD) (hids : Cert.Spec.IdsInRange (sidA m c)) (t : Fin (cfgM m hO).N) (b : Fin 32) (q : Fin 4)
    (ht : t.val = 4 * b.val + q.val) (hT : k0_chk1 (Pieces.tword c (grid0.coords t) (tbl m 0))) (r : Fin 512) (j : Fin 1024) (s : Fin 2048)
    (hs : s.val = 512 * q.val + r.val) :
    k0_pay3 (F := Ideal) (k0_pay8 (F := Ideal) (iblk m hO c 0 t) (Pieces.Wsl (iblk m hO c 2 t) (Pieces.tword c (grid0.coords t) (tbl m 0)) hT)
        (Pieces.rowsl (iblk m hO c 3 t) (Pieces.tword c (grid0.coords t) (tbl m 0)) hT)
        (Pieces.rowsl (iblk m hO c 4 t) (Pieces.tword c (grid0.coords t) (tbl m 0)) hT)) (Pieces.brow0 (iblk m hO c 5 t)) (ix3 0 r j)
      = Cert.Spec.high (xA m c) (sidA m c) (WA m c) (biasA m c) (sembA m c) (bembA m c) (ix3 b s j) := by
  refine (Pay.pay3_apply _ _ r j).trans ?_
  rw [Point.act_at m hO c hids t b q ht hT r j s hs, Point.bemb0_at m hO c t j]
  rfl

/-- The second output's payload over the point's loads, at (0, r, j): `mid` at (b, s, j). -/
theorem mid_of_loads (hO : Ok m) (c : Dev nD) (hids : Cert.Spec.IdsInRange (sidA m c)) (t : Fin (cfgM m hO).N) (b : Fin 32) (q : Fin 4)
    (ht : t.val = 4 * b.val + q.val) (hT : k0_chk1 (Pieces.tword c (grid0.coords t) (tbl m 0))) (r : Fin 512) (j : Fin 1024) (s : Fin 2048)
    (hs : s.val = 512 * q.val + r.val) :
    k0_pay4 (F := Ideal) (k0_pay8 (F := Ideal) (iblk m hO c 0 t) (Pieces.Wsl (iblk m hO c 2 t) (Pieces.tword c (grid0.coords t) (tbl m 0)) hT)
        (Pieces.rowsl (iblk m hO c 3 t) (Pieces.tword c (grid0.coords t) (tbl m 0)) hT)
        (Pieces.rowsl (iblk m hO c 4 t) (Pieces.tword c (grid0.coords t) (tbl m 0)) hT)) (Pieces.brow1 (iblk m hO c 5 t)) (ix3 0 r j)
      = Cert.Spec.mid (xA m c) (sidA m c) (WA m c) (biasA m c) (sembA m c) (bembA m c) (ix3 b s j) := by
  refine (Pay.pay4_apply _ _ r j).trans ?_
  rw [Point.act_at m hO c hids t b q ht hT r j s hs, Point.bemb1_at m hO c t j]
  rfl

/-- Whichever control case point t is in, the first output's staging buffer is the one payload of the point's loads. -/
theorem out6_loads (hO : Ok m) (hH : Hyps m hO) (c : Dev nD) (t : Fin (cfgM m hO).N) :
    (outsAt0 m hO hH c t.val t.isLt).1 = k0_pay3 (actv m hO hH c t) (Pieces.brow0 (X5 m hO c t)) := by
  by_cases h0 : t.val % 4 = 0
  · exact o6_A m hO hH c t h0 (by omega)
  · by_cases h1 : t.val % 4 = 3
    · exact o6_C m hO hH c t h0 h1
    · exact o6_B m hO hH c t h0 h1

/-- And the second output's staging buffer likewise. -/
theorem out7_loads (hO : Ok m) (hH : Hyps m hO) (c : Dev nD) (t : Fin (cfgM m hO).N) :
    (outsAt0 m hO hH c t.val t.isLt).2.1 = k0_pay4 (actv m hO hH c t) (Pieces.brow1 (X5 m hO c t)) := by
  by_cases h0 : t.val % 4 = 0
  · exact o7_A m hO hH c t h0 (by omega)
  · by_cases h1 : t.val % 4 = 3
    · exact o7_C m hO hH c t h0 h1
    · exact o7_B m hO hH c t h0 h1

/-- After point t = 4 b + q the first output's staging buffer holds, at (0, r, j), `high` at (b, 512 q + r, j). -/
theorem out6_spec (hO : Ok m) (hH : Hyps m hO) (c : Dev nD) (hids : Cert.Spec.IdsInRange (sidA m c))
    (t : Fin (cfgM m hO).N) (b : Fin 32) (q : Fin 4) (ht : t.val = 4 * b.val + q.val) (r : Fin 512) (j : Fin 1024)
    (s : Fin 2048) (hs : s.val = 512 * q.val + r.val) :
    (outsAt0 m hO hH c t.val t.isLt).1 (ix3 0 r j)
      = Cert.Spec.high (xA m c) (sidA m c) (WA m c) (biasA m c) (sembA m c) (bembA m c) (ix3 b s j) :=
  (congrFun (out6_loads m hO hH c t) (ix3 0 r j)).trans (high_of_loads m hO c hids t b q ht (Hyps.c0 hH c t) r j s hs)

/-- After point t = 4 b + q the second output's staging buffer holds, at (0, r, j), `mid` at (b, 512 q + r, j). -/
theorem out7_spec (hO : Ok m) (hH : Hyps m hO) (c : Dev nD) (hids : Cert.Spec.IdsInRange (sidA m c))
    (t : Fin (cfgM m hO).N) (b : Fin 32) (q : Fin 4) (ht : t.val = 4 * b.val + q.val) (r : Fin 512) (j : Fin 1024)
    (s : Fin 2048) (hs : s.val = 512 * q.val + r.val) :
    (outsAt0 m hO hH c t.val t.isLt).2.1 (ix3 0 r j)
      = Cert.Spec.mid (xA m c) (sidA m c) (WA m c) (biasA m c) (sembA m c) (bembA m c) (ix3 b s j) :=
  (congrFun (out7_loads m hO hH c t) (ix3 0 r j)).trans (mid_of_loads m hO c hids t b q ht (Hyps.c0 hH c t) r j s hs)

end Cert.KernelIdeal.Inv

end
-- ==== Proof.KRun.lean ====
/-
  From blocks to arrays. The grid has 32 × 4 points; point t works on sample b = t / 4 and row tile q = t % 4.
  The first two results are written back, at every point, through the [1, 512, 1024] block at block index
  (b, q, 0): rows 512 q … 512 q + 511 of sample b. The third result's [1, 1, 1024] block at block index (b, 0, 0)
  is written back only at the last row tile (q = 3), when the masked row sums and the mask count of the whole
  sequence have been accumulated. Per point, the staging buffers hold the specification's `high`, `mid`, `low` at the
  indices the block covers; each index of a result array lies in exactly the block of point 4 b + s / 512
  (4 b + 3 for the third), so after all write-backs each array is the whole specification function, and the
  arguments are as launched.
-/
import proofs.«419683_j38096359915876_3_alg».proof.Proof.KInvariant
import proofs.«419683_j38096359915876_3_alg».proof.Proof.KHighMid
import proofs.«419683_j38096359915876_3_alg».proof.Proof.KHyps
import Idealize.ShloMosaic.Lib.Pipeline.Value

set_option maxRecDepth 16384

noncomputable section

namespace Cert.KernelIdeal.HandRun

open Cert.KernelIdeal Cert.KernelIdeal.Gen Idealize.ShloMosaic Idealize.ShloMosaic.ValueIdx Idealize.SL.Sem
open Idealize.ShloMosaic.Pipeline (Dat)

variable (m : (ℓ : Loc nD τ sig) → Buf (Elt Ideal) ℓ) (ρ : Dev nD → PrngReg)

/-! ## The three results as whole arrays -/

/-- The first result over the launch memory's arguments: activation plus branch embedding 0, at every (b, s, j). -/
abbrev highA (c : Dev nD) : Cert.Spec.SX.Idx → EReal :=
  Cert.Spec.high (Inv.xA m c) (Inv.sidA m c) (Inv.WA m c) (Inv.biasA m c) (Inv.sembA m c) (Inv.bembA m c)
/-- The second result: activation plus branch embedding 1. -/
abbrev midA (c : Dev nD) : Cert.Spec.SX.Idx → EReal :=
  Cert.Spec.mid (Inv.xA m c) (Inv.sidA m c) (Inv.WA m c) (Inv.biasA m c) (Inv.sembA m c) (Inv.bembA m c)
/-- The third result: the masked mean over the sequence plus branch embedding 2, at every (b, 0, j). -/
abbrev lowA (c : Dev nD) : Cert.Spec.SLow.Idx → EReal :=
  Cert.Spec.low (Inv.xA m c) (Inv.sidA m c) (Inv.maskA m c) (Inv.WA m c) (Inv.biasA m c) (Inv.sembA m c) (Inv.bembA m c)

/-! ## Where each point's blocks sit

Point t of the 32 × 4 grid is sample b = t / 4, row tile q = t % 4. The first two results' blocks are
[1, 512, 1024] at block index (b, q, 0): rows 512 q … 512 q + 511 of sample b. The third result's block is
[1, 1, 1024] at block index (b, 0, 0), written back at the points with q = 3 only. The facts are stated at any
admissible contents of the prefetched table (no index map reads it). -/

theorem idx_high (a : (pcfg0 (F := Ideal)).Adm) : ∀ t : Fin (cfg0 a).N,
    ((cfg0 a).win 6).index t (0 : Fin 3) = t.val / 4 ∧ ((cfg0 a).win 6).index t (1 : Fin 3) = t.val % 4
      ∧ ((cfg0 a).win 6).index t (2 : Fin 3) = 0 :=
  (by decide +kernel : ∀ t : Fin grid0.N, cc0_transform_6 (grid0.coords t) (0 : Fin 3) = t.val / 4
      ∧ cc0_transform_6 (grid0.coords t) (1 : Fin 3) = t.val % 4 ∧ cc0_transform_6 (grid0.coords t) (2 : Fin 3) = 0)

theorem idx_mid (a : (pcfg0 (F := Ideal)).Adm) : ∀ t : Fin (cfg0 a).N,
    ((cfg0 a).win 7).index t (0 : Fin 3) = t.val / 4 ∧ ((cfg0 a).win 7).index t (1 : Fin 3) = t.val % 4
      ∧ ((cfg0 a).win 7).index t (2 : Fin 3) = 0 :=
  (by decide +kernel : ∀ t : Fin grid0.N, cc0_transform_7 (grid0.coords t) (0 : Fin 3) = t.val / 4
      ∧ cc0_transform_7 (grid0.coords t) (1 : Fin 3) = t.val % 4 ∧ cc0_transform_7 (grid0.coords t) (2 : Fin 3) = 0)

theorem idx_low (a : (pcfg0 (F := Ideal)).Adm) : ∀ t : Fin (cfg0 a).N,
    ((cfg0 a).win 8).index t (0 : Fin 3) = t.val / 4 ∧ ((cfg0 a).win 8).index t (1 : Fin 3) = 0
      ∧ ((cfg0 a).win 8).index t (2 : Fin 3) = 0 :=
  (by decide +kernel : ∀ t : Fin grid0.N, cc0_transform_8 (grid0.coords t) (0 : Fin 3) = t.val / 4
      ∧ cc0_transform_8 (grid0.coords t) (1 : Fin 3) = 0 ∧ cc0_transform_8 (grid0.coords t) (2 : Fin 3) = 0)

/-! ## A staging buffer that agrees with a whole-array function on its block is that function's block -/

/-- If contents `f` of the first result's staging buffer hold, at (0, r, j), the whole-array function `G` at
    (t / 4, 512 (t % 4) + r, j), then what point `t` writes back is block `t` of `G`. -/
theorem block_high (a : (pcfg0 (F := Ideal)).Adm) (t : Fin (cfg0 a).N) (f : Vec Ideal S1x512x1024 .f32) (G : Cert.Spec.SX.Idx → EReal)
    (h : ∀ (r : Fin 512) (j : Fin 1024) (b : Fin 32) (s : Fin 2048), b.val = t.val / 4 → s.val = 512 * (t.val % 4) + r.val →
      f (ix3 0 r j) = G (ix3 b s j)) :
    ((cfg0 a).win 6).cut (grid0.coords t) f = (((cfg0 a).win 6).blk t).view.read (Elt Ideal) G := by
  refine funext fun (y : S1x512x1024.Idx) => ?_
  show f (((cfg0 a).win 6).xinj (grid0.coords t) y) = G ((((cfg0 a).win 6).blk t).view.emb y)
  have hN : (cfg0 a).N = 128 := N_0
  have ht := t.isLt
  have hy0 : (y 0).val < 1 := (y 0).isLt
  have hy1 : (y 1).val < 512 := (y 1).isLt
  have hy2 : (y 2).val < 1024 := (y 2).isLt
  obtain ⟨e0, e1, e2⟩ := idx_high a t
  have hl : ((cfg0 a).win 6).xinj (grid0.coords t) y = ix3 0 ⟨(y 1).val, hy1⟩ ⟨(y 2).val, hy2⟩ := by
    funext d; apply Fin.ext
    match d with
    | ⟨0, _⟩ => show (y 0).val = 0; omega
    | ⟨1, _⟩ => rfl
    | ⟨2, _⟩ => rfl
  have hr : (((cfg0 a).win 6).blk t).view.emb y
      = ix3 (⟨t.val / 4, by omega⟩ : Fin 32) (⟨512 * (t.val % 4) + (y 1).val, by omega⟩ : Fin 2048) ⟨(y 2).val, hy2⟩ := by
    funext d; apply Fin.ext
    match d with
    | ⟨0, _⟩ => show ((cfg0 a).win 6).index t (0 : Fin 3) * 1 + 1 * (y 0).val = t.val / 4; omega
    | ⟨1, _⟩ => show ((cfg0 a).win 6).index t (1 : Fin 3) * 512 + 1 * (y 1).val = 512 * (t.val % 4) + (y 1).val; omega
    | ⟨2, _⟩ => show ((cfg0 a).win 6).index t (2 : Fin 3) * 1024 + 1 * (y 2).val = (y 2).val; omega
  rw [hl, hr]
  exact h _ _ _ _ rfl rfl

/-- The same for the second result's staging buffer. -/
theorem block_mid (a : (pcfg0 (F := Ideal)).Adm) (t : Fin (cfg0 a).N) (f : Vec Ideal S1x512x1024 .f32) (G : Cert.Spec.SX.Idx → EReal)
    (h : ∀ (r : Fin 512) (j : Fin 1024) (b : Fin 32) (s : Fin 2048), b.val = t.val / 4 → s.val = 512 * (t.val % 4) + r.val →
      f (ix3 0 r j) = G (ix3 b s j)) :
    ((cfg0 a).win 7).cut (grid0.coords t) f = (((cfg0 a).win 7).blk t).view.read (Elt Ideal) G := by
  refine funext fun (y : S1x512x1024.Idx) => ?_
  show f (((cfg0 a).win 7).xinj (grid0.coords t) y) = G ((((cfg0 a).win 7).blk t).view.emb y)
  have hN : (cfg0 a).N = 128 := N_0
  have ht := t.isLt
  have hy0 : (y 0).val < 1 := (y 0).isLt
  have hy1 : (y 1).val < 512 := (y 1).isLt
  have hy2 : (y 2).val < 1024 := (y 2).isLt
  obtain ⟨e0, e1, e2⟩ := idx_mid a t
  have hl : ((cfg0 a).win 7).xinj (grid0.coords t) y = ix3 0 ⟨(y 1).val, hy1⟩ ⟨(y 2).val, hy2⟩ := by
    funext d; apply Fin.ext
    match d with
    | ⟨0, _⟩ => show (y 0).val = 0; omega
    | ⟨1, _⟩ => rfl
    | ⟨2, _⟩ => rfl
  have hr : (((cfg0 a).win 7).blk t).view.emb y
      = ix3 (⟨t.val / 4, by omega⟩ : Fin 32) (⟨512 * (t.val % 4) + (y 1).val, by omega⟩ : Fin 2048) ⟨(y 2).val, hy2⟩ := by
    funext d; apply Fin.ext
    match d with
    | ⟨0, _⟩ => show ((cfg0 a).win 7).index t (0 : Fin 3) * 1 + 1 * (y 0).val = t.val / 4; omega
    | ⟨1, _⟩ => show ((cfg0 a).win 7).index t (1 : Fin 3) * 512 + 1 * (y 1).val = 512 * (t.val % 4) + (y 1).val; omega
    | ⟨2, _⟩ => show ((cfg0 a).win 7).index t (2 : Fin 3) * 1024 + 1 * (y 2).val = (y 2).val; omega
  rw [hl, hr]
  exact h _ _ _ _ rfl rfl

/-- If contents `f` of the third result's staging buffer hold, at (0, 0, j), the whole-array function `G` at
    (t / 4, 0, j), then what point `t` writes back is block `t` of `G`. -/
theorem block_low (a : (pcfg0 (F := Ideal)).Adm) (t : Fin (cfg0 a).N) (f : Vec Ideal S1x1x1024 .f32) (G : Cert.Spec.SLow.Idx → EReal)
    (h : ∀ (j : Fin 1024) (b : Fin 32), b.val = t.val / 4 → f (ix3 0 0 j) = G (ix3 b 0 j)) :
    ((cfg0 a).win 8).cut (grid0.coords t) f = (((cfg0 a).win 8).blk t).view.read (Elt Ideal) G := by
  refine funext fun (y : S1x1x1024.Idx) => ?_
  show f (((cfg0 a).win 8).xinj (grid0.coords t) y) = G ((((cfg0 a).win 8).blk t).view.emb y)
  have hN : (cfg0 a).N = 128 := N_0
  have ht := t.isLt
  have hy0 : (y 0).val < 1 := (y 0).isLt
  have hy1 : (y 1).val < 1 := (y 1).isLt
  have hy2 : (y 2).val < 1024 := (y 2).isLt
  obtain ⟨e0, e1, e2⟩ := idx_low a t
  have hl : ((cfg0 a).win 8).xinj (grid0.coords t) y = ix3 0 0 ⟨(y 2).val, hy2⟩ := by
    funext d; apply Fin.ext
    match d with
    | ⟨0, _⟩ => show (y 0).val = 0; omega
    | ⟨1, _⟩ => show (y 1).val = 0; omega
    | ⟨2, _⟩ => rfl
  have hr : (((cfg0 a).win 8).blk t).view.emb y = ix3 (⟨t.val / 4, by omega⟩ : Fin 32) 0 ⟨(y 2).val, hy2⟩ := by
    funext d; apply Fin.ext
    match d with
    | ⟨0, _⟩ => show ((cfg0 a).win 8).index t (0 : Fin 3) * 1 + 1 * (y 0).val = t.val / 4; omega
    | ⟨1, _⟩ => show ((cfg0 a).win 8).index t (1 : Fin 3) * 1 + 1 * (y 1).val = 0; omega
    | ⟨2, _⟩ => show ((cfg0 a).win 8).index t (2 : Fin 3) * 1024 + 1 * (y 2).val = (y 2).val; omega
  rw [hl, hr]
  exact h _ _ rfl

/-! ## What each point writes back -/

/-- Point `t` writes back block `t` of the first result. -/
theorem flushed_high (hO : Ok m) (hH : Hyps m hO) (c : Dev nD) (hids : Cert.Spec.IdsInRange (Inv.sidA m c)) (t : Fin (cfgM m hO).N) :
    (dats m hO hH 0 c).flushed 6 t = (((cfgM m hO).win 6).blk t).view.read (Elt Ideal) (highA m c) := by
  show ((cfgM m hO).win 6).cut (grid0.coords t) ((dats m hO hH 0 c).after 6 t) = _
  rw [after0_6]
  have hN : (cfgM m hO).N = 128 := N_0
  have ht := t.isLt
  exact block_high (adm m hO) t (outsAt0 m hO hH c t.val t.isLt).1 (highA m c) fun r j b s hb hs =>
    Inv.out6_spec m hO hH c hids t b ⟨t.val % 4, Nat.mod_lt _ (by decide)⟩ (by show t.val = 4 * b.val + t.val % 4; omega) r j s hs

/-- Point `t` writes back block `t` of the second result. -/
theorem flushed_mid (hO : Ok m) (hH : Hyps m hO) (c : Dev nD) (hids : Cert.Spec.IdsInRange (Inv.sidA m c)) (t : Fin (cfgM m hO).N) :
    (dats m hO hH 0 c).flushed 7 t = (((cfgM m hO).win 7).blk t).view.read (Elt Ideal) (midA m c) := by
  show ((cfgM m hO).win 7).cut (grid0.coords t) ((dats m hO hH 0 c).after 7 t) = _
  rw [after0_7]
  have hN : (cfgM m hO).N = 128 := N_0
  have ht := t.isLt
  exact block_mid (adm m hO) t (outsAt0 m hO hH c t.val t.isLt).2.1 (midA m c) fun r j b s hb hs =>
    Inv.out7_spec m hO hH c hids t b ⟨t.val % 4, Nat.mod_lt _ (by decide)⟩ (by show t.val = 4 * b.val + t.val % 4; omega) r j s hs

/-- A point `t` that writes the third result's block back (its row tile is the last, t % 4 = 3) writes block `t` of it. -/
theorem flushed_low (hO : Ok m) (hH : Hyps m hO) (c : Dev nD) (hids : Cert.Spec.IdsInRange (Inv.sidA m c)) (t : Fin (cfgM m hO).N)
    (hf : ((cfgM m hO).win 8).flush t = true) :
    (dats m hO hH 0 c).flushed 8 t = (((cfgM m hO).win 8).blk t).view.read (Elt Ideal) (lowA m c) := by
  show ((cfgM m hO).win 8).cut (grid0.coords t) ((dats m hO hH 0 c).after 8 t) = _
  rw [after0_8]
  have h3 : t.val % 4 = 3 := (flush0_8 (adm m hO) t).mp hf
  exact block_low (adm m hO) t (outsAt0 m hO hH c t.val t.isLt).2.2.1 (lowA m c) fun j b hb =>
    Inv.out8_spec m hO hH c hids t b (by omega) j

/-! ## The blocks cover the arrays

An index lies in point t's block exactly when, on every axis, its coordinate lies in the block's range there:
block index × block size up to that plus the block size. -/

theorem mem_high (a : (pcfg0 (F := Ideal)).Adm) (t : Fin (cfg0 a).N) (i : Cert.Spec.SX.Idx) :
    i ∈ (((cfg0 a).win 6).blk t).view.set ↔ ∀ d : Fin 3, ((cfg0 a).win 6).index t d * S1x512x1024.size d ≤ (i d).val
      ∧ (i d).val < ((cfg0 a).win 6).index t d * S1x512x1024.size d + S1x512x1024.size d :=
  (Eq.to_iff (congrArg (fun s => i ∈ s) (View.set_slice_whole main_v4_0 (((cfg0 a).win 6).rect t)))).trans Rect.mem_set_unit

theorem mem_mid (a : (pcfg0 (F := Ideal)).Adm) (t : Fin (cfg0 a).N) (i : Cert.Spec.SX.Idx) :
    i ∈ (((cfg0 a).win 7).blk t).view.set ↔ ∀ d : Fin 3, ((cfg0 a).win 7).index t d * S1x512x1024.size d ≤ (i d).val
      ∧ (i d).val < ((cfg0 a).win 7).index t d * S1x512x1024.size d + S1x512x1024.size d :=
  (Eq.to_iff (congrArg (fun s => i ∈ s) (View.set_slice_whole main_v4_1 (((cfg0 a).win 7).rect t)))).trans Rect.mem_set_unit

theorem mem_low (a : (pcfg0 (F := Ideal)).Adm) (t : Fin (cfg0 a).N) (i : Cert.Spec.SLow.Idx) :
    i ∈ (((cfg0 a).win 8).blk t).view.set ↔ ∀ d : Fin 3, ((cfg0 a).win 8).index t d * S1x1x1024.size d ≤ (i d).val
      ∧ (i d).val < ((cfg0 a).win 8).index t d * S1x1x1024.size d + S1x1x1024.size d :=
  (Eq.to_iff (congrArg (fun s => i ∈ s) (View.set_slice_whole main_v4_2 (((cfg0 a).win 8).rect t)))).trans Rect.mem_set_unit

/-- Entry (b, s, j) of the first result is in the block of point 4 b + s / 512, which writes it back. -/
theorem cover_high (a : (pcfg0 (F := Ideal)).Adm) (i : Cert.Spec.SX.Idx) :
    ∃ t : Fin (cfg0 a).N, ((cfg0 a).win 6).flush t = true ∧ i ∈ (((cfg0 a).win 6).blk t).view.set := by
  have hN : (cfg0 a).N = 128 := N_0
  have h0 : (i 0).val < 32 := (i 0).isLt
  have h1 : (i 1).val < 2048 := (i 1).isLt
  have h2 : (i 2).val < 1024 := (i 2).isLt
  have hlt : 4 * (i 0).val + (i 1).val / 512 < (cfg0 a).N := by omega
  refine ⟨⟨4 * (i 0).val + (i 1).val / 512, hlt⟩, flush0_6 a _, ?_⟩
  rw [mem_high]
  obtain ⟨e0, e1, e2⟩ := idx_high a ⟨4 * (i 0).val + (i 1).val / 512, hlt⟩
  have e0' : ((cfg0 a).win 6).index ⟨4 * (i 0).val + (i 1).val / 512, hlt⟩ (0 : Fin 3) = (4 * (i 0).val + (i 1).val / 512) / 4 := e0
  have e1' : ((cfg0 a).win 6).index ⟨4 * (i 0).val + (i 1).val / 512, hlt⟩ (1 : Fin 3) = (4 * (i 0).val + (i 1).val / 512) % 4 := e1
  intro d
  match d with
  | ⟨0, _⟩ =>
    show ((cfg0 a).win 6).index ⟨4 * (i 0).val + (i 1).val / 512, hlt⟩ (0 : Fin 3) * 1 ≤ (i 0).val
      ∧ (i 0).val < ((cfg0 a).win 6).index ⟨4 * (i 0).val + (i 1).val / 512, hlt⟩ (0 : Fin 3) * 1 + 1
    omega
  | ⟨1, _⟩ =>
    show ((cfg0 a).win 6).index ⟨4 * (i 0).val + (i 1).val / 512, hlt⟩ (1 : Fin 3) * 512 ≤ (i 1).val
      ∧ (i 1).val < ((cfg0 a).win 6).index ⟨4 * (i 0).val + (i 1).val / 512, hlt⟩ (1 : Fin 3) * 512 + 512
    omega
  | ⟨2, _⟩ =>
    show ((cfg0 a).win 6).index ⟨4 * (i 0).val + (i 1).val / 512, hlt⟩ (2 : Fin 3) * 1024 ≤ (i 2).val
      ∧ (i 2).val < ((cfg0 a).win 6).index ⟨4 * (i 0).val + (i 1).val / 512, hlt⟩ (2 : Fin 3) * 1024 + 1024
    omega

/-- Entry (b, s, j) of the second result is in the block of point 4 b + s / 512, which writes it back. -/
theorem cover_mid (a : (pcfg0 (F := Ideal)).Adm) (i : Cert.Spec.SX.Idx) :
    ∃ t : Fin (cfg0 a).N, ((cfg0 a).win 7).flush t = true ∧ i ∈ (((cfg0 a).win 7).blk t).view.set := by
  have hN : (cfg0 a).N = 128 := N_0
  have h0 : (i 0).val < 32 := (i 0).isLt
  have h1 : (i 1).val < 2048 := (i 1).isLt
  have h2 : (i 2).val < 1024 := (i 2).isLt
  have hlt : 4 * (i 0).val + (i 1).val / 512 < (cfg0 a).N := by omega
  refine ⟨⟨4 * (i 0).val + (i 1).val / 512, hlt⟩, flush0_7 a _, ?_⟩
  rw [mem_mid]
  obtain ⟨e0, e1, e2⟩ := idx_mid a ⟨4 * (i 0).val + (i 1).val / 512, hlt⟩
  have e0' : ((cfg0 a).win 7).index ⟨4 * (i 0).val + (i 1).val / 512, hlt⟩ (0 : Fin 3) = (4 * (i 0).val + (i 1).val / 512) / 4 := e0
  have e1' : ((cfg0 a).win 7).index ⟨4 * (i 0).val + (i 1).val / 512, hlt⟩ (1 : Fin 3) = (4 * (i 0).val + (i 1).val / 512) % 4 := e1
  intro d
  match d with
  | ⟨0, _⟩ =>
    show ((cfg0 a).win 7).index ⟨4 * (i 0).val + (i 1).val / 512, hlt⟩ (0 : Fin 3) * 1 ≤ (i 0).val
      ∧ (i 0).val < ((cfg0 a).win 7).index ⟨4 * (i 0).val + (i 1).val / 512, hlt⟩ (0 : Fin 3) * 1 + 1
    omega
  | ⟨1, _⟩ =>
    show ((cfg0 a).win 7).index ⟨4 * (i 0).val + (i 1).val / 512, hlt⟩ (1 : Fin 3) * 512 ≤ (i 1).val
      ∧ (i 1).val < ((cfg0 a).win 7).index ⟨4 * (i 0).val + (i 1).val / 512, hlt⟩ (1 : Fin 3) * 512 + 512
    omega
  | ⟨2, _⟩ =>
    show ((cfg0 a).win 7).index ⟨4 * (i 0).val + (i 1).val / 512, hlt⟩ (2 : Fin 3) * 1024 ≤ (i 2).val
      ∧ (i 2).val < ((cfg0 a).win 7).index ⟨4 * (i 0).val + (i 1).val / 512, hlt⟩ (2 : Fin 3) * 1024 + 1024
    omega

/-- Entry (b, 0, j) of the third result is in the block of point 4 b + 3, the one point of sample b that writes it back. -/
theorem cover_low (a : (pcfg0 (F := Ideal)).Adm) (i : Cert.Spec.SLow.Idx) :
    ∃ t : Fin (cfg0 a).N, ((cfg0 a).win 8).flush t = true ∧ i ∈ (((cfg0 a).win 8).blk t).view.set := by
  have hN : (cfg0 a).N = 128 := N_0
  have h0 : (i 0).val < 32 := (i 0).isLt
  have h1 : (i 1).val < 1 := (i 1).isLt
  have h2 : (i 2).val < 1024 := (i 2).isLt
  have hlt : 4 * (i 0).val + 3 < (cfg0 a).N := by omega
  refine ⟨⟨4 * (i 0).val + 3, hlt⟩, (flush0_8 a _).mpr (by show (4 * (i 0).val + 3) % 4 = 3; omega), ?_⟩
  rw [mem_low]
  obtain ⟨e0, e1, e2⟩ := idx_low a ⟨4 * (i 0).val + 3, hlt⟩
  have e0' : ((cfg0 a).win 8).index ⟨4 * (i 0).val + 3, hlt⟩ (0 : Fin 3) = (4 * (i 0).val + 3) / 4 := e0
  intro d
  match d with
  | ⟨0, _⟩ =>
    show ((cfg0 a).win 8).index ⟨4 * (i 0).val + 3, hlt⟩ (0 : Fin 3) * 1 ≤ (i 0).val
      ∧ (i 0).val < ((cfg0 a).win 8).index ⟨4 * (i 0).val + 3, hlt⟩ (0 : Fin 3) * 1 + 1
    omega
  | ⟨1, _⟩ =>
    show ((cfg0 a).win 8).index ⟨4 * (i 0).val + 3, hlt⟩ (1 : Fin 3) * 1 ≤ (i 1).val
      ∧ (i 1).val < ((cfg0 a).win 8).index ⟨4 * (i 0).val + 3, hlt⟩ (1 : Fin 3) * 1 + 1
    omega
  | ⟨2, _⟩ =>
    show ((cfg0 a).win 8).index ⟨4 * (i 0).val + 3, hlt⟩ (2 : Fin 3) * 1024 ≤ (i 2).val
      ∧ (i 2).val < ((cfg0 a).win 8).index ⟨4 * (i 0).val + 3, hlt⟩ (2 : Fin 3) * 1024 + 1024
    omega

/-! ## The arrays after the run -/

theorem final_high (hO : Ok m) (hH : Hyps m hO) (c : Dev nD) (hids : Cert.Spec.IdsInRange (Inv.sidA m c)) :
    (dats m hO hH 0 c).arrAt 6 (cfgM m hO).N = highA m c :=
  (dats m hO hH 0 c).arrAt_eq_of_cover 6 (highA m c) (fun t _ => flushed_high m hO hH c hids t) (cover_high (adm m hO))

theorem final_mid (hO : Ok m) (hH : Hyps m hO) (c : Dev nD) (hids : Cert.Spec.IdsInRange (Inv.sidA m c)) :
    (dats m hO hH 0 c).arrAt 7 (cfgM m hO).N = midA m c :=
  (dats m hO hH 0 c).arrAt_eq_of_cover 7 (midA m c) (fun t _ => flushed_mid m hO hH c hids t) (cover_mid (adm m hO))

theorem final_low (hO : Ok m) (hH : Hyps m hO) (c : Dev nD) (hids : Cert.Spec.IdsInRange (Inv.sidA m c)) :
    (dats m hO hH 0 c).arrAt 8 (cfgM m hO).N = lowA m c :=
  (dats m hO hH 0 c).arrAt_eq_of_cover 8 (lowA m c) (fun t hf => flushed_low m hO hH c hids t hf) (cover_low (adm m hO))

/-! ## The run -/

/-- On the label range, every execution of the program ends with the three results at `high`, `mid`, `low` of the
    arguments as launched, and the arguments unchanged. -/
theorem run (hids : ∀ c, Cert.Spec.IdsInRange (Inv.sidA m c)) :
    θ_run (defs (F := Ideal)) (onTc (τ := τ) (main (F := Ideal))) ⟨m, fun _ => 0, ρ⟩ (fun r => ∀ c : Dev nD,
      r.2.mem ((c.tc : Thread nD τ).loc main_v4_0) = Cert.Spec.high (Inv.xA m c) (Inv.sidA m c) (Inv.WA m c) (Inv.biasA m c) (Inv.sembA m c) (Inv.bembA m c)
      ∧ r.2.mem ((c.tc : Thread nD τ).loc main_v4_1) = Cert.Spec.mid (Inv.xA m c) (Inv.sidA m c) (Inv.WA m c) (Inv.biasA m c) (Inv.sembA m c) (Inv.bembA m c)
      ∧ r.2.mem ((c.tc : Thread nD τ).loc main_v4_2) = Cert.Spec.low (Inv.xA m c) (Inv.sidA m c) (Inv.maskA m c) (Inv.WA m c) (Inv.biasA m c) (Inv.sembA m c) (Inv.bembA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hO : Ok m := Hyp.ok (m := m)
  have hH : Hyps m hO := Hyp.hyps (m := m) hO
  refine (θ_run defs _ _).mono (fun r h c => ?_) (run_main m ρ hO hH)
  exact ⟨((h c).1 6).trans (final_high m hO hH c (hids c)),
    ((h c).1 7).trans (final_mid m hO hH c (hids c)),
    ((h c).1 8).trans (final_low m hO hH c (hids c)),
    ((h c).1 0).trans (((dats m hO hH 0 c).arrAt_in 0 rfl _).trans ((A_eq m hO hH c 0).trans (V_main_arg0 m c))),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).1 3).trans (((dats m hO hH 0 c).arrAt_in 3 rfl _).trans ((A_eq m hO hH c 3).trans (V_main_arg4 m c))),
    ((h c).1 4).trans (((dats m hO hH 0 c).arrAt_in 4 rfl _).trans ((A_eq m hO hH c 4).trans (V_main_arg5 m c))),
    ((h c).1 5).trans (((dats m hO hH 0 c).arrAt_in 5 rfl _).trans ((A_eq m hO hH c 5).trans (V_main_arg6 m c)))⟩

end Cert.KernelIdeal.HandRun

end
-- ==== Proof.RefValue.lean ====
/-
  The reference program's result arrays, read back index by index, are the specification's three functions of the
  argument arrays.

  For sample `b` the reference forms the start index `idx_b = if sid_b < 0 then sid_b + 3 else sid_b` (signed) and
  gathers the weight matrix, the bias row and the scale-embedding row at `idx_b` clamped into `[0, 2]`. On the label
  range `sid_b ∈ {0, 1, 2}` the wrap is the identity and the clamp is `Spec.expert sid b`. The contraction over the
  last axes plus the bias is `Spec.lin`; the outlined activation `x · (1 / (1 + exp (−x)))` is `x · logistic x` once
  the word 0x3F800000 is read as one; adding the scale embedding gives `Spec.act`. The mask weight is the compare
  bit read as an unsigned integer (one or zero: `Spec.weight`); each of the two sums over the 2048 rows is the zero
  word plus the finite sum, so `Spec.cnt` and `Spec.wsum`; the denominator is floored at the word 0x358637BD
  (`Spec.eps`), and the three branch-embedding rows are rows 0, 1, 2 of the last argument.
-/
import proofs.«419683_j38096359915876_3_alg».proof.Proof.Gen.ReferenceIdeal.Run
import proofs.«419683_j38096359915876_3_alg».proof.Proof.Gen.ReferenceIdeal.Read
import proofs.«419683_j38096359915876_3_alg».proof.Proof.Spec

noncomputable section

namespace Cert.ReferenceIdeal.HandValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The two gathers read at an index

Both gathers collapse operand axis 0 (slice size one there), take their one start-index component from column 0 of
the `[32, 1]` start indices, and copy the remaining operand axes whole. So result element `(b, p, q)` (or `(b, p)`) is
the operand at `(clamp idx[b, 0], p, q)`: on axis 0 the start index read signed and clamped into `[0, 3 − 1]`, no
batching and no offset coordinate; on every other axis start 0, no batching coordinate, and the result's own
coordinate as the offset. -/

/-- The gather of the `[3, 1024, 1024]` operand at `(b, p, q)`: the operand at row `idx[b, 0]`, read signed and clamped
    into `[0, 2]`, and the same `(p, q)`. -/
theorem gatherW {α : Type} (x : S3x1024x1024.Idx → α) (idx : IVec S32x1 32) (b : Fin 32) (p q : Fin 1024) :
    Host.gather gather_S3x1024x1024_S32x1_S32x1024x1024_12_0_n_n_0_1_110241024 x idx (ix3 b p q)
      = x (ix3 (⟨min (idx (ix2 b (0 : Fin 1))).toInt.toNat 2, by omega⟩ : Fin 3) p q) := by
  unfold Host.gather
  congr 1
  funext a
  refine Fin.ext ?_
  match a with
  | ⟨0, _⟩ =>
    show gather_S3x1024x1024_S32x1_S32x1024x1024_12_0_n_n_0_1_110241024.start (ix3 b p q) idx 0 + gather_S3x1024x1024_S32x1_S32x1024x1024_12_0_n_n_0_1_110241024.batchCoord (ix3 b p q) 0 + gather_S3x1024x1024_S32x1_S32x1024x1024_12_0_n_n_0_1_110241024.offCoord (ix3 b p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S3x1024x1024_S32x1_S32x1024x1024_12_0_n_n_0_1_110241024.startIndexMap from List.mem_singleton.mpr rfl)]
    have hsi : gather_S3x1024x1024_S32x1_S32x1024x1024_12_0_n_n_0_1_110241024.siIdx (ix3 b p q) ⟨List.idxOf (0 : Fin 3) gather_S3x1024x1024_S32x1_S32x1024x1024_12_0_n_n_0_1_110241024.startIndexMap,
        List.idxOf_lt_length_iff.2 (List.mem_singleton.mpr rfl)⟩ = ix2 b (0 : Fin 1) := by
      funext e; refine Fin.ext ?_
      match e with
      | ⟨0, _⟩ => rfl
      | ⟨1, _⟩ => rfl
    rw [hsi]
    rfl
  | ⟨1, _⟩ =>
    show gather_S3x1024x1024_S32x1_S32x1024x1024_12_0_n_n_0_1_110241024.start (ix3 b p q) idx 1 + gather_S3x1024x1024_S32x1_S32x1024x1024_12_0_n_n_0_1_110241024.batchCoord (ix3 b p q) 1 + gather_S3x1024x1024_S32x1_S32x1024x1024_12_0_n_n_0_1_110241024.offCoord (ix3 b p q) 1 = p.val
    rw [GatherDims.batchCoord_eq_zero _ _ _ List.not_mem_nil]
    unfold GatherDims.start
    rw [dif_neg (show ¬ (1 : Fin 3) ∈ gather_S3x1024x1024_S32x1_S32x1024x1024_12_0_n_n_0_1_110241024.startIndexMap by decide)]
    unfold GatherDims.offCoord
    rw [dif_pos (show (1 : Fin 3) ∈ gather_S3x1024x1024_S32x1_S32x1024x1024_12_0_n_n_0_1_110241024.sKept by decide)]
    have key : ∀ (n : Nat) (hn : n < gather_S3x1024x1024_S32x1_S32x1024x1024_12_0_n_n_0_1_110241024.offsetDims.length), n = 0 →
        gather_S3x1024x1024_S32x1_S32x1024x1024_12_0_n_n_0_1_110241024.offsetDims[n]'hn = (1 : Fin 3) := by
      intro n hn h0; subst h0; rfl
    rw [key _ _ (by decide), Nat.zero_add]
  | ⟨2, _⟩ =>
    show gather_S3x1024x1024_S32x1_S32x1024x1024_12_0_n_n_0_1_110241024.start (ix3 b p q) idx 2 + gather_S3x1024x1024_S32x1_S32x1024x1024_12_0_n_n_0_1_110241024.batchCoord (ix3 b p q) 2 + gather_S3x1024x1024_S32x1_S32x1024x1024_12_0_n_n_0_1_110241024.offCoord (ix3 b p q) 2 = q.val
    rw [GatherDims.batchCoord_eq_zero _ _ _ List.not_mem_nil]
    unfold GatherDims.start
    rw [dif_neg (show ¬ (2 : Fin 3) ∈ gather_S3x1024x1024_S32x1_S32x1024x1024_12_0_n_n_0_1_110241024.startIndexMap by decide)]
    unfold GatherDims.offCoord
    rw [dif_pos (show (2 : Fin 3) ∈ gather_S3x1024x1024_S32x1_S32x1024x1024_12_0_n_n_0_1_110241024.sKept by decide)]
    have key : ∀ (n : Nat) (hn : n < gather_S3x1024x1024_S32x1_S32x1024x1024_12_0_n_n_0_1_110241024.offsetDims.length), n = 1 →
        gather_S3x1024x1024_S32x1_S32x1024x1024_12_0_n_n_0_1_110241024.offsetDims[n]'hn = (2 : Fin 3) := by
      intro n hn h0; subst h0; rfl
    rw [key _ _ (by decide), Nat.zero_add]

/-- The gather of a `[3, 1024]` operand at `(b, p)`: the operand at row `idx[b, 0]`, read signed and clamped into
    `[0, 2]`, and the same column `p`. -/
theorem gatherR {α : Type} (x : S3x1024.Idx → α) (idx : IVec S32x1 32) (b : Fin 32) (p : Fin 1024) :
    Host.gather gather_S3x1024_S32x1_S32x1024_1_0_n_n_0_1_11024 x idx (ix2 b p)
      = x (ix2 (⟨min (idx (ix2 b (0 : Fin 1))).toInt.toNat 2, by omega⟩ : Fin 3) p) := by
  unfold Host.gather
  congr 1
  funext a
  refine Fin.ext ?_
  match a with
  | ⟨0, _⟩ =>
    show gather_S3x1024_S32x1_S32x1024_1_0_n_n_0_1_11024.start (ix2 b p) idx 0 + gather_S3x1024_S32x1_S32x1024_1_0_n_n_0_1_11024.batchCoord (ix2 b p) 0 + gather_S3x1024_S32x1_S32x1024_1_0_n_n_0_1_11024.offCoord (ix2 b p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S3x1024_S32x1_S32x1024_1_0_n_n_0_1_11024.startIndexMap from List.mem_singleton.mpr rfl)]
    have hsi : gather_S3x1024_S32x1_S32x1024_1_0_n_n_0_1_11024.siIdx (ix2 b p) ⟨List.idxOf (0 : Fin 2) gather_S3x1024_S32x1_S32x1024_1_0_n_n_0_1_11024.startIndexMap,
        List.idxOf_lt_length_iff.2 (List.mem_singleton.mpr rfl)⟩ = ix2 b (0 : Fin 1) := by
      funext e; refine Fin.ext ?_
      match e with
      | ⟨0, _⟩ => rfl
      | ⟨1, _⟩ => rfl
    rw [hsi]
    rfl
  | ⟨1, _⟩ =>
    show gather_S3x1024_S32x1_S32x1024_1_0_n_n_0_1_11024.start (ix2 b p) idx 1 + gather_S3x1024_S32x1_S32x1024_1_0_n_n_0_1_11024.batchCoord (ix2 b p) 1 + gather_S3x1024_S32x1_S32x1024_1_0_n_n_0_1_11024.offCoord (ix2 b p) 1 = p.val
    rw [GatherDims.batchCoord_eq_zero _ _ _ List.not_mem_nil]
    unfold GatherDims.start
    rw [dif_neg (show ¬ (1 : Fin 2) ∈ gather_S3x1024_S32x1_S32x1024_1_0_n_n_0_1_11024.startIndexMap by decide)]
    unfold GatherDims.offCoord
    rw [dif_pos (show (1 : Fin 2) ∈ gather_S3x1024_S32x1_S32x1024_1_0_n_n_0_1_11024.sKept by decide)]
    have key : ∀ (n : Nat) (hn : n < gather_S3x1024_S32x1_S32x1024_1_0_n_n_0_1_11024.offsetDims.length), n = 0 →
        gather_S3x1024_S32x1_S32x1024_1_0_n_n_0_1_11024.offsetDims[n]'hn = (1 : Fin 2) := by
      intro n hn h0; subst h0; rfl
    rw [key _ _ (by decide), Nat.zero_add]

/-! ## Words -/

/-- The mask weight of a word: the bit of the signed comparison `w > 0`, read as an unsigned integer, is one where
    `w` is positive and zero elsewhere. -/
theorem weight_word (w : BitVec 32) :
    FloatOps.uitofp (F := Ideal) .f32 (IntOp.cmpi .sgt w 0#32) = (if 0 < w.toInt then (1 : EReal) else 0) := by
  by_cases h : 0 < w.toInt
  · rw [if_pos h]
    have : IntOp.cmpi .sgt w 0#32 = 1#1 := by
      simp [IntOp.cmpi, BitVec.slt, h]
    rw [this]
    show (((1#1 : BitVec 1).toNat : ℝ) : EReal) = 1
    simp
  · rw [if_neg h]
    have : IntOp.cmpi .sgt w 0#32 = 0#1 := by
      simp [IntOp.cmpi, BitVec.slt, h]
    rw [this]
    show (((0#1 : BitVec 1).toNat : ℝ) : EReal) = 0
    simp

/-- The argument arrays' types, as the reference's stage functions take them. -/
abbrev TX : Type := (⟨S32x2048x1024, .f32⟩ : BufTy).Contents (Elt Ideal)
abbrev TId : Type := (⟨S32, .i32⟩ : BufTy).Contents (Elt Ideal)
abbrev TMask : Type := (⟨S32x2048, .i32⟩ : BufTy).Contents (Elt Ideal)
abbrev TW : Type := (⟨S3x1024x1024, .f32⟩ : BufTy).Contents (Elt Ideal)
abbrev TRow : Type := (⟨S3x1024, .f32⟩ : BufTy).Contents (Elt Ideal)

/-- The f32 word 0x3F800000 is the number one (sign 0, exponent 127, fraction 0). -/
theorem one_word : Ideal.ofBits .f32 0x3F800000#32 = (1 : EReal) := by
  simp [Ideal.ofBits, Ideal.ieee, -EReal.coe_mul]; norm_num

/-- On a label `w ∈ {0, 1, 2}` the reference's wrap of a negative id, `if w < 0 then w + 3 else w`, is `w`. -/
theorem wrap_label (w : BitVec 32) (h : w = 0#32 ∨ w = 1#32 ∨ w = 2#32) :
    Scalar.select (IntOp.cmpi .slt w 0#32) (IntOp.addi w 3#32) w = w := by
  rcases h with rfl | rfl | rfl <;> decide

/-! ## The start indices on the label range

The three start-index arrays (one per gather) are the same function of the scale ids: the wrap of a negative id,
broadcast to a `[32, 1]` column. On the label range each reads the id itself. -/

/-- The weight gather's start index of sample `b` is its scale id. -/
theorem v5_read (x1 : TId) (h : Cert.Spec.IdsInRange x1) (b : Fin 32) :
    val_main_v5 (F := Ideal) x1 (ix2 b (0 : Fin 1)) = x1 (ix1 b) := by
  have e : idx_main_v5 (ix2 b (0 : Fin 1)) = ix1 b := funext fun a => Fin.ext (by match a with | ⟨0, _⟩ => rfl)
  rw [val_main_v5_apply, e, val_main_v4_apply, val_main_v1_apply, val_main_v3_apply, val_main_v0_apply,
    val_main_v2_apply, val_main_c_apply, val_main_c_0_apply]
  exact wrap_label _ (h b)

/-- The bias gather's start index of sample `b` is its scale id. -/
theorem v12_read (x1 : TId) (h : Cert.Spec.IdsInRange x1) (b : Fin 32) :
    val_main_v12 (F := Ideal) x1 (ix2 b (0 : Fin 1)) = x1 (ix1 b) := by
  have e : idx_main_v12 (ix2 b (0 : Fin 1)) = ix1 b := funext fun a => Fin.ext (by match a with | ⟨0, _⟩ => rfl)
  rw [val_main_v12_apply, e, val_main_v11_apply, val_main_v8_apply, val_main_v10_apply, val_main_v7_apply,
    val_main_v9_apply, val_main_c_1_apply, val_main_c_2_apply]
  exact wrap_label _ (h b)

/-- The scale-embedding gather's start index of sample `b` is its scale id. -/
theorem v24_read (x1 : TId) (h : Cert.Spec.IdsInRange x1) (b : Fin 32) :
    val_main_v24 (F := Ideal) x1 (ix2 b (0 : Fin 1)) = x1 (ix1 b) := by
  have e : idx_main_v24 (ix2 b (0 : Fin 1)) = ix1 b := funext fun a => Fin.ext (by match a with | ⟨0, _⟩ => rfl)
  rw [val_main_v24_apply, e, val_main_v23_apply, val_main_v20_apply, val_main_v22_apply, val_main_v19_apply,
    val_main_v21_apply, val_main_c_3_apply, val_main_c_4_apply]
  exact wrap_label _ (h b)

/-- The gather's clamp of a start index that is the scale id is the specification's expert, by definition. -/
theorem clamp_expert (x1 : TId) (b : Fin 32) (w : BitVec 32) (hw : w = x1 (ix1 b)) (hlt : min w.toInt.toNat 2 < 3) :
    (⟨min w.toInt.toNat 2, hlt⟩ : Fin 3) = Cert.Spec.expert x1 b := by
  subst hw; rfl

/-! ## The gathered rows are the expert's -/

/-- The gathered weights of sample `b` are the expert's matrix. -/
theorem v6_read (x1 : TId) (x3 : TW) (h : Cert.Spec.IdsInRange x1) (b : Fin 32) (p q : Fin 1024) :
    val_main_v6 (F := Ideal) x1 x3 (ix3 b p q) = x3 (ix3 (Cert.Spec.expert x1 b) p q) := by
  unfold val_main_v6
  rw [gatherW]
  exact congrArg (fun e => x3 (ix3 e p q)) (clamp_expert x1 b _ (v5_read x1 h b) _)

/-- The gathered bias of sample `b` is the expert's bias row. -/
theorem v13_read (x1 : TId) (x4 : TRow) (h : Cert.Spec.IdsInRange x1) (b : Fin 32) (p : Fin 1024) :
    val_main_v13 (F := Ideal) x1 x4 (ix2 b p) = x4 (ix2 (Cert.Spec.expert x1 b) p) := by
  unfold val_main_v13
  rw [gatherR]
  exact congrArg (fun e => x4 (ix2 e p)) (clamp_expert x1 b _ (v12_read x1 h b) _)

/-- The gathered scale embedding of sample `b` is the expert's row. -/
theorem v25_read (x1 : TId) (x5 : TRow) (h : Cert.Spec.IdsInRange x1) (b : Fin 32) (p : Fin 1024) :
    val_main_v25 (F := Ideal) x1 x5 (ix2 b p) = x5 (ix2 (Cert.Spec.expert x1 b) p) := by
  unfold val_main_v25
  rw [gatherR]
  exact congrArg (fun e => x5 (ix2 e p)) (clamp_expert x1 b _ (v24_read x1 h b) _)

/-! ## The routed linear layer and the activation -/

/-- The contraction over the last axes of the input and the gathered weights, plus the gathered bias broadcast
    over the rows, is `Spec.lin`: `Σ_k x[b,s,k] · W[e b, j, k] + bias[e b, j]`. -/
theorem v17_read (x0 : TX) (x1 : TId) (x3 : TW) (x4 : TRow) (h : Cert.Spec.IdsInRange x1)
    (b : Fin 32) (s : Fin 2048) (j : Fin 1024) :
    val_main_v17 (F := Ideal) x0 x1 x3 x4 (ix3 b s j) = Cert.Spec.lin x0 x1 x3 x4 b s j := by
  have e : idx_main_v15 (idx_main_v16 (ix3 b s j)) = ix2 b j :=
    funext fun a => Fin.ext (by match a with | ⟨0, _⟩ => rfl | ⟨1, _⟩ => rfl)
  rw [val_main_v17_apply, val_main_v14_apply, val_main_v16_apply, val_main_v15_apply, e, v13_read x1 x4 h]
  unfold Cert.Spec.lin
  refine congrArg (· + x4 (ix2 (Cert.Spec.expert x1 b) j)) (Finset.sum_congr rfl fun k _ => ?_)
  have el : lidx_main_v14 (ix3 b s j) k = ix3 b s k :=
    funext fun a => Fin.ext (by match a with | ⟨0, _⟩ => rfl | ⟨1, _⟩ => rfl | ⟨2, _⟩ => rfl)
  have er : ridx_main_v14 (ix3 b s j) k = ix3 b j k :=
    funext fun a => Fin.ext (by match a with | ⟨0, _⟩ => rfl | ⟨1, _⟩ => rfl | ⟨2, _⟩ => rfl)
  rw [el, er, v6_read x1 x3 h]

/-- The outlined activation `y · (1 / (1 + exp (−y)))`, with both literals the word for one, is `y · logistic y`;
    plus the gathered scale embedding broadcast over the rows it is `Spec.act`. -/
theorem v28_read (x0 : TX) (x1 : TId) (x3 : TW) (x4 x5 : TRow) (h : Cert.Spec.IdsInRange x1)
    (b : Fin 32) (s : Fin 2048) (j : Fin 1024) :
    val_main_v28 (F := Ideal) x0 x1 x3 x4 x5 (ix3 b s j) = Cert.Spec.act x0 x1 x3 x4 x5 b s j := by
  have e : idx_main_v26 (idx_main_v27 (ix3 b s j)) = ix2 b j :=
    funext fun a => Fin.ext (by match a with | ⟨0, _⟩ => rfl | ⟨1, _⟩ => rfl)
  rw [val_main_v28_apply, val_main_v18_apply, val_main_call0_v5_apply, val_main_call0_v4_apply,
    val_main_call0_cst_0_apply, val_main_call0_v3_apply, val_main_call0_v2_apply, val_main_call0_cst_apply,
    val_main_call0_v1_apply, val_main_call0_v0_apply, val_main_v27_apply, val_main_v26_apply, e,
    v25_read x1 x5 h, v17_read x0 x1 x3 x4 h]
  simp only [Ideal.ofBits_def, one_word]
  rfl

/-! ## The mask weights, the count and the masked sum -/

/-- The converted compare bit of mask word `(b, s)` is `Spec.weight`. -/
theorem v31_read (x2 : TMask) (b : Fin 32) (s : Fin 2048) :
    val_main_v31 (F := Ideal) x2 (ix2 b s) = Cert.Spec.weight x2 b s := by
  rw [val_main_v31_apply, val_main_v30_apply, val_main_v29_apply, val_main_c_5_apply]
  exact weight_word _

/-- The sum of the weights over the 2048 rows, started at the zero word, is `Spec.cnt`. -/
theorem v33_read (x2 : TMask) (b : Fin 32) :
    val_main_v33 (F := Ideal) x2 (ix2 b (0 : Fin 1)) = Cert.Spec.cnt x2 b := by
  rw [val_main_v33_apply, val_main_cst_apply, Ideal.ofBits_def, Ideal.ofBits_zero_f32, zero_add]
  unfold Cert.Spec.cnt
  refine Finset.sum_congr rfl fun k _ => ?_
  have e : idx_main_v32 (idx_main_v33 (ix2 b (0 : Fin 1)) k) = ix2 b k :=
    funext fun a => Fin.ext (by match a with | ⟨0, _⟩ => rfl | ⟨1, _⟩ => rfl)
  rw [val_main_v32_apply, e, v31_read]

/-- The sum over the 2048 rows of activation times weight, started at the zero word, is `Spec.wsum`. -/
theorem v38_read (x0 : TX) (x1 : TId) (x2 : TMask) (x3 : TW) (x4 x5 : TRow) (h : Cert.Spec.IdsInRange x1)
    (b : Fin 32) (j : Fin 1024) :
    val_main_v38 (F := Ideal) x0 x1 x2 x3 x4 x5 (ix2 b j) = Cert.Spec.wsum x0 x1 x2 x3 x4 x5 b j := by
  rw [val_main_v38_apply, val_main_cst_7_apply, Ideal.ofBits_def, Ideal.ofBits_zero_f32, zero_add]
  unfold Cert.Spec.wsum
  refine Finset.sum_congr rfl fun k _ => ?_
  have e0 : idx_main_v38 (ix2 b j) k = ix3 b k j :=
    funext fun a => Fin.ext (by match a with | ⟨0, _⟩ => rfl | ⟨1, _⟩ => rfl | ⟨2, _⟩ => rfl)
  have e1 : idx_main_v32 (idx_main_v36 (ix3 b k j)) = ix2 b k :=
    funext fun a => Fin.ext (by match a with | ⟨0, _⟩ => rfl | ⟨1, _⟩ => rfl)
  rw [e0, val_main_v37_apply, val_main_v36_apply, val_main_v32_apply, e1, v31_read, v28_read x0 x1 x3 x4 x5 h]
  rfl

/-- The masked mean: the masked sum divided by the count floored at `Spec.eps`. -/
theorem v40_read (x0 : TX) (x1 : TId) (x2 : TMask) (x3 : TW) (x4 x5 : TRow) (h : Cert.Spec.IdsInRange x1)
    (b : Fin 32) (j : Fin 1024) :
    val_main_v40 (F := Ideal) x0 x1 x2 x3 x4 x5 (ix2 b j)
      = Ideal.div (Cert.Spec.wsum x0 x1 x2 x3 x4 x5 b j) (max (Cert.Spec.cnt x2 b) Cert.Spec.eps) := by
  have e : idx_main_v39 (ix2 b j) = ix2 b (0 : Fin 1) :=
    funext fun a => Fin.ext (by match a with | ⟨0, _⟩ => rfl | ⟨1, _⟩ => rfl)
  rw [val_main_v40_apply, v38_read x0 x1 x2 x3 x4 x5 h, val_main_v39_apply, e, val_main_v35_apply, v33_read,
    val_main_v34_apply, val_main_cst_6_apply]
  rfl

/-! ## The branch-embedding rows

Row `r` of the last argument is sliced out, flattened to `[1024]` (a flat position below 1024 is its own residue
modulo 1024) and broadcast over samples and rows: at any index it reads entry `(r, j)`. -/

/-- Row 0, broadcast over samples and rows. -/
theorem v44_read (x6 : TRow) (b : Fin 32) (s : Fin 2048) (j : Fin 1024) :
    val_main_v44 (F := Ideal) x6 (ix3 b s j) = x6 (ix2 (0 : Fin 3) j) := by
  rw [val_main_v44_apply, val_main_v43_apply, val_main_v42_apply, val_main_v41_apply]
  refine congrArg x6 (funext fun a => Fin.ext ?_)
  match a with
  | ⟨0, _⟩ => rfl
  | ⟨1, _⟩ => exact Nat.mod_eq_of_lt j.isLt

/-- Row 1, broadcast over samples and rows. -/
theorem v49_read (x6 : TRow) (b : Fin 32) (s : Fin 2048) (j : Fin 1024) :
    val_main_v49 (F := Ideal) x6 (ix3 b s j) = x6 (ix2 (1 : Fin 3) j) := by
  rw [val_main_v49_apply, val_main_v48_apply, val_main_v47_apply, val_main_v46_apply]
  refine congrArg x6 (funext fun a => Fin.ext ?_)
  match a with
  | ⟨0, _⟩ => rfl
  | ⟨1, _⟩ => exact Nat.mod_eq_of_lt j.isLt

/-- Row 2, broadcast over samples. -/
theorem v55_read (x6 : TRow) (b : Fin 32) (z : Fin 1) (j : Fin 1024) :
    val_main_v55 (F := Ideal) x6 (ix3 b z j) = x6 (ix2 (2 : Fin 3) j) := by
  rw [val_main_v55_apply, val_main_v54_apply, val_main_v53_apply, val_main_v52_apply]
  refine congrArg x6 (funext fun a => Fin.ext ?_)
  match a with
  | ⟨0, _⟩ => rfl
  | ⟨1, _⟩ => exact Nat.mod_eq_of_lt j.isLt

/-! ## The three results -/

/-- The first result is `Spec.high`: the activation plus branch embedding 0. -/
theorem high_eq (x0 : TX) (x1 : TId) (x3 : TW) (x4 x5 x6 : TRow) (h : Cert.Spec.IdsInRange x1) :
    val_main_v45 (F := Ideal) x0 x1 x3 x4 x5 x6 = Cert.Spec.high x0 x1 x3 x4 x5 x6 := by
  funext i
  obtain ⟨b, s, j, rfl⟩ : ∃ (b : Fin 32) (s : Fin 2048) (j : Fin 1024), i = ix3 b s j := ⟨i 0, i 1, i 2, eq_ix3 i⟩
  rw [val_main_v45_apply, v28_read x0 x1 x3 x4 x5 h, v44_read]
  rfl

/-- The second result is `Spec.mid`: the activation plus branch embedding 1. -/
theorem mid_eq (x0 : TX) (x1 : TId) (x3 : TW) (x4 x5 x6 : TRow) (h : Cert.Spec.IdsInRange x1) :
    val_main_v50 (F := Ideal) x0 x1 x3 x4 x5 x6 = Cert.Spec.mid x0 x1 x3 x4 x5 x6 := by
  funext i
  obtain ⟨b, s, j, rfl⟩ : ∃ (b : Fin 32) (s : Fin 2048) (j : Fin 1024), i = ix3 b s j := ⟨i 0, i 1, i 2, eq_ix3 i⟩
  rw [val_main_v50_apply, v28_read x0 x1 x3 x4 x5 h, v49_read]
  rfl

/-- The third result is `Spec.low`: the masked mean plus branch embedding 2. -/
theorem low_eq (x0 : TX) (x1 : TId) (x2 : TMask) (x3 : TW) (x4 x5 x6 : TRow) (h : Cert.Spec.IdsInRange x1) :
    val_main_v56 (F := Ideal) x0 x1 x2 x3 x4 x5 x6 = Cert.Spec.low x0 x1 x2 x3 x4 x5 x6 := by
  funext i
  obtain ⟨b, z, j, rfl⟩ : ∃ (b : Fin 32) (z : Fin 1) (j : Fin 1024), i = ix3 b z j := ⟨i 0, i 1, i 2, eq_ix3 i⟩
  have e : idx_main_v51 (ix3 b z j) = ix2 b j :=
    funext fun a => Fin.ext (by match a with | ⟨0, _⟩ => rfl | ⟨1, _⟩ => rfl)
  rw [val_main_v56_apply, val_main_v51_apply, e, v40_read x0 x1 x2 x3 x4 x5 h, v55_read]
  rfl

/-- From any memory whose scale ids lie in the label range, every weakly fair execution of the reference terminates
    with its three results at the specification's functions of the arguments, and the arguments unchanged. -/
theorem run (m : (ℓ : Loc nD τ sig) → Buf (Elt Ideal) ℓ) (ρ : Dev nD → PrngReg)
    (hids : ∀ c : Dev nD, Cert.Spec.IdsInRange (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v45) = Cert.Spec.high (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v50) = Cert.Spec.mid (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v56) = Cert.Spec.low (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c =>
    ⟨(h c).1.trans ((val_main_v45_eq _ _ _ _ _ _).trans (high_eq _ _ _ _ _ _ (hids c))),
     (h c).2.1.trans ((val_main_v50_eq _ _ _ _ _ _).trans (mid_eq _ _ _ _ _ _ (hids c))),
     (h c).2.2.1.trans ((val_main_v56_eq m c).trans (low_eq _ _ _ _ _ _ _ (hids c))),
     (h c).2.2.2⟩)
    (Cert.ReferenceIdeal.Value.run (F := Ideal) m ρ)

end Cert.ReferenceIdeal.HandValue

end
-- ==== Proof.lean ====
/-
  The five claims for the routed, masked-mean fusion kernel against its plain reference.

  Both idealized programs compute, for sample `b` with expert `e b` (its scale id, in the label range {0, 1, 2}):
  the routed linear layer `y = x · W[e b]ᵀ + bias[e b]`, the activation `y · logistic y + semb[e b]`, the two
  results `activation + bemb[0]` and `activation + bemb[1]`, and the masked mean of the activation over the
  sequence, its denominator floored at the shared f32 word `0x358637BD`, plus `bemb[2]` (module Spec). The kernel
  clips the id into {0, 1, 2}; the reference wraps a negative id and then clamps: on the label range both are the
  id itself, and that range is the one fact the value claim takes from the precondition. The kernel accumulates the
  masked sums tile by tile over four grid points per sample; the reference sums the 2048 rows at once: the same
  finite sum in the additive commutative monoid of the extended reals. No finiteness of the float inputs is used.

  The frames: the two kernel programs' generated frames hold under a side condition on the clipped ids they load,
  which the clip itself guarantees for every input; the reference's frame is its generated run with the results
  dropped. `preserves` has no ledger entry.
-/
import proofs.«419683_j38096359915876_3_alg».proof.Defs
import proofs.«419683_j38096359915876_3_alg».proof.Proof.Gen.Kernel
import proofs.«419683_j38096359915876_3_alg».proof.Proof.Gen.Kernel.Skeleton
import proofs.«419683_j38096359915876_3_alg».proof.Proof.Gen.Kernel.Launch
import proofs.«419683_j38096359915876_3_alg».proof.Proof.Gen.Kernel.Points
import proofs.«419683_j38096359915876_3_alg».proof.Proof.Gen.Kernel.Frame
import proofs.«419683_j38096359915876_3_alg».proof.Proof.Gen.KernelIdeal
import proofs.«419683_j38096359915876_3_alg».proof.Proof.Gen.KernelIdeal.Skeleton
import proofs.«419683_j38096359915876_3_alg».proof.Proof.Gen.KernelIdeal.Launch
import proofs.«419683_j38096359915876_3_alg».proof.Proof.Gen.KernelIdeal.Points
import proofs.«419683_j38096359915876_3_alg».proof.Proof.Gen.KernelIdeal.Frame
import proofs.«419683_j38096359915876_3_alg».proof.Proof.Gen.ReferenceIdeal
import proofs.«419683_j38096359915876_3_alg».proof.Proof.Gen.Pre_finite_inputs
import proofs.«419683_j38096359915876_3_alg».proof.Proof.Gen.ReferenceIdeal.Run
import proofs.«419683_j38096359915876_3_alg».proof.Proof.PreRead
import proofs.«419683_j38096359915876_3_alg».proof.Proof.KHyps
import proofs.«419683_j38096359915876_3_alg».proof.Proof.KHypsBits
import proofs.«419683_j38096359915876_3_alg».proof.Proof.KRun
import proofs.«419683_j38096359915876_3_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨?_, ?_, ?_, trivial, ?_⟩
  · -- the word-level kernel: its generated frame, the side condition from the clip
    exact fun m ρ _ => Cert.Kernel.Gen.frame m ρ (Cert.Kernel.Hyp.ok m) (Cert.Kernel.Hyp.hyps m (Cert.Kernel.Hyp.ok m))
  · -- the idealized kernel: the same
    exact fun m ρ _ => Cert.KernelIdeal.Gen.frame m ρ (Cert.KernelIdeal.Hyp.ok m) (Cert.KernelIdeal.Hyp.hyps m (Cert.KernelIdeal.Hyp.ok m))
  · -- the reference: its run, the three results dropped
    exact fun m ρ _ => (θ_run Cert.ReferenceIdeal.defs _ _).mono (fun _ h c => (h c).2.2.2)
      (Cert.ReferenceIdeal.Value.run (F := Ideal) m ρ)
  · -- the two runs end at the specification's three functions of arguments that agree
    intro m ρ m' ρ' hpre hagree
    have hids : ∀ c, Cert.Spec.IdsInRange (Cert.KernelIdeal.Inv.sidA m c) := fun c =>
      Cert.PreRead.ids_of_pre _ _ _ _ _ _ _ (hpre c)
    have hids' : ∀ c : Dev Cert.ReferenceIdeal.nD, Cert.Spec.IdsInRange
        (m' ((c.tc : Thread Cert.ReferenceIdeal.nD Cert.ReferenceIdeal.τ).loc Cert.ReferenceIdeal.main_arg1)) := fun c => by
      rw [(hagree c).2.1]; exact hids c
    refine ⟨_, _, _, Cert.KernelIdeal.HandRun.run m ρ hids, ?_⟩
    refine (θ_run Cert.ReferenceIdeal.defs _ _).mono (fun r h c => ?_)
      (Cert.ReferenceIdeal.HandValue.run m' ρ' hids')
    obtain ⟨h0, h1, h2, hrest⟩ := h c
    obtain ⟨a0, a1, a2, a3, a4, a5, a6⟩ := hagree c
    refine ⟨h0.trans ?_, h1.trans ?_, h2.trans ?_, hrest⟩
    · rw [a0, a1, a3, a4, a5, a6]
    · rw [a0, a1, a3, a4, a5, a6]
    · rw [a0, a1, a2, a3, a4, a5, a6]⟩

end Cert.Proof

end
